-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S10 : Shape := ⟨1, ![10]⟩
abbrev S8192x1024 : Shape := ⟨2, ![8192, 1024]⟩
abbrev S1x512x1024 : Shape := ⟨3, ![1, 512, 1024]⟩
abbrev S1 : Shape := ⟨1, ![1]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩

abbrev nBuf : Space → Nat
  | .hbm => 10
  | .vmem => 21
  | .smem => 2
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S4x2048x1024, .f32⟩
  | .hbm, ⟨8, _⟩ => ⟨S4x2048x1024, .bf16⟩
  | .hbm, ⟨9, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1024x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .f32⟩
  | .local _ .vmem, ⟨16, _⟩ => ⟨S1x512x1024, .f32⟩
  | .local _ .vmem, ⟨17, _⟩ => ⟨S512x1024, .f32⟩
  | .local _ .vmem, ⟨18, _⟩ => ⟨S512x1, .f32⟩
  | .local _ .vmem, ⟨19, _⟩ => ⟨S512x1, .f32⟩
  | .local _ .vmem, ⟨20, _⟩ => ⟨S512x1024, .f32⟩
  | .local _ .smem, ⟨0, _⟩ => ⟨S10, .i32⟩
  | .local _ .smem, ⟨1, _⟩ => ⟨S10, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc1_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond2 (v1 : BitVec 32) (v3 : BitVec 32) : BitVec 1 :=
  let v55 : BitVec 1 := Scalar.cmpi .eq v3 v1
  let v56 : BitVec 32 := Scalar.extui v55
  let c0_i32_26 : BitVec 32 := 0#32
  let v57 : BitVec 1 := Scalar.cmpi .ne v56 c0_i32_26
  v57

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_4 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'
  hstage1_4 : ∀ j, (stage1_4 j).IsWhole
  nbuf1_4 : grid1.bufCount reads1_4 false = 2
  hreads1_4 : ∀ {F : FTy → Type} [FloatOps F] (pf : pre1.Contents (Elt F)) (i i' : grid1.Coords), (∀ a, reads1_4 a = true → i a = i' a) → cc1_transform_4 k1_off1_inb numel1_S1 pf i = cc1_transform_4 k1_off1_inb numel1_S1 pf i'

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_arg0) S1x512x1024.size reads1_0 false false 2 stage1_0 sem1_0 nbuf1_0 hstage1_0

abbrev spec1_1 : Pipeline.WinSpec sig grid1.rank :=
  Pipeline.WinSpec.ofSpec (Memref.whole main_arg1) S1024x1024.size reads1_1 false true 1 stage1_1 sem1_1 nbuf1_1 hstage1_1

abbrev spec1_2 : Pipeline.WinSpec sig grid1.rank :=
  Pipeline.WinSpec.ofSpec (Memref.whole main_v2) S1x512x1024.size reads1_2 false false 2 stage1_2 sem1_2 nbuf1_2 hstage1_2

abbrev spec1_3 : Pipeline.WinSpec sig grid1.rank :=
  Pipeline.WinSpec.ofSpec (Memref.whole main_v3) S1x512x1024.size reads1_3 false false 2 stage1_3 sem1_3 nbuf1_3 hstage1_3

abbrev spec1_4 : Pipeline.WinSpec sig grid1.rank :=
  Pipeline.WinSpec.ofSpec (Memref.whole main_v4) S1x512x1024.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 k1_off1_inb numel1_S1 pf | 1 => cc1_transform_1 | 2 => cc1_transform_2 k1_off1_inb numel1_S1 pf | 3 => cc1_transform_3 k1_off1_inb numel1_S1 pf | 4 => cc1_transform_4 k1_off1_inb numel1_S1 pf | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | 2 => hreads1_2 pf | 3 => hreads1_3 pf | 4 => hreads1_4 pf | ⟨_ + 5, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x512x1024.size a ≤ S4x2048x1024.size a), EltTy.bits .f32 = 32 ∨ (Rect.block (s := S4x2048x1024) S1x512x1024.size (cc1_transform_0 k1_off1_inb numel1_S1 pf i) h).WholeWords (EltTy.packing .f32)) ∧
  (∀ i : grid1.Coords, ∃ h : (∀ a, (cc1_transform_2 k1_off1_inb numel1_S1 pf i a + 1) * S1x512x1024.size a ≤ S4x2048x1024.size a), EltTy.bits .f32 = 32 ∨ (Rect.block (s := S4x2048x1024) S1x512x1024.size (cc1_transform_2 k1_off1_inb numel1_S1 pf i) h).WholeWords (EltTy.packing .f32)) ∧
  (∀ i : grid1.Coords, ∃ h : (∀ a, (cc1_transform_3 k1_off1_inb numel1_S1 pf i a + 1) * S1x512x1024.size a ≤ S4x2048x1024.size a), EltTy.bits .bf16 = 32 ∨ (Rect.block (s := S4x2048x1024) S1x512x1024.size (cc1_transform_3 k1_off1_inb numel1_S1 pf i) h).WholeWords (EltTy.packing .bf16)) ∧
  (∀ i : grid1.Coords, ∃ h : (∀ a, (cc1_transform_4 k1_off1_inb numel1_S1 pf i a + 1) * S1x512x1024.size a ≤ S4x2048x1024.size a), EltTy.bits .f32 = 32 ∨ (Rect.block (s := S4x2048x1024) S1x512x1024.size (cc1_transform_4 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => hinb1_1 | 2 => fun i a => (hok.2.1 i).elim fun h _ => h a | 3 => fun i a => (hok.2.2.1 i).elim fun h _ => h a | 4 => fun i a => (hok.2.2.2 i).elim fun h _ => h a | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => hwx1_1 | 2 => fun i => (hok.2.1 i).elim fun _ h => h | 3 => fun i => (hok.2.2.1 i).elim fun _ h => h | 4 => fun i => (hok.2.2.2 i).elim fun _ h => h | ⟨_ + 5, h⟩ => absurd h (Nat.not_lt.2 (Nat.le_add_left _ _))
abbrev idle1 (pf : pre1.Contents (Elt F)) : Fin 5 → grid1.Coords → Bool := fun | 0 => fun _ => false | 1 => fun _ => false | 2 => fun _ => false | 3 => fun _ => false | 4 => fun i => !(k1_cond2 (pf.atD 0 (k1_off1 i)) (pf.atD 1 (k1_off1 i)) == 1#1) | ⟨_ + 5, h⟩ => absurd h (Nat.not_lt.2 (Nat.le_add_left _ _))

class Facts : Prop extends Facts₀ where
  harr1 : ∀ w, (spec1 w).arr.IsWhole

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S4x2048x2048, .i1⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Kv.lean ====
/- REGION 0 of the idealized kernel program: the key/value projection kernel on its grid of 8 points, as the
   class-A half at a parameter V (the TensorCore's buffer contents when the region is entered). Per window its
   block at a point; what the body leaves in each output's buffer as a canonical piece list; the body's triple;
   the pipeline's proof data and the body obligation. Generic in the float carrier. -/
import proofs.«409614_j37976100831500_3_alg».proof.Proof.Gen.KernelIdeal.Launch
import proofs.«409614_j37976100831500_3_alg».proof.Proof.Gen.KernelIdeal.Skeleton
import proofs.«409614_j37976100831500_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 1024 per axis recurses once per coordinate
set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row block) holds its block at every point: it is fetched at every point,
    and in any case an input whose body leaves the block in place holds what a fetch there would put. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the key weights, whole) is fetched at the first point only; its block index never moves, so
    the buffer holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the value weights, whole): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle every access of the body goes through: the whole 1024 x 1024 buffer. -/
abbrev rK : Rect S1024x1024 := Rect.unit (s := S1024x1024) ![0, 0] S1024x1024.size inb_S1024x1024_S1024x1024_0_0

/-! ## What the body leaves in each output window's buffer -/

/-- The key block: the activations' block times the key weights, one store over the whole buffer. -/
def out0_3 (x0 x1 : Vec F S1024x1024 .f32) : Vec F S1024x1024 .f32 :=
  View.canon [⟨rK, k0_pay2 (View.ld x0 rK) (View.ld x1 rK)⟩]

/-- The value block: both operands rounded to bf16, multiplied, the product rounded to bf16; one store over the
    whole buffer. -/
def out0_4 (x0 x2 : Vec F S1024x1024 .f32) : Vec F S1024x1024 .bf16 :=
  View.canon [⟨rK, k0_pay3 (View.ld x0 rK) (View.ld x2 rK)⟩]

/-- The single whole-buffer store covers the buffer. -/
theorem cover0_3 (p0 : Vec F S1024x1024 .f32) (y : S1024x1024.Idx) :
    ∃ pc ∈ ([⟨rK, p0⟩] : List (View.Piece (Elt F) S1024x1024 .f32)), y ∈ pc.1.set :=
  View.cover_of_tiled [⟨rK, p0⟩] S1024x1024.size (by rfl) y

theorem cover0_4 (p0 : Vec F S1024x1024 .bf16) (y : S1024x1024.Idx) :
    ∃ pc ∈ ([⟨rK, p0⟩] : List (View.Piece (Elt F) S1024x1024 .bf16)), y ∈ pc.1.set :=
  View.cover_of_tiled [⟨rK, p0⟩] S1024x1024.size (by rfl) y

/-! ## The body's triple -/

set_option maxHeartbeats 1000000 in
/-- The body on whole staging memrefs, the three inputs' at read contents and the two outputs' at anything, runs to
    the continuation holding the inputs' as they were and each output's at its canonical contents. -/
theorem sound_kernel0 (c : Dev nD) (E : Set ℕ) (i : grid0.Coords)
    (arg1 : Memref sig .tc .vmem S1024x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S1024x1024 .bf16) (harg5 : arg5.IsWhole)
    (x0 x1 x2 : Vec F S1024x1024 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1)
            ∗ owns (c : Thread nD τ) arg5 fullShare (out0_4 x0 x2)) -∗ K ⟨⟩))
      ⊢ wp frame (wpE (defs₀ (F := F)) Variants.none c none) E
          (cc0__kv_proj_kernel i arg1 harg1 arg2 harg2 arg3 harg3 arg4 harg4 arg5 harg5) K := by
  simp only [cc0__kv_proj_kernel_eq_skeleton]; unfold cc0__kv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the projection pipeline on core c: the arrays as the region finds them; after the body at
    point t each input's buffer at its block, the key output's at the product of the activations' block and the
    key weights, the value output's at the rounded product with the value weights; the class-A invariant; full
    shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : Pipeline.BodyObligation (dat0 (F := F) V c) (defs₀ (F := F)) Variants.none () Set.univ := fun t => by
  rw [bigSep_W0, bigSep_W0]
  exact sound_body0 V c t

end Cert.KernelIdeal.Hand

end
-- ==== Proof.FlashPure.lean ====
/-
  The flash-attention kernel's body as pure functions of what it reads: the state it carries between grid
  points in its four scratch buffers (the projected query tile, the running row maxima, the running
  denominators, the running numerators) and the output tile it stores at a query tile's last key tile.

  At a grid point the body reads two words (the query-tile index and the key-tile index of the step), and:
  at a query tile's FIRST key tile (key index 0) it projects the query tile and resets the other three;
  it then folds the key tile into maxima, denominators and numerators; at the LAST key tile (key index =
  query index) it stores numerators / denominators.
-/
import proofs.«409614_j37976100831500_3_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F] [Named F]

/-- What the four scratch buffers hold: query tile, row maxima, denominators, numerators. -/
abbrev St (F : FTy → Type) : Type :=
  Vec F S512x1024 .f32 × Vec F S512x1 .f32 × Vec F S512x1 .f32 × Vec F S512x1024 .f32

/-- The step is a query tile's first: its key-tile word is 0 (the body's own test of the word). -/
abbrev isFirst (v3 : BitVec 32) : Prop :=
  (Scalar.cmpi .ne (Scalar.extui (Scalar.cmpi .eq v3 0#32)) 0#32) = 1#1

/-- The step is a query tile's last: its key-tile word equals its query-tile word (the body's own test). -/
abbrev isLast (v1 v3 : BitVec 32) : Prop := k1_cond2 v1 v3 = 1#1

/-- The scratch contents after the first conditional: projected and reset at a first step, else as found. -/
def reset (v3 : BitVec 32) (xb : Vec F S1x512x1024 .f32) (wq : Vec F S1024x1024 .f32) (st : St F) : St F :=
  if isFirst v3 then (k1_pay5 xb wq, k1_pay6, k1_pay7, k1_pay8) else st

/-- The scratch contents after the body at a step with words `v1` (query tile) and `v3` (key tile), the
    query block `xb`, the query weights `wq`, the key block `kb` and the value block `vb`. -/
def stepS (v1 v3 : BitVec 32) (xb : Vec F S1x512x1024 .f32) (wq : Vec F S1024x1024 .f32)
    (kb : Vec F S1x512x1024 .f32) (vb : Vec F S1x512x1024 .bf16) (st : St F) : St F :=
  let r := reset v3 xb wq st
  (r.1,
   k1_pay3 (k1_pay11 v1 v3 r.1 kb r.2.1),
   k1_pay1 (k1_pay13 v1 v3 r.1 kb r.2.1) (k1_pay14 v1 v3 r.1 kb r.2.1 r.2.2.1),
   k1_pay2 (k1_pay9 vb) (k1_pay12 v1 v3 r.1 kb r.2.1) (k1_pay13 v1 v3 r.1 kb r.2.1) r.2.2.2)

/-- The output tile's staging buffer after the body: stored at a last step, else as found (`o`). -/
def outO (v1 v3 : BitVec 32) (xb : Vec F S1x512x1024 .f32) (wq : Vec F S1024x1024 .f32)
    (kb : Vec F S1x512x1024 .f32) (vb : Vec F S1x512x1024 .bf16) (o : Vec F S1x512x1024 .f32) (st : St F) :
    Vec F S1x512x1024 .f32 :=
  if isLast v1 v3 then k1_pay4 (stepS v1 v3 xb wq kb vb st).2.2.2 (stepS v1 v3 xb wq kb vb st).2.2.1 else o

/-- The word a step reads from a step table `T` at grid point `i`: the table's element at the step coordinate. -/
def wd (T : S10.Idx → BitVec 32) (i : grid1.Coords) : BitVec 32 :=
  T ((Rect.unit (s := S10) (k1_off1 i) S1.size (k1_off1_inb i)).emb (Shape.Idx.first (numel1_S1.symm ▸ Nat.one_pos)))

/-- A first step forgets what the scratch buffers held. -/
theorem stepS_first (v1 v3 : BitVec 32) (h : isFirst v3) (xb : Vec F S1x512x1024 .f32) (wq : Vec F S1024x1024 .f32)
    (kb : Vec F S1x512x1024 .f32) (vb : Vec F S1x512x1024 .bf16) (st st' : St F) :
    stepS v1 v3 xb wq kb vb st = stepS v1 v3 xb wq kb vb st' := by
  unfold stepS reset; rw [if_pos h, if_pos h]

end Cert.KernelIdeal.Hand

end
-- ==== Proof.FlashSched.lean ====
/-
  The flash-attention call at the tables its host program pins: the step tables are the two literal
  constants of @main — query-tile index 0 1 1 2 2 2 3 3 3 3 and key-tile index 0 0 1 0 1 2 0 1 2 3 over
  the ten steps of a batch element: every pair (query tile, key tile ≤ query tile) once, key tiles
  ascending inside a query tile.
-/
import proofs.«409614_j37976100831500_3_alg».proof.Proof.Gen.KernelIdeal.Launch
import proofs.«409614_j37976100831500_3_alg».proof.Proof.FlashPure
import Idealize.ShloMosaic.Lib.Pipeline.TableIdle
import Idealize.ShloMosaic.PureOps.BitExact

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F] [Named F]

/-- The two step tables' contents: the literal constants @main writes into them. -/
def tbl : pre1.Contents (Elt F) := fun k => match k with
  | ⟨0, _⟩ => fun i => lit0 (S10.rowMajor i)
  | ⟨1, _⟩ => fun i => lit1 (S10.rowMajor i)

/-- At these contents every table-indexed block lies inside its array. -/
theorem tbl_ok_bits : ok1 (F := Bits) tbl := by decide +kernel
theorem tbl_ok : ok1 (F := F) tbl := tbl_ok_bits

/-- The admissible contents of every call's tables: call 0 has none. -/
def adm : (p : Fin 2) → (pcfgs (F := F) p).Adm
  | ⟨0, _⟩ => cfg0.toPCfg_adm
  | ⟨1, _⟩ => ⟨tbl, tbl_ok⟩

/-- The flash call's pipeline at the pinned tables. -/
abbrev cfgA : Pipeline.Cfg sig Λ₀ := cfg1 (F := F) ⟨tbl, tbl_ok⟩

example : Pipeline.pin (pcfgs (F := F)) adm 1 = cfgA (F := F) := rfl
example : Pipeline.pin (pcfgs (F := F)) adm 0 = cfg0 := rfl
theorem cfgA_N : (cfgA (F := F)).N = 40 := N_1

/-- The query-tile word at point t. -/
def w1 (t : Fin (cfgA (F := F)).N) : BitVec 32 := wd (tbl (F := F) 0) ((cfgA (F := F)).grid.coords t)
/-- The key-tile word at point t. -/
def w3 (t : Fin (cfgA (F := F)).N) : BitVec 32 := wd (tbl (F := F) 1) ((cfgA (F := F)).grid.coords t)

/-- The output window is written back exactly at the last key tile of a query tile, and is idle everywhere
    else: decided over the 40 grid points (no float operation is involved, so one carrier decides for all). -/
theorem sched4_ideal : ∀ t : Fin (cfgA (F := Ideal)).N,
    ((cfgA (F := Ideal)).win 4).flush t = decide (isLast (w1 (F := Ideal) t) (w3 (F := Ideal) t))
    ∧ (cfgA (F := Ideal)).idle 4 ((cfgA (F := Ideal)).grid.coords t) = !decide (isLast (w1 (F := Ideal) t) (w3 (F := Ideal) t)) := by
  decide +kernel
theorem sched4 : ∀ t : Fin (cfgA (F := F)).N,
    ((cfgA (F := F)).win 4).flush t = decide (isLast (w1 (F := F) t) (w3 (F := F) t))
    ∧ (cfgA (F := F)).idle 4 ((cfgA (F := F)).grid.coords t) = !decide (isLast (w1 (F := F) t) (w3 (F := F) t)) :=
  sched4_ideal

/-- The region's first point is a query tile's first key tile. -/
theorem first0_ideal : ∀ h : 0 < (cfgA (F := Ideal)).N, isFirst (w3 (F := Ideal) ⟨0, h⟩) := by decide +kernel
theorem first0 : ∀ h : 0 < (cfgA (F := F)).N, isFirst (w3 (F := F) ⟨0, h⟩) := first0_ideal

/-- The output window's current buffer holds nothing the body stored whenever the body runs: every point
    either writes the block back or leaves the buffer untouched. -/
theorem fresh4 : ∀ n, n ≤ (cfgA (F := F)).N → (cfgA (F := F)).fresh 4 n = true :=
  Pipeline.Cfg.fresh_tab (cfgA (F := F)) 4 (fun _ => true) rfl (fun t => by
    rw [(sched4 (F := F) t).1, (sched4 (F := F) t).2]
    cases decide (isLast (w1 (F := F) t) (w3 (F := F) t)) <;> rfl)

end Cert.KernelIdeal.Hand

end
-- ==== Proof.FlashTraj.lean ====
/-
  The flash call at the pinned step tables, point by point: the two words a point reads, each
  window's block there, and the contents of the four scratch buffers after each point (a recursion over
  the points: the body's pure step applied to what the point before left).
-/
import proofs.«409614_j37976100831500_3_alg».proof.Proof.FlashSched

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F] [Named F]

variable (V : (c : Dev nD) → (b : Ref sig .tc) → Buf (Elt F) ((c : Thread nD τ).loc b))

/-- Window `w`'s block at point `t`, read off its array as the region finds it (`V`). -/
def iblk1 (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V c (Pipeline.arrRef spec1 w))

/-- The body's pure step at point `t` over what the scratch buffers held. -/
def stepAt (c : Dev nD) (t : Fin (cfgA (F := F)).N) (st : St F) : St F :=
  stepS (w1 (F := F) t) (w3 (F := F) t) (iblk1 V c 0 t) (iblk1 V c 1 t) (iblk1 V c 2 t) (iblk1 V c 3 t) st

/-- A state to start the recursion from: the first point is a first step and forgets it. -/
def st0 : St F := (k1_pay8, k1_pay7, k1_pay7, k1_pay8)

/-- What the four scratch buffers hold AFTER point `n` (before the first point: anything). -/
def traj (c : Dev nD) : (n : ℕ) → n < (cfgA (F := F)).N → St F
  | 0, h => stepAt V c ⟨0, h⟩ st0
  | n + 1, h => stepAt V c ⟨n + 1, h⟩ (traj c n (Nat.lt_of_succ_lt h))

theorem traj_zero (c : Dev nD) (h : 0 < (cfgA (F := F)).N) :
    traj V c 0 h = stepAt V c ⟨0, h⟩ st0 := rfl

theorem traj_succ (c : Dev nD) (n : ℕ) (h : n + 1 < (cfgA (F := F)).N) :
    traj V c (n + 1) h = stepAt V c ⟨n + 1, h⟩ (traj V c n (Nat.lt_of_succ_lt h)) := rfl

end Cert.KernelIdeal.Hand

end
-- ==== Proof.FlashRun.lean ====
/-
  The flash-attention kernel's body at one grid point, as a triple: from the two step tables, the five
  windows' staging buffers and the four scratch buffers at given contents, the body runs to a state in which
  the tables and the four input buffers are as they were, the scratch buffers hold `stepS` of what they
  held, and the output buffer holds `outO`.

  The body branches twice, on the two words it reads from the tables: whether the step is a query tile's
  first (it then projects the query tile and resets the running maxima, denominators and numerators) and
  whether it is its last (it then stores numerators / denominators). Each of the four combinations is one
  straight-line sequence of whole-buffer loads and stores; the triple is proved per combination and the
  four are put together by cases. Every access is the whole buffer, so a buffer reads back the payload of
  the last store into it, and a load before any store reads what the buffer held on entry.
-/
import proofs.«409614_j37976100831500_3_alg».proof.Proof.FlashPure
import proofs.«409614_j37976100831500_3_alg».proof.Proof.Gen.KernelIdeal.Launch
import proofs.«409614_j37976100831500_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384
set_option Elab.async false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

namespace FlashRun

/-- Both offsets of a rank-two access are zero. -/
theorem hz2 : (![0, 0] : Fin 2 → ℕ) = fun _ => 0 := by funext a; fin_cases a <;> rfl
/-- All three offsets of a rank-three access are zero. -/
theorem hz3 : (![0, 0, 0] : Fin 3 → ℕ) = fun _ => 0 := by funext a; fin_cases a <;> rfl

section Whole

variable {Val : EltTy → Type} [∀ e, Nonempty (Val e)] {S : Shape} {e : EltTy}
variable {sg : RefSig} {κ : Kind} {sp : Space}

/-- After a list of writes whose LAST one fills the whole shape, the buffer reads that write's payload. -/
theorem read_writes_head (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h inb]

/-- A load of the whole shape after writes whose last one fills it reads that write's payload. -/
theorem readCov_head (v : View sg κ sp S e) {off : Fin S.rank → Nat}
    (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h inb, View.ld_unit_zero h inb]

end Whole

section Cases

variable (v1 v3 : BitVec 32) (xb : Vec F S1x512x1024 .f32) (wq : Vec F S1024x1024 .f32)
  (kb : Vec F S1x512x1024 .f32) (vb : Vec F S1x512x1024 .bf16) (o : Vec F S1x512x1024 .f32) (st : St F)

/-- The scratch after a step that is not a query tile's first: the query tile kept, the rest folded from what was found. -/
theorem stepS_of_not_first (h : ¬ isFirst v3) : stepS v1 v3 xb wq kb vb st =
    (st.1, k1_pay3 (k1_pay11 v1 v3 st.1 kb st.2.1),
      k1_pay1 (k1_pay13 v1 v3 st.1 kb st.2.1) (k1_pay14 v1 v3 st.1 kb st.2.1 st.2.2.1),
      k1_pay2 (k1_pay9 vb) (k1_pay12 v1 v3 st.1 kb st.2.1) (k1_pay13 v1 v3 st.1 kb st.2.1) st.2.2.2) := by
  unfold stepS reset; rw [if_neg h]

/-- The scratch after a query tile's first step: the projected query tile, the rest folded from the reset values. -/
theorem stepS_of_first (h : isFirst v3) : stepS v1 v3 xb wq kb vb st =
    (k1_pay5 xb wq, k1_pay3 (k1_pay11 v1 v3 (k1_pay5 xb wq) kb k1_pay6),
      k1_pay1 (k1_pay13 v1 v3 (k1_pay5 xb wq) kb k1_pay6) (k1_pay14 v1 v3 (k1_pay5 xb wq) kb k1_pay6 k1_pay7),
      k1_pay2 (k1_pay9 vb) (k1_pay12 v1 v3 (k1_pay5 xb wq) kb k1_pay6) (k1_pay13 v1 v3 (k1_pay5 xb wq) kb k1_pay6) k1_pay8) := by
  unfold stepS reset; rw [if_pos h]

theorem outO_of_not_last (h : ¬ isLast v1 v3) : outO v1 v3 xb wq kb vb o st = o := by
  unfold outO; rw [if_neg h]

theorem outO_of_last (h : isLast v1 v3) : outO v1 v3 xb wq kb vb o st =
    k1_pay4 (stepS v1 v3 xb wq kb vb st).2.2.2 (stepS v1 v3 xb wq kb vb st).2.2.1 := by
  unfold outO; rw [if_pos h]

end Cases

set_option maxHeartbeats 1000000 in
/-- A query tile's first step that is also its last (query tile 0): project and reset, fold the key tile, store the output. -/
theorem run_A (c : Dev nD) (E : Set ℕ) (i : grid1.Coords)
    (arg4 : Memref sig .tc .vmem S1x512x1024 .f32) (harg4 : arg4.IsWhole) (arg5 : Memref sig .tc .vmem S1024x1024 .f32) (harg5 : arg5.IsWhole)
    (arg6 : Memref sig .tc .vmem S1x512x1024 .f32) (harg6 : arg6.IsWhole) (arg7 : Memref sig .tc .vmem S1x512x1024 .bf16) (harg7 : arg7.IsWhole)
    (arg8 : Memref sig .tc .vmem S1x512x1024 .f32) (harg8 : arg8.IsWhole)
    (T0 T1 : S10.Idx → BitVec 32) (qT : PosShare TreeShare)
    (xb : Vec F S1x512x1024 .f32) (wq : Vec F S1024x1024 .f32) (kb : Vec F S1x512x1024 .f32) (vb : Vec F S1x512x1024 .bf16) (o : Vec F S1x512x1024 .f32)
    (st : St F) (K : PUnit → sProp 𝕄)
    (hc0 : isFirst (wd T1 i)) (hc1 : isLast (wd T0 i) (wd T1 i)) :
    iprop(((Memref.whole main_c : Memref sig .tc .smem S10 .i32).view.loc (c : Thread nD τ) ↦{qT} T0) ∗ ((Memref.whole main_c_0 : Memref sig .tc .smem S10 .i32).view.loc (c : Thread nD τ) ↦{qT} T1)
        ∗ owns (c : Thread nD τ) arg4 fullShare xb ∗ owns (c : Thread nD τ) arg5 fullShare wq ∗ owns (c : Thread nD τ) arg6 fullShare kb
        ∗ owns (c : Thread nD τ) arg7 fullShare vb ∗ owns (c : Thread nD τ) arg8 fullShare o
        ∗ owns (c : Thread nD τ) (Memref.whole cc1_scratch0) fullShare st.1 ∗ owns (c : Thread nD τ) (Memref.whole cc1_scratch1) fullShare st.2.1
        ∗ owns (c : Thread nD τ) (Memref.whole cc1_scratch2) fullShare st.2.2.1 ∗ owns (c : Thread nD τ) (Memref.whole cc1_scratch3) fullShare st.2.2.2
        ∗ (iprop(((Memref.whole main_c : Memref sig .tc .smem S10 .i32).view.loc (c : Thread nD τ) ↦{qT} T0) ∗ ((Memref.whole main_c_0 : Memref sig .tc .smem S10 .i32).view.loc (c : Thread nD τ) ↦{qT} T1)
            ∗ owns (c : Thread nD τ) arg4 fullShare xb ∗ owns (c : Thread nD τ) arg5 fullShare wq ∗ owns (c : Thread nD τ) arg6 fullShare kb
            ∗ owns (c : Thread nD τ) arg7 fullShare vb ∗ owns (c : Thread nD τ) arg8 fullShare (outO (wd T0 i) (wd T1 i) xb wq kb vb o st)
            ∗ owns (c : Thread nD τ) (Memref.whole cc1_scratch0) fullShare (stepS (wd T0 i) (wd T1 i) xb wq kb vb st).1
            ∗ owns (c : Thread nD τ) (Memref.whole cc1_scratch1) fullShare (stepS (wd T0 i) (wd T1 i) xb wq kb vb st).2.1
            ∗ owns (c : Thread nD τ) (Memref.whole cc1_scratch2) fullShare (stepS (wd T0 i) (wd T1 i) xb wq kb vb st).2.2.1
            ∗ owns (c : Thread nD τ) (Memref.whole cc1_scratch3) fullShare (stepS (wd T0 i) (wd T1 i) xb wq kb vb st).2.2.2) -∗ K ⟨⟩))
      ⊢ wp frame (wpE (defs₀ (F := F)) Variants.none c none) E
          (cc1__flash_kernel i (Memref.whole main_c) (Memref.isWhole_whole _) (Memref.whole main_c_0) (Memref.isWhole_whole _) arg4 harg4 arg5 harg5 arg6 harg6 arg7 harg7 arg8 harg8
            (Memref.whole cc1_scratch0) (Memref.isWhole_whole _) (Memref.whole cc1_scratch1) (Memref.isWhole_whole _) (Memref.whole cc1_scratch2) (Memref.isWhole_whole _) (Memref.whole cc1_scratch3) (Memref.isWhole_whole _)) K := by
  unfold owns
  rw [cc1__flash_kernel_eq_skeleton]; unfold cc1__flash_kernel_skel
  rw [k1_part1_eq_skeleton]; unfold k1_part1_skel
  iintro ⟨HT0, HT1, ⟨%f4, %hf4, H4⟩, ⟨%f5, %hf5, H5⟩, ⟨%f6, %hf6, H6⟩, ⟨%f7, %hf7, H7⟩, ⟨%f8, %hf8, H8⟩, ⟨%g0, %hg0, S0⟩, ⟨%g1, %hg1, S1⟩, ⟨%g2, %hg2, S2⟩, ⟨%g3, %hg3, S3⟩, Hk⟩
  obtain rfl := harg4.eq_unread hf4; obtain rfl := harg5.eq_unread hf5; obtain rfl := harg6.eq_unread hf6; obtain rfl := harg7.eq_unread hf7; obtain rfl := harg8.eq_unread hf8
  have hT0 : (Memref.whole main_c : Memref sig .tc .smem S10 .i32).IsWhole := Memref.isWhole_whole _
  have hT1 : (Memref.whole main_c_0 : Memref sig .tc .smem S10 .i32).IsWhole := Memref.isWhole_whole _
  sl_exec (disch := first | exact hc0 | exact hc1)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  rw [outO_of_last _ _ _ _ _ _ _ _ hc1, stepS_of_first _ _ _ _ _ _ _ hc0]
  isplitl [H8]
  · iexists _; isplitr; swap; · iexact H8
    ipureintro
    sl_unfold_run_names
    rw [read_writes_head (S := S1x512x1024) _ _ hz3]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S0]
  · iexists _; isplitr; swap; · iexact S0
    ipureintro
    sl_unfold_run_names
    rw [read_writes_head (S := S512x1024) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S1]
  · iexists _; isplitr; swap; · iexact S1
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S2]
  · iexists _; isplitr; swap; · iexact S2
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  iexists _; isplitr; swap; · iexact S3
  ipureintro
  sl_unfold_run_names
  rw [read_writes_head (S := S512x1024) _ _ hz2]
  simp only [View.readAt_eq_ld, hg0, hg1, hg2, hg3, harg4.read_unread, harg5.read_unread, harg6.read_unread, harg7.read_unread, harg8.read_unread,
    View.ld_unit_zero (S := S512x1024) hz2, View.ld_unit_zero (S := S512x1) hz2, View.ld_unit_zero (S := S1x512x1024) hz3, View.ld_unit_zero (S := S1024x1024) hz2,
    readCov_head (S := S512x1024) _ hz2, readCov_head (S := S512x1) _ hz2, readCov_head (S := S1x512x1024) _ hz3]
  try rfl

set_option maxHeartbeats 1000000 in
/-- A query tile's first step that is not its last: project and reset, fold the key tile; the output buffer is left as found. -/
theorem run_B (c : Dev nD) (E : Set ℕ) (i : grid1.Coords)
    (arg4 : Memref sig .tc .vmem S1x512x1024 .f32) (harg4 : arg4.IsWhole) (arg5 : Memref sig .tc .vmem S1024x1024 .f32) (harg5 : arg5.IsWhole)
    (arg6 : Memref sig .tc .vmem S1x512x1024 .f32) (harg6 : arg6.IsWhole) (arg7 : Memref sig .tc .vmem S1x512x1024 .bf16) (harg7 : arg7.IsWhole)
    (arg8 : Memref sig .tc .vmem S1x512x1024 .f32) (harg8 : arg8.IsWhole)
    (T0 T1 : S10.Idx → BitVec 32) (qT : PosShare TreeShare)
    (xb : Vec F S1x512x1024 .f32) (wq : Vec F S1024x1024 .f32) (kb : Vec F S1x512x1024 .f32) (vb : Vec F S1x512x1024 .bf16) (o : Vec F S1x512x1024 .f32)
    (st : St F) (K : PUnit → sProp 𝕄)
    (hc0 : isFirst (wd T1 i)) (hc1 : ¬ isLast (wd T0 i) (wd T1 i)) :
    iprop(((Memref.whole main_c : Memref sig .tc .smem S10 .i32).view.loc (c : Thread nD τ) ↦{qT} T0) ∗ ((Memref.whole main_c_0 : Memref sig .tc .smem S10 .i32).view.loc (c : Thread nD τ) ↦{qT} T1)
        ∗ owns (c : Thread nD τ) arg4 fullShare xb ∗ owns (c : Thread nD τ) arg5 fullShare wq ∗ owns (c : Thread nD τ) arg6 fullShare kb
        ∗ owns (c : Thread nD τ) arg7 fullShare vb ∗ owns (c : Thread nD τ) arg8 fullShare o
        ∗ owns (c : Thread nD τ) (Memref.whole cc1_scratch0) fullShare st.1 ∗ owns (c : Thread nD τ) (Memref.whole cc1_scratch1) fullShare st.2.1
        ∗ owns (c : Thread nD τ) (Memref.whole cc1_scratch2) fullShare st.2.2.1 ∗ owns (c : Thread nD τ) (Memref.whole cc1_scratch3) fullShare st.2.2.2
        ∗ (iprop(((Memref.whole main_c : Memref sig .tc .smem S10 .i32).view.loc (c : Thread nD τ) ↦{qT} T0) ∗ ((Memref.whole main_c_0 : Memref sig .tc .smem S10 .i32).view.loc (c : Thread nD τ) ↦{qT} T1)
            ∗ owns (c : Thread nD τ) arg4 fullShare xb ∗ owns (c : Thread nD τ) arg5 fullShare wq ∗ owns (c : Thread nD τ) arg6 fullShare kb
            ∗ owns (c : Thread nD τ) arg7 fullShare vb ∗ owns (c : Thread nD τ) arg8 fullShare (outO (wd T0 i) (wd T1 i) xb wq kb vb o st)
            ∗ owns (c : Thread nD τ) (Memref.whole cc1_scratch0) fullShare (stepS (wd T0 i) (wd T1 i) xb wq kb vb st).1
            ∗ owns (c : Thread nD τ) (Memref.whole cc1_scratch1) fullShare (stepS (wd T0 i) (wd T1 i) xb wq kb vb st).2.1
            ∗ owns (c : Thread nD τ) (Memref.whole cc1_scratch2) fullShare (stepS (wd T0 i) (wd T1 i) xb wq kb vb st).2.2.1
            ∗ owns (c : Thread nD τ) (Memref.whole cc1_scratch3) fullShare (stepS (wd T0 i) (wd T1 i) xb wq kb vb st).2.2.2) -∗ K ⟨⟩))
      ⊢ wp frame (wpE (defs₀ (F := F)) Variants.none c none) E
          (cc1__flash_kernel i (Memref.whole main_c) (Memref.isWhole_whole _) (Memref.whole main_c_0) (Memref.isWhole_whole _) arg4 harg4 arg5 harg5 arg6 harg6 arg7 harg7 arg8 harg8
            (Memref.whole cc1_scratch0) (Memref.isWhole_whole _) (Memref.whole cc1_scratch1) (Memref.isWhole_whole _) (Memref.whole cc1_scratch2) (Memref.isWhole_whole _) (Memref.whole cc1_scratch3) (Memref.isWhole_whole _)) K := by
  unfold owns
  rw [cc1__flash_kernel_eq_skeleton]; unfold cc1__flash_kernel_skel
  rw [k1_part1_eq_skeleton]; unfold k1_part1_skel
  iintro ⟨HT0, HT1, ⟨%f4, %hf4, H4⟩, ⟨%f5, %hf5, H5⟩, ⟨%f6, %hf6, H6⟩, ⟨%f7, %hf7, H7⟩, ⟨%f8, %hf8, H8⟩, ⟨%g0, %hg0, S0⟩, ⟨%g1, %hg1, S1⟩, ⟨%g2, %hg2, S2⟩, ⟨%g3, %hg3, S3⟩, Hk⟩
  obtain rfl := harg4.eq_unread hf4; obtain rfl := harg5.eq_unread hf5; obtain rfl := harg6.eq_unread hf6; obtain rfl := harg7.eq_unread hf7; obtain rfl := harg8.eq_unread hf8
  have hT0 : (Memref.whole main_c : Memref sig .tc .smem S10 .i32).IsWhole := Memref.isWhole_whole _
  have hT1 : (Memref.whole main_c_0 : Memref sig .tc .smem S10 .i32).IsWhole := Memref.isWhole_whole _
  sl_exec (disch := first | exact hc0 | exact hc1)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  rw [outO_of_not_last _ _ _ _ _ _ _ _ hc1, stepS_of_first _ _ _ _ _ _ _ hc0]
  isplitl [H8]
  · iexists _; isplitr; · ipureintro; exact harg8.read_unread _
    iexact H8
  isplitl [S0]
  · iexists _; isplitr; swap; · iexact S0
    ipureintro
    sl_unfold_run_names
    rw [read_writes_head (S := S512x1024) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S1]
  · iexists _; isplitr; swap; · iexact S1
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S2]
  · iexists _; isplitr; swap; · iexact S2
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  iexists _; isplitr; swap; · iexact S3
  ipureintro
  sl_unfold_run_names
  rw [read_writes_head (S := S512x1024) _ _ hz2]
  simp only [View.readAt_eq_ld, hg0, hg1, hg2, hg3, harg4.read_unread, harg5.read_unread, harg6.read_unread, harg7.read_unread, harg8.read_unread,
    View.ld_unit_zero (S := S512x1024) hz2, View.ld_unit_zero (S := S512x1) hz2, View.ld_unit_zero (S := S1x512x1024) hz3, View.ld_unit_zero (S := S1024x1024) hz2,
    readCov_head (S := S512x1024) _ hz2, readCov_head (S := S512x1) _ hz2, readCov_head (S := S1x512x1024) _ hz3]
  try rfl

set_option maxHeartbeats 1000000 in
/-- A later step that is a query tile's last: fold the key tile into what the scratch buffers held, store the output. -/
theorem run_C (c : Dev nD) (E : Set ℕ) (i : grid1.Coords)
    (arg4 : Memref sig .tc .vmem S1x512x1024 .f32) (harg4 : arg4.IsWhole) (arg5 : Memref sig .tc .vmem S1024x1024 .f32) (harg5 : arg5.IsWhole)
    (arg6 : Memref sig .tc .vmem S1x512x1024 .f32) (harg6 : arg6.IsWhole) (arg7 : Memref sig .tc .vmem S1x512x1024 .bf16) (harg7 : arg7.IsWhole)
    (arg8 : Memref sig .tc .vmem S1x512x1024 .f32) (harg8 : arg8.IsWhole)
    (T0 T1 : S10.Idx → BitVec 32) (qT : PosShare TreeShare)
    (xb : Vec F S1x512x1024 .f32) (wq : Vec F S1024x1024 .f32) (kb : Vec F S1x512x1024 .f32) (vb : Vec F S1x512x1024 .bf16) (o : Vec F S1x512x1024 .f32)
    (st : St F) (K : PUnit → sProp 𝕄)
    (hc0 : ¬ isFirst (wd T1 i)) (hc1 : isLast (wd T0 i) (wd T1 i)) :
    iprop(((Memref.whole main_c : Memref sig .tc .smem S10 .i32).view.loc (c : Thread nD τ) ↦{qT} T0) ∗ ((Memref.whole main_c_0 : Memref sig .tc .smem S10 .i32).view.loc (c : Thread nD τ) ↦{qT} T1)
        ∗ owns (c : Thread nD τ) arg4 fullShare xb ∗ owns (c : Thread nD τ) arg5 fullShare wq ∗ owns (c : Thread nD τ) arg6 fullShare kb
        ∗ owns (c : Thread nD τ) arg7 fullShare vb ∗ owns (c : Thread nD τ) arg8 fullShare o
        ∗ owns (c : Thread nD τ) (Memref.whole cc1_scratch0) fullShare st.1 ∗ owns (c : Thread nD τ) (Memref.whole cc1_scratch1) fullShare st.2.1
        ∗ owns (c : Thread nD τ) (Memref.whole cc1_scratch2) fullShare st.2.2.1 ∗ owns (c : Thread nD τ) (Memref.whole cc1_scratch3) fullShare st.2.2.2
        ∗ (iprop(((Memref.whole main_c : Memref sig .tc .smem S10 .i32).view.loc (c : Thread nD τ) ↦{qT} T0) ∗ ((Memref.whole main_c_0 : Memref sig .tc .smem S10 .i32).view.loc (c : Thread nD τ) ↦{qT} T1)
            ∗ owns (c : Thread nD τ) arg4 fullShare xb ∗ owns (c : Thread nD τ) arg5 fullShare wq ∗ owns (c : Thread nD τ) arg6 fullShare kb
            ∗ owns (c : Thread nD τ) arg7 fullShare vb ∗ owns (c : Thread nD τ) arg8 fullShare (outO (wd T0 i) (wd T1 i) xb wq kb vb o st)
            ∗ owns (c : Thread nD τ) (Memref.whole cc1_scratch0) fullShare (stepS (wd T0 i) (wd T1 i) xb wq kb vb st).1
            ∗ owns (c : Thread nD τ) (Memref.whole cc1_scratch1) fullShare (stepS (wd T0 i) (wd T1 i) xb wq kb vb st).2.1
            ∗ owns (c : Thread nD τ) (Memref.whole cc1_scratch2) fullShare (stepS (wd T0 i) (wd T1 i) xb wq kb vb st).2.2.1
            ∗ owns (c : Thread nD τ) (Memref.whole cc1_scratch3) fullShare (stepS (wd T0 i) (wd T1 i) xb wq kb vb st).2.2.2) -∗ K ⟨⟩))
      ⊢ wp frame (wpE (defs₀ (F := F)) Variants.none c none) E
          (cc1__flash_kernel i (Memref.whole main_c) (Memref.isWhole_whole _) (Memref.whole main_c_0) (Memref.isWhole_whole _) arg4 harg4 arg5 harg5 arg6 harg6 arg7 harg7 arg8 harg8
            (Memref.whole cc1_scratch0) (Memref.isWhole_whole _) (Memref.whole cc1_scratch1) (Memref.isWhole_whole _) (Memref.whole cc1_scratch2) (Memref.isWhole_whole _) (Memref.whole cc1_scratch3) (Memref.isWhole_whole _)) K := by
  unfold owns
  rw [cc1__flash_kernel_eq_skeleton]; unfold cc1__flash_kernel_skel
  rw [k1_part1_eq_skeleton]; unfold k1_part1_skel
  iintro ⟨HT0, HT1, ⟨%f4, %hf4, H4⟩, ⟨%f5, %hf5, H5⟩, ⟨%f6, %hf6, H6⟩, ⟨%f7, %hf7, H7⟩, ⟨%f8, %hf8, H8⟩, ⟨%g0, %hg0, S0⟩, ⟨%g1, %hg1, S1⟩, ⟨%g2, %hg2, S2⟩, ⟨%g3, %hg3, S3⟩, Hk⟩
  obtain rfl := harg4.eq_unread hf4; obtain rfl := harg5.eq_unread hf5; obtain rfl := harg6.eq_unread hf6; obtain rfl := harg7.eq_unread hf7; obtain rfl := harg8.eq_unread hf8
  have hT0 : (Memref.whole main_c : Memref sig .tc .smem S10 .i32).IsWhole := Memref.isWhole_whole _
  have hT1 : (Memref.whole main_c_0 : Memref sig .tc .smem S10 .i32).IsWhole := Memref.isWhole_whole _
  sl_exec (disch := first | exact hc0 | exact hc1)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  rw [outO_of_last _ _ _ _ _ _ _ _ hc1, stepS_of_not_first _ _ _ _ _ _ _ hc0]
  isplitl [H8]
  · iexists _; isplitr; swap; · iexact H8
    ipureintro
    sl_unfold_run_names
    rw [read_writes_head (S := S1x512x1024) _ _ hz3]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S0]
  · iexists _; isplitr; · ipureintro; exact hg0
    iexact S0
  isplitl [S1]
  · iexists _; isplitr; swap; · iexact S1
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S2]
  · iexists _; isplitr; swap; · iexact S2
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  iexists _; isplitr; swap; · iexact S3
  ipureintro
  sl_unfold_run_names
  rw [read_writes_head (S := S512x1024) _ _ hz2]
  simp only [View.readAt_eq_ld, hg0, hg1, hg2, hg3, harg4.read_unread, harg5.read_unread, harg6.read_unread, harg7.read_unread, harg8.read_unread,
    View.ld_unit_zero (S := S512x1024) hz2, View.ld_unit_zero (S := S512x1) hz2, View.ld_unit_zero (S := S1x512x1024) hz3, View.ld_unit_zero (S := S1024x1024) hz2,
    readCov_head (S := S512x1024) _ hz2, readCov_head (S := S512x1) _ hz2, readCov_head (S := S1x512x1024) _ hz3]
  try rfl

set_option maxHeartbeats 1000000 in
/-- A later step that is not the last: fold the key tile into what the scratch buffers held; the output buffer is left as found. -/
theorem run_D (c : Dev nD) (E : Set ℕ) (i : grid1.Coords)
    (arg4 : Memref sig .tc .vmem S1x512x1024 .f32) (harg4 : arg4.IsWhole) (arg5 : Memref sig .tc .vmem S1024x1024 .f32) (harg5 : arg5.IsWhole)
    (arg6 : Memref sig .tc .vmem S1x512x1024 .f32) (harg6 : arg6.IsWhole) (arg7 : Memref sig .tc .vmem S1x512x1024 .bf16) (harg7 : arg7.IsWhole)
    (arg8 : Memref sig .tc .vmem S1x512x1024 .f32) (harg8 : arg8.IsWhole)
    (T0 T1 : S10.Idx → BitVec 32) (qT : PosShare TreeShare)
    (xb : Vec F S1x512x1024 .f32) (wq : Vec F S1024x1024 .f32) (kb : Vec F S1x512x1024 .f32) (vb : Vec F S1x512x1024 .bf16) (o : Vec F S1x512x1024 .f32)
    (st : St F) (K : PUnit → sProp 𝕄)
    (hc0 : ¬ isFirst (wd T1 i)) (hc1 : ¬ isLast (wd T0 i) (wd T1 i)) :
    iprop(((Memref.whole main_c : Memref sig .tc .smem S10 .i32).view.loc (c : Thread nD τ) ↦{qT} T0) ∗ ((Memref.whole main_c_0 : Memref sig .tc .smem S10 .i32).view.loc (c : Thread nD τ) ↦{qT} T1)
        ∗ owns (c : Thread nD τ) arg4 fullShare xb ∗ owns (c : Thread nD τ) arg5 fullShare wq ∗ owns (c : Thread nD τ) arg6 fullShare kb
        ∗ owns (c : Thread nD τ) arg7 fullShare vb ∗ owns (c : Thread nD τ) arg8 fullShare o
        ∗ owns (c : Thread nD τ) (Memref.whole cc1_scratch0) fullShare st.1 ∗ owns (c : Thread nD τ) (Memref.whole cc1_scratch1) fullShare st.2.1
        ∗ owns (c : Thread nD τ) (Memref.whole cc1_scratch2) fullShare st.2.2.1 ∗ owns (c : Thread nD τ) (Memref.whole cc1_scratch3) fullShare st.2.2.2
        ∗ (iprop(((Memref.whole main_c : Memref sig .tc .smem S10 .i32).view.loc (c : Thread nD τ) ↦{qT} T0) ∗ ((Memref.whole main_c_0 : Memref sig .tc .smem S10 .i32).view.loc (c : Thread nD τ) ↦{qT} T1)
            ∗ owns (c : Thread nD τ) arg4 fullShare xb ∗ owns (c : Thread nD τ) arg5 fullShare wq ∗ owns (c : Thread nD τ) arg6 fullShare kb
            ∗ owns (c : Thread nD τ) arg7 fullShare vb ∗ owns (c : Thread nD τ) arg8 fullShare (outO (wd T0 i) (wd T1 i) xb wq kb vb o st)
            ∗ owns (c : Thread nD τ) (Memref.whole cc1_scratch0) fullShare (stepS (wd T0 i) (wd T1 i) xb wq kb vb st).1
            ∗ owns (c : Thread nD τ) (Memref.whole cc1_scratch1) fullShare (stepS (wd T0 i) (wd T1 i) xb wq kb vb st).2.1
            ∗ owns (c : Thread nD τ) (Memref.whole cc1_scratch2) fullShare (stepS (wd T0 i) (wd T1 i) xb wq kb vb st).2.2.1
            ∗ owns (c : Thread nD τ) (Memref.whole cc1_scratch3) fullShare (stepS (wd T0 i) (wd T1 i) xb wq kb vb st).2.2.2) -∗ K ⟨⟩))
      ⊢ wp frame (wpE (defs₀ (F := F)) Variants.none c none) E
          (cc1__flash_kernel i (Memref.whole main_c) (Memref.isWhole_whole _) (Memref.whole main_c_0) (Memref.isWhole_whole _) arg4 harg4 arg5 harg5 arg6 harg6 arg7 harg7 arg8 harg8
            (Memref.whole cc1_scratch0) (Memref.isWhole_whole _) (Memref.whole cc1_scratch1) (Memref.isWhole_whole _) (Memref.whole cc1_scratch2) (Memref.isWhole_whole _) (Memref.whole cc1_scratch3) (Memref.isWhole_whole _)) K := by
  unfold owns
  rw [cc1__flash_kernel_eq_skeleton]; unfold cc1__flash_kernel_skel
  rw [k1_part1_eq_skeleton]; unfold k1_part1_skel
  iintro ⟨HT0, HT1, ⟨%f4, %hf4, H4⟩, ⟨%f5, %hf5, H5⟩, ⟨%f6, %hf6, H6⟩, ⟨%f7, %hf7, H7⟩, ⟨%f8, %hf8, H8⟩, ⟨%g0, %hg0, S0⟩, ⟨%g1, %hg1, S1⟩, ⟨%g2, %hg2, S2⟩, ⟨%g3, %hg3, S3⟩, Hk⟩
  obtain rfl := harg4.eq_unread hf4; obtain rfl := harg5.eq_unread hf5; obtain rfl := harg6.eq_unread hf6; obtain rfl := harg7.eq_unread hf7; obtain rfl := harg8.eq_unread hf8
  have hT0 : (Memref.whole main_c : Memref sig .tc .smem S10 .i32).IsWhole := Memref.isWhole_whole _
  have hT1 : (Memref.whole main_c_0 : Memref sig .tc .smem S10 .i32).IsWhole := Memref.isWhole_whole _
  sl_exec (disch := first | exact hc0 | exact hc1)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  rw [outO_of_not_last _ _ _ _ _ _ _ _ hc1, stepS_of_not_first _ _ _ _ _ _ _ hc0]
  isplitl [H8]
  · iexists _; isplitr; · ipureintro; exact harg8.read_unread _
    iexact H8
  isplitl [S0]
  · iexists _; isplitr; · ipureintro; exact hg0
    iexact S0
  isplitl [S1]
  · iexists _; isplitr; swap; · iexact S1
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S2]
  · iexists _; isplitr; swap; · iexact S2
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  iexists _; isplitr; swap; · iexact S3
  ipureintro
  sl_unfold_run_names
  rw [read_writes_head (S := S512x1024) _ _ hz2]
  simp only [View.readAt_eq_ld, hg0, hg1, hg2, hg3, harg4.read_unread, harg5.read_unread, harg6.read_unread, harg7.read_unread, harg8.read_unread,
    View.ld_unit_zero (S := S512x1024) hz2, View.ld_unit_zero (S := S512x1) hz2, View.ld_unit_zero (S := S1x512x1024) hz3, View.ld_unit_zero (S := S1024x1024) hz2,
    readCov_head (S := S512x1024) _ hz2, readCov_head (S := S512x1) _ hz2, readCov_head (S := S1x512x1024) _ hz3]
  try rfl

end FlashRun

open FlashRun in
/-- THE BODY'S TRIPLE at any grid point: whichever of the four combinations the two words select, the scratch
    buffers end at `stepS` and the output buffer at `outO` of what the body read. -/
theorem sound_kernel1 (c : Dev nD) (E : Set ℕ) (i : grid1.Coords)
    (arg4 : Memref sig .tc .vmem S1x512x1024 .f32) (harg4 : arg4.IsWhole) (arg5 : Memref sig .tc .vmem S1024x1024 .f32) (harg5 : arg5.IsWhole)
    (arg6 : Memref sig .tc .vmem S1x512x1024 .f32) (harg6 : arg6.IsWhole) (arg7 : Memref sig .tc .vmem S1x512x1024 .bf16) (harg7 : arg7.IsWhole)
    (arg8 : Memref sig .tc .vmem S1x512x1024 .f32) (harg8 : arg8.IsWhole)
    (T0 T1 : S10.Idx → BitVec 32) (qT : PosShare TreeShare)
    (xb : Vec F S1x512x1024 .f32) (wq : Vec F S1024x1024 .f32) (kb : Vec F S1x512x1024 .f32) (vb : Vec F S1x512x1024 .bf16) (o : Vec F S1x512x1024 .f32)
    (st : St F) (K : PUnit → sProp 𝕄) :
    iprop((((c : Thread nD τ).loc main_c) ↦{qT} T0) ∗ (((c : Thread nD τ).loc main_c_0) ↦{qT} T1)
        ∗ owns (c : Thread nD τ) arg4 fullShare xb ∗ owns (c : Thread nD τ) arg5 fullShare wq ∗ owns (c : Thread nD τ) arg6 fullShare kb
        ∗ owns (c : Thread nD τ) arg7 fullShare vb ∗ owns (c : Thread nD τ) arg8 fullShare o
        ∗ owns (c : Thread nD τ) (Memref.whole cc1_scratch0) fullShare st.1 ∗ owns (c : Thread nD τ) (Memref.whole cc1_scratch1) fullShare st.2.1
        ∗ owns (c : Thread nD τ) (Memref.whole cc1_scratch2) fullShare st.2.2.1 ∗ owns (c : Thread nD τ) (Memref.whole cc1_scratch3) fullShare st.2.2.2
        ∗ (iprop((((c : Thread nD τ).loc main_c) ↦{qT} T0) ∗ (((c : Thread nD τ).loc main_c_0) ↦{qT} T1)
            ∗ owns (c : Thread nD τ) arg4 fullShare xb ∗ owns (c : Thread nD τ) arg5 fullShare wq ∗ owns (c : Thread nD τ) arg6 fullShare kb
            ∗ owns (c : Thread nD τ) arg7 fullShare vb ∗ owns (c : Thread nD τ) arg8 fullShare (outO (wd T0 i) (wd T1 i) xb wq kb vb o st)
            ∗ owns (c : Thread nD τ) (Memref.whole cc1_scratch0) fullShare (stepS (wd T0 i) (wd T1 i) xb wq kb vb st).1
            ∗ owns (c : Thread nD τ) (Memref.whole cc1_scratch1) fullShare (stepS (wd T0 i) (wd T1 i) xb wq kb vb st).2.1
            ∗ owns (c : Thread nD τ) (Memref.whole cc1_scratch2) fullShare (stepS (wd T0 i) (wd T1 i) xb wq kb vb st).2.2.1
            ∗ owns (c : Thread nD τ) (Memref.whole cc1_scratch3) fullShare (stepS (wd T0 i) (wd T1 i) xb wq kb vb st).2.2.2) -∗ K ⟨⟩))
      ⊢ wp frame (wpE (defs₀ (F := F)) Variants.none c none) E
          (cc1__flash_kernel i (Memref.whole main_c) (Memref.isWhole_whole _) (Memref.whole main_c_0) (Memref.isWhole_whole _) arg4 harg4 arg5 harg5 arg6 harg6 arg7 harg7 arg8 harg8
            (Memref.whole cc1_scratch0) (Memref.isWhole_whole _) (Memref.whole cc1_scratch1) (Memref.isWhole_whole _) (Memref.whole cc1_scratch2) (Memref.isWhole_whole _) (Memref.whole cc1_scratch3) (Memref.isWhole_whole _)) K := by
  by_cases hc0 : isFirst (wd T1 i)
  · by_cases hc1 : isLast (wd T0 i) (wd T1 i)
    · exact run_A c E i arg4 harg4 arg5 harg5 arg6 harg6 arg7 harg7 arg8 harg8 T0 T1 qT xb wq kb vb o st K hc0 hc1
    · exact run_B c E i arg4 harg4 arg5 harg5 arg6 harg6 arg7 harg7 arg8 harg8 T0 T1 qT xb wq kb vb o st K hc0 hc1
  · by_cases hc1 : isLast (wd T0 i) (wd T1 i)
    · exact run_C c E i arg4 harg4 arg5 harg5 arg6 harg6 arg7 harg7 arg8 harg8 T0 T1 qT xb wq kb vb o st K hc0 hc1
    · exact run_D c E i arg4 harg4 arg5 harg5 arg6 harg6 arg7 harg7 arg8 harg8 T0 T1 qT xb wq kb vb o st K hc0 hc1

end Cert.KernelIdeal.Hand

end
-- ==== Proof.FlashDat.lean ====
/-
  The flash-attention call's proof data and body obligation, at a parameter V (the TensorCore's buffer contents
  when the region is entered) and at the pinned step tables: each window's block at a point; the scratch
  contents after every point as one recursion over the points; the invariant (the tables held, the scratch
  buffers at the recursion's value, the other call's staging buffers and the generator register untouched);
  and, point by point, that the body runs from the invariant to the invariant, storing the output tile exactly
  at a query tile's last key tile.
-/
import proofs.«409614_j37976100831500_3_alg».proof.Proof.FlashSched
import proofs.«409614_j37976100831500_3_alg».proof.Proof.FlashTraj
import proofs.«409614_j37976100831500_3_alg».proof.Proof.FlashPure
import proofs.«409614_j37976100831500_3_alg».proof.Proof.FlashRun
import proofs.«409614_j37976100831500_3_alg».proof.Proof.Gen.KernelIdeal.Launch
import proofs.«409614_j37976100831500_3_alg».proof.Proof.Gen.KernelIdeal.Skeleton
import Idealize.ShloMosaic.Lib.Pipeline.TableIdle
import Idealize.ShloMosaic.Lib.Pipeline.FrameBody
import Idealize.ShloMosaic.Lib.Pipeline.Kit
import Idealize.ShloMosaic.Lib.Tactic
import Idealize.ShloMosaic.PureOps.BitExact

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The scratch contents before a point -/

/-- What the scratch buffers hold before position t of the invariant's index (anything before the first point). -/
def prevT (c : Dev nD) (t : Fin ((cfgA (F := F)).N + 1)) : St F :=
  if h : t.val = 0 then st0 else traj V c (t.val - 1) (by have := t.isLt; omega)

theorem prevT_succ (c : Dev nD) (t : Fin (cfgA (F := F)).N) : prevT V c t.succ = traj V c t.val t.isLt := by
  unfold prevT; rw [dif_neg (by simp)]; rfl

/-- A step from contents that are the recursion's (or, at the first point, from any contents: the first point
    is a first key tile, which resets the scratch) gives the recursion's next value. -/
theorem step_eq (c : Dev nD) (t : Fin (cfgA (F := F)).N) (st : St F) (hst : t.val ≠ 0 → st = prevT V c t.castSucc) :
    stepAt V c t st = traj V c t.val t.isLt := by
  obtain ⟨n, hn⟩ := t
  cases n with
  | zero => exact stepS_first _ _ (first0 (F := F) hn) _ _ _ _ _ _
  | succ n =>
    rw [hst (Nat.succ_ne_zero n)]
    have h0 : ¬ ((⟨n + 1, hn⟩ : Fin (cfgA (F := F)).N).castSucc.val = 0) := Nat.succ_ne_zero n
    unfold prevT; rw [dif_neg h0]; rfl

/-! ## The invariant -/

/-- The four scratch buffers at contents st. -/
def scr1 (c : Dev nD) (st : St F) : sProp 𝕄 :=
  iprop(owns (c : Thread nD τ) (Memref.whole cc1_scratch0) fullShare st.1 ∗ owns (c : Thread nD τ) (Memref.whole cc1_scratch1) fullShare st.2.1
    ∗ owns (c : Thread nD τ) (Memref.whole cc1_scratch2) fullShare st.2.2.1 ∗ owns (c : Thread nD τ) (Memref.whole cc1_scratch3) fullShare st.2.2.2)

/-- What the body never touches: the projection call's staging buffers at any contents, the generator register
    at any state. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ r, prngReg c r))

/-- The invariant before point t: the two step tables held whole at their pinned contents; the scratch buffers
    at some contents, the recursion's once a point has run; the untouched rest. -/
def Phi1 (c : Dev nD) (t : Fin ((cfgA (F := F)).N + 1)) : sProp 𝕄 :=
  iprop(Pipeline.prefHeld (Ix := Unit) (Name := ℕ) (U := UR sig nD τ) (Lvl := ℕ) pre1 c (fun _ => fullShare) (tbl (F := F))
    ∗ (∃ st : St F, ⌜t.val ≠ 0 → st = prevT V c t⌝ ∗ scr1 c st)
    ∗ rest1 (F := F) c)

/-- The tables one by one. -/
theorem prefHeld1_eq (c : Dev nD) (q : Fin pre1.K → PosShare TreeShare) (v : pre1.Contents (Elt F)) :
    (Pipeline.prefHeld (Ix := Unit) (Name := ℕ) (U := UR sig nD τ) (Lvl := ℕ) pre1 c q v : sProp 𝕄)
      = iprop((((c : Thread nD τ).loc main_c) ↦{q 0} v 0) ∗ (((c : Thread nD τ).loc main_c_0) ↦{q 1} v 1)) := by
  unfold Pipeline.prefHeld
  exact bigSep_univ_eq_bigSepL [(0 : Fin 2), (1 : Fin 2)] (by decide) (by decide) _

/-- The invariant at the first point, from what the launch hands the region. -/
theorem Phi1_in (c : Dev nD) : iprop((∃ r, prngReg c r) ∗ Pipeline.prefHeld pre1 c (fun _ => fullShare) (tbl (F := F)) ∗ Pipeline.scopedRest (Ix := Unit) (Name := ℕ) (U := UR sig nD τ) (Lvl := ℕ) (Val := Elt F) spec1 c) ⊢ (Phi1 V c 0 : sProp 𝕄) := by
  rw [scopedRest1_eq]
  unfold Phi1 rest1 scr1
  simp only [owns_whole]
  iintro ⟨Hr, HT, G0, G1, G2, G3, G4, G5, G6, G7, ⟨%a0, S0⟩, ⟨%a1, S1⟩, ⟨%a2, S2⟩, ⟨%a3, S3⟩⟩
  isplitl [HT]; · iexact HT
  isplitl [S0 S1 S2 S3]
  · iexists (a0, a1, a2, a3)
    isplitr; · ipureintro; intro h; exact absurd rfl h
    isplitl [S0]; · iexact S0
    isplitl [S1]; · iexact S1
    isplitl [S2]; · iexact S2
    iexact S3
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iexact Hr

/-- At the last point the invariant gives everything back. -/
theorem Phi1_out (c : Dev nD) : (Phi1 V c (Fin.last _) : sProp 𝕄) ⊢ iprop((∃ r, prngReg c r) ∗ Pipeline.prefHeld pre1 c (fun _ => fullShare) (tbl (F := F)) ∗ Pipeline.scopedRest (Ix := Unit) (Name := ℕ) (U := UR sig nD τ) (Lvl := ℕ) (Val := Elt F) spec1 c) := by
  rw [scopedRest1_eq]
  unfold Phi1 rest1 scr1
  simp only [owns_whole]
  iintro ⟨HT, ⟨%st, -, S0, S1, S2, S3⟩, G0, G1, G2, G3, G4, G5, G6, G7, Hr⟩
  isplitl [Hr]; · iexact Hr
  isplitl [HT]; · iexact HT
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [S0]; · iexists _; iexact S0
  isplitl [S1]; · iexists _; iexact S1
  isplitl [S2]; · iexists _; iexact S2
  iexists _; iexact S3

/-! ## The pipeline's proof data -/

/-- The proof data of the flash pipeline on core c: the arrays as the region finds them; after the body at point
    t each input's buffer at its block and the output's at numerators / denominators of the scratch contents
    after t; the invariant above; full shares; nothing owed. -/
def dat1 (c : Dev nD) : Dat τ (Elt F) Unit ℕ (UR sig nD τ) ℕ (cfgA (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (traj V c t.val t.isLt).2.2.2 (traj V c t.val t.isLt).2.2.1
  Φ t := Phi1 V c t
  q _ := fullShare
  owed _ := 0

theorem A_eq1 (c : Dev nD) (w : Fin (cfgA (F := F)).W) : (dat1 V c).A w = V c (Pipeline.arrRef spec1 w) := by
  dsimp only [dat1]

theorem after1_0 (c : Dev nD) (t : Fin (cfgA (F := F)).N) : (dat1 V c).after 0 t = iblk1 V c 0 t := rfl
theorem after1_1 (c : Dev nD) (t : Fin (cfgA (F := F)).N) : (dat1 V c).after 1 t = iblk1 V c 1 t := rfl
theorem after1_2 (c : Dev nD) (t : Fin (cfgA (F := F)).N) : (dat1 V c).after 2 t = iblk1 V c 2 t := rfl
theorem after1_3 (c : Dev nD) (t : Fin (cfgA (F := F)).N) : (dat1 V c).after 3 t = iblk1 V c 3 t := rfl
theorem after1_4 (c : Dev nD) (t : Fin (cfgA (F := F)).N) :
    (dat1 V c).after 4 t = k1_pay4 (traj V c t.val t.isLt).2.2.2 (traj V c t.val t.isLt).2.2.1 := rfl

/-! ## What each window's staging buffer holds when the body runs -/

/-- Each input's current buffer holds its block at every point, fetched there or not. -/
theorem before1_0 (c : Dev nD) (t : Fin (cfgA (F := F)).N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfgA (F := F)).N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfgA (F := F)).N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin (cfgA (F := F)).N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- The output's current buffer holds nothing the body stored, at every point: the block is written back at the
    very point that stores it. -/
theorem before1_4 (c : Dev nD) (t : Fin (cfgA (F := F)).N) (d) : (dat1 V c).before 4 t d = d := by
  rw [(dat1 V c).before_out_traj 4 rfl (fun _ _ => rfl)
    (fun t' _ _ hf => absurd ((fresh4 (F := F) t'.val (Nat.le_of_lt t'.isLt)).symm.trans hf) (by decide)) t.val t rfl d,
    fresh4 (F := F) t.val (Nat.le_of_lt t.isLt)]
  rfl

/-! ## The body obligation, at a generic point -/

/-- The current staging memref of each window at point t. -/
abbrev st1_0 (t : Fin (cfgA (F := F)).N) := ((cfgA (F := F)).win 0).stage ((cfgA (F := F)).slots t 0)
abbrev st1_1 (t : Fin (cfgA (F := F)).N) := ((cfgA (F := F)).win 1).stage ((cfgA (F := F)).slots t 1)
abbrev st1_2 (t : Fin (cfgA (F := F)).N) := ((cfgA (F := F)).win 2).stage ((cfgA (F := F)).slots t 2)
abbrev st1_3 (t : Fin (cfgA (F := F)).N) := ((cfgA (F := F)).win 3).stage ((cfgA (F := F)).slots t 3)
abbrev st1_4 (t : Fin (cfgA (F := F)).N) := ((cfgA (F := F)).win 4).stage ((cfgA (F := F)).slots t 4)

/-- The kernel body at point t, on what the pipeline calls it with. -/
abbrev bodyAt1 (t : Fin (cfgA (F := F)).N) : Prog (TpuEff nD τ sig (Elt F) Λ₀ .tc) PUnit :=
  cc1__flash_kernel ((cfgA (F := F)).grid.coords t) (Memref.whole main_c) (Memref.isWhole_whole _) (Memref.whole main_c_0) (Memref.isWhole_whole _)
    (spec1_0.stage ((cfgA (F := F)).slots t 0)) (hstage1_0 (((cfgA (F := F)).slots t 0).cast nbuf1_0))
    (spec1_1.stage ((cfgA (F := F)).slots t 1)) (hstage1_1 (((cfgA (F := F)).slots t 1).cast nbuf1_1))
    (spec1_2.stage ((cfgA (F := F)).slots t 2)) (hstage1_2 (((cfgA (F := F)).slots t 2).cast nbuf1_2))
    (spec1_3.stage ((cfgA (F := F)).slots t 3)) (hstage1_3 (((cfgA (F := F)).slots t 3).cast nbuf1_3))
    (spec1_4.stage ((cfgA (F := F)).slots t 4)) (hstage1_4 (((cfgA (F := F)).slots t 4).cast nbuf1_4))
    (Memref.whole cc1_scratch0) (Memref.isWhole_whole _) (Memref.whole cc1_scratch1) (Memref.isWhole_whole _)
    (Memref.whole cc1_scratch2) (Memref.isWhole_whole _) (Memref.whole cc1_scratch3) (Memref.isWhole_whole _)

/-- What the body is called with at point t, the windows one by one, -/
def bodyPre1 (c : Dev nD) (t : Fin (cfgA (F := F)).N) : sProp 𝕄 :=
  iprop((dat1 V c).Φ t.castSucc ∗ (dat1 V c).owesAt () t.castSucc
    ∗ (∃ d, owns (c : Thread nD τ) (st1_0 (F := F) t) fullShare ((dat1 V c).before 0 t d))
    ∗ (∃ d, owns (c : Thread nD τ) (st1_1 (F := F) t) fullShare ((dat1 V c).before 1 t d))
    ∗ (∃ d, owns (c : Thread nD τ) (st1_2 (F := F) t) fullShare ((dat1 V c).before 2 t d))
    ∗ (∃ d, owns (c : Thread nD τ) (st1_3 (F := F) t) fullShare ((dat1 V c).before 3 t d))
    ∗ (∃ d, owns (c : Thread nD τ) (st1_4 (F := F) t) fullShare ((dat1 V c).before 4 t d)))

/-- and what it returns: the output's buffer at the stored tile where the point stores it, else as found. -/
def bodyPost1 (c : Dev nD) (t : Fin (cfgA (F := F)).N) : sProp 𝕄 :=
  iprop((dat1 V c).Φ t.succ ∗ (dat1 V c).owesAt () t.succ
    ∗ owns (c : Thread nD τ) (st1_0 (F := F) t) fullShare ((dat1 V c).after 0 t)
    ∗ owns (c : Thread nD τ) (st1_1 (F := F) t) fullShare ((dat1 V c).after 1 t)
    ∗ owns (c : Thread nD τ) (st1_2 (F := F) t) fullShare ((dat1 V c).after 2 t)
    ∗ owns (c : Thread nD τ) (st1_3 (F := F) t) fullShare ((dat1 V c).after 3 t)
    ∗ (dat1 V c).leavesExact 4 t)

set_option maxHeartbeats 1000000 in
/-- The body at any point: the inputs' buffers hold their blocks and the output's holds nothing stored; the
    scratch buffers hold the recursion's previous value (anything at the first point, which resets them); the
    body's triple applies; the scratch buffers are left at the recursion's value, and the output's buffer at the
    stored tile exactly where the point is a query tile's last key tile. -/
theorem sound_body1 (c : Dev nD) (t : Fin (cfgA (F := F)).N) :
    bodyPre1 V c t ⊢ wp frame (wpE (defs₀ (F := F)) Variants.none c none) Set.univ (bodyAt1 (F := F) t) (fun _ => bodyPost1 V c t) := by
  unfold bodyPre1 bodyPost1 bodyAt1
  simp only [before1_0, before1_1, before1_2, before1_3, before1_4]
  rw [show (dat1 V c).Φ t.succ = Phi1 V c t.succ from rfl, show (dat1 V c).Φ t.castSucc = Phi1 V c t.castSucc from rfl,
    show (dat1 V c).owesAt () t.succ = (dat1 V c).owesAt () t.castSucc from rfl,
    after1_0, after1_1, after1_2, after1_3]
  unfold Phi1 scr1
  rw [prefHeld1_eq]
  simp only [prevT_succ]
  by_cases hl : isLast (w1 (F := F) t) (w3 (F := F) t)
  · have hi : (cfgA (F := F)).idle 4 ((cfgA (F := F)).grid.coords t) = false := by
      rw [(sched4 (F := F) t).2, decide_eq_true hl]; rfl
    rw [show (dat1 V c).leavesExact 4 t = owns (c : Thread nD τ) (st1_4 (F := F) t) fullShare ((dat1 V c).after 4 t) from by
      unfold Dat.leavesExact; rw [hi]]
    rw [after1_4]
    iintro ⟨⟨⟨T0, T1⟩, ⟨%st, %hst, S0, S1, S2, S3⟩, HR⟩, Ho, ⟨%d0, H0⟩, ⟨%d1, H1⟩, ⟨%d2, H2⟩, ⟨%d3, H3⟩, ⟨%d4, H4⟩⟩
    rw [← step_eq V c t st hst]
    rw [show k1_pay4 (stepAt V c t st).2.2.2 (stepAt V c t st).2.2.1
        = outO (w1 (F := F) t) (w3 (F := F) t) (iblk1 V c 0 t) (iblk1 V c 1 t) (iblk1 V c 2 t) (iblk1 V c 3 t) d4 st from by
      unfold outO; exact (if_pos hl).symm]
    iapply (sound_kernel1 c Set.univ ((cfgA (F := F)).grid.coords t) _ _ _ _ _ _ _ _ _ _ (tbl (F := F) 0) (tbl (F := F) 1) fullShare
      (iblk1 V c 0 t) (iblk1 V c 1 t) (iblk1 V c 2 t) (iblk1 V c 3 t) d4 st _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨T0, T1, H0, H1, H2, H3, H4, S0, S1, S2, S3⟩
    isplitl [T0 T1 S0 S1 S2 S3 HR]
    · isplitl [T0 T1]
      · isplitl [T0]; · iexact T0
        iexact T1
      isplitl [S0 S1 S2 S3]
      · iexists (stepAt V c t st)
        isplitr; · ipureintro; exact fun _ => rfl
        isplitl [S0]; · iexact S0
        isplitl [S1]; · iexact S1
        isplitl [S2]; · iexact S2
        iexact S3
      iexact HR
    isplitl [Ho]; · iexact Ho
    isplitl [H0]; · iexact H0
    isplitl [H1]; · iexact H1
    isplitl [H2]; · iexact H2
    isplitl [H3]; · iexact H3
    iexact H4
  · have hd : decide (isLast (w1 (F := F) t) (w3 (F := F) t)) = false := decide_eq_false hl
    have hi : (cfgA (F := F)).idle 4 ((cfgA (F := F)).grid.coords t) = true := by
      rw [(sched4 (F := F) t).2, hd]; rfl
    have hf : ((cfgA (F := F)).win 4).flush t = false := by
      rw [(sched4 (F := F) t).1, hd]
    rw [(dat1 V c).leavesExact_idle 4 t hi hf]
    simp only [before1_4]
    iintro ⟨⟨⟨T0, T1⟩, ⟨%st, %hst, S0, S1, S2, S3⟩, HR⟩, Ho, ⟨%d0, H0⟩, ⟨%d1, H1⟩, ⟨%d2, H2⟩, ⟨%d3, H3⟩, ⟨%d4, H4⟩⟩
    rw [← step_eq V c t st hst]
    iapply (sound_kernel1 c Set.univ ((cfgA (F := F)).grid.coords t) _ _ _ _ _ _ _ _ _ _ (tbl (F := F) 0) (tbl (F := F) 1) fullShare
      (iblk1 V c 0 t) (iblk1 V c 1 t) (iblk1 V c 2 t) (iblk1 V c 3 t) d4 st _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨T0, T1, H0, H1, H2, H3, H4, S0, S1, S2, S3⟩
    isplitl [T0 T1 S0 S1 S2 S3 HR]
    · isplitl [T0 T1]
      · isplitl [T0]; · iexact T0
        iexact T1
      isplitl [S0 S1 S2 S3]
      · iexists (stepAt V c t st)
        isplitr; · ipureintro; exact fun _ => rfl
        isplitl [S0]; · iexact S0
        isplitl [S1]; · iexact S1
        isplitl [S2]; · iexact S2
        iexact S3
      iexact HR
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/- THE RUN of the idealized kernel program's @main: two kernel regions among stretches of host operations, generic
   in the float carrier. The buffer contents at every boundary between two items form a fold from the launch memory:
   a host stretch applies its operations' results, a region leaves each of its arrays at what its write-backs make of
   it and every other buffer as entered. Each argument array is read back through the fold to its launch contents;
   the result buffer is read as the last region's output array after its last write-back. One theorem says: every
   weakly fair execution terminates, and in every final state each unscoped TensorCore buffer holds the last
   boundary's contents. -/
import proofs.«409614_j37976100831500_3_alg».proof.Proof.Kv
import proofs.«409614_j37976100831500_3_alg».proof.Proof.FlashDat
import proofs.«409614_j37976100831500_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: the first region's entry contents. -/
abbrev W1 : Dev nD → Valuation τ sig (Elt F) := fun c => StableHlo.after hostOps0 (W0 m ρ c)
/-- The same at the TensorCore's references. -/
abbrev V1 : (c : Dev nD) → (b : Ref sig .tc) → Buf (Elt F) ((c : Thread nD τ).loc b) := fun c b => W1 m ρ c b
/-- At the first region's exit: each of its arrays after its last write-back, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the second region's entry contents. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit: each of its arrays after its last write-back, every other buffer as entered. -/
def W4 (c : Dev nD) : Valuation τ sig (Elt F) :=
  Pipeline.withArrays spec1 c (W3 m ρ c) fun w => (dat1 (V3 m ρ) c).arrAt w (cfgA (F := F)).N
theorem W4_arr (c : Dev nD) (w : Fin (cfgA (F := F)).W) :
    W4 m ρ c (Proc.devRef .tc (Pipeline.arrRef spec1 w)) = (dat1 (V3 m ρ) c).arrAt w (cfgA (F := F)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfgA (F := F)).W) :
    (dat1 (V3 m ρ) c).arrAt w (cfgA (F := F)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### A buffer no host operation writes keeps its contents across a host stretch -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-! ### The arguments end as launched: no host operation writes one, and a region reads it through an input window
    (whose array keeps its entry contents) or passes it by -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) :=
          (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) :=
          (W4_arr m ρ c 1).trans (((dat1 (V3 m ρ) c).arrAt_in 1 rfl _).trans (A_eq1 (V3 m ρ) c 1))
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) :=
          (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) :=
          (W2_arr m ρ c 2).trans (((dat0 (V1 m ρ) c).arrAt_in 2 rfl _).trans (A_eq0 (V1 m ρ) c 2))
    _ = W0 m ρ c (Proc.devRef .tc main_arg3) := W1_of m ρ c main_arg3 (by decide)
    _ = m ((c : Thread nD τ).loc main_arg3) := rfl

/-- The result buffer ends as the second region's output array after its last write-back. -/
theorem W4_main_v4 (c : Dev nD) :
    W4 m ρ c (Proc.devRef .tc main_v4) = (dat1 (V3 m ρ) c).arrAt 4 (cfgA (F := F)).N :=
  W4_arr m ρ c 4

/-! ### The two step tables at the second region's entry: the constants the first host stretch writes, which
    nothing writes afterwards -/

theorem W1_main_c (c : Dev nD) : W1 m ρ c (Proc.devRef .tc main_c) = tbl (F := F) 0 := by
  dsimp only [W1, hostOps0]; after_results; rfl
theorem W1_main_c_0 (c : Dev nD) : W1 m ρ c (Proc.devRef .tc main_c_0) = tbl (F := F) 1 := by
  dsimp only [W1, hostOps0]; after_results; rfl

theorem W3_main_c (c : Dev nD) : W3 m ρ c (Proc.devRef .tc main_c) = tbl (F := F) 0 :=
  (W3_of m ρ c main_c (by decide)).trans <| (W2_of_ne m ρ c main_c (by decide)).trans <| W1_main_c m ρ c

theorem W3_main_c_0 (c : Dev nD) : W3 m ρ c (Proc.devRef .tc main_c_0) = tbl (F := F) 1 :=
  (W3_of m ρ c main_c_0 (by decide)).trans <| (W2_of_ne m ρ c main_c_0 (by decide)).trans <| W1_main_c_0 m ρ c

/-- The tables' contents read off the second region's entry valuation are the pinned ones. -/
theorem V3_tbl (c : Dev nD) : (fun k => V3 m ρ c (pre1.ref k) : pre1.Contents (Elt F)) = tbl (F := F) := by
  funext k
  match k with
  | ⟨0, _⟩ => exact W3_main_c m ρ c
  | ⟨1, _⟩ => exact W3_main_c_0 m ρ c

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none
/-- No core waits on another: no level is assigned. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 :=
  iprop((∃ r, prngReg c r) ∗ ∃ W, owes (c : Thread nD τ) (0 : CellTallies nD τ sig Unit) W)

theorem hostOps0_noalloc : (hostOps0 : List (HloOp τ sig (Elt F))).Forall fun op => op.fresh = ∅ := hostOps0_fresh
theorem hostOps1_noalloc : (hostOps1 : List (HloOp τ sig (Elt F))).Forall fun op => op.fresh = ∅ := hostOps1_fresh

/-- A host stretch over the unscoped buffers from the contents `W`, `R` beside: it ends at the stretch's results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one of those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last thread state but for the core owing nothing: every unscoped buffer at the last boundary's contents, the
    generator register at some state. -/
abbrev Tₙ (c : Dev nD) : sProp 𝕄 :=
  iprop(StableHlo.held (c : Thread nD τ) (Pipeline.ucRefs τ sig) (W4 m ρ c) ∗ ∃ r, prngReg c r)

/-! ## The regions -/

set_option backward.isDefEq.respectTransparency.types false in
/-- The first region: entered from every unscoped buffer at `W1`, left at `W2`. Its arrays are taken out of the
    unscoped buffers at entry and put back at their final contents at exit; the generator register goes into the
    invariant and comes back; nothing is owed; the kernel has no semaphore of its own. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win
      (launch0 (F := F)).arr_whole c ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, whose index maps read two prefetched step tables: entered from every unscoped buffer at `W3`,
    left at `W4`. At entry the unscoped buffers split into the region's arrays, the two tables (which hold the pinned
    contents there) and the rest; the tables and the generator register go into the invariant at the first point and
    come back from it at the last; at exit the tables rejoin the rest, and with the arrays at their final contents
    these are every unscoped buffer at `W4`. Nothing is owed; the kernel has no semaphore of its own. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r)
    ∗ Pipeline.prefHeld (Ix := Unit) (Name := ℕ) (U := UR sig nD τ) (Lvl := ℕ) pre1 c (fun _ => fullShare) (tbl (F := F)))
  Z c := Pipeline.unscopedRestP (Ix := Unit) (Name := ℕ) (U := UR sig nD τ) (Lvl := ℕ) pre1 spec1 c (V3 m ρ c)
  hentry c := by
    rw [Pipeline.ownSems0_none]
    have hsplit : (StableHlo.held (c : Thread nD τ) (Pipeline.ucRefs τ sig) (W3 m ρ c) : sProp 𝕄)
        ⊢ iprop((pdats m ρ 1 c).arrays ((pdats m ρ 1 c).arrAt · 0)
            ∗ Pipeline.prefHeld pre1 c (fun _ => fullShare) (tbl (F := F))
            ∗ Pipeline.unscopedRestP pre1 spec1 c (V3 m ρ c)) := by
      have h := Pipeline.arrays_of_unscopedBufs (p := 1) (pcfgs (F := F)) adm (pdats m ρ) (launch1 (F := F)).win
        (launch1 (F := F)).arr_whole c ((pdats m ρ 1 c).share_full fun _ => rfl) (V3 m ρ c) fun _ => rfl
      rw [Pipeline.unscopedBufs_held] at h
      refine h.trans (sep_mono .rfl (Entails.of_eq ?_))
      rw [← V3_tbl m ρ c]
      exact Pipeline.unscopedRest_split (launch1 (F := F)).pre c (V3 m ρ c)
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Phi1_in (V3 m ρ) c
  hout c := by
    rw [Pipeline.ownSems0_none]
    refine (Phi1_out (V3 m ρ) c).trans ?_
    iintro ⟨Hp, Hpf, Hr⟩
    isplitl [Hp Hpf]
    · isplitl [Hp]; · iexact Hp
      iexact Hpf
    isplitr; · iempintro
    iexact Hr
  hexit c := by
    have hjoin : iprop((pdats m ρ 1 c).arrays ((pdats m ρ 1 c).arrAt · (cfgA (F := F)).N)
            ∗ Pipeline.prefHeld pre1 c (fun _ => fullShare) (tbl (F := F))
            ∗ Pipeline.unscopedRestP pre1 spec1 c (V3 m ρ c))
        ⊢ (StableHlo.held (c : Thread nD τ) (Pipeline.ucRefs τ sig) (W4 m ρ c) : sProp 𝕄) := by
      have h := Pipeline.unscopedBufs_of_arrays (p := 1) (pcfgs (F := F)) adm (Ix := Unit) (Name := ℕ) (U := UR sig nD τ) (Lvl := ℕ)
        (launch1 (F := F)).win (launch1 (F := F)).arr_whole c (pdats m ρ) ((pdats m ρ 1 c).share_full fun _ => rfl)
        (V3 m ρ c) (V4 m ρ c) ((pdats m ρ 1 c).arrAt · (cfgA (F := F)).N) (hF1 m ρ c) (hrest1 m ρ c)
      rw [Pipeline.unscopedBufs_held] at h
      refine (sep_mono .rfl (Entails.of_eq ?_)).trans h
      rw [← V3_tbl m ρ c]
      exact (Pipeline.unscopedRest_split (launch1 (F := F)).pre c (V3 m ρ c)).symm
    iintro ⟨Ha, HO, ⟨Hp, Hpf⟩, Hrest⟩
    imodintro
    isplitl [Ha Hpf Hrest Hp]
    · isplitl [Ha Hpf Hrest]
      · iapply hjoin
        isplitl [Ha]; · iexact Ha
        isplitl [Hpf]; · iexact Hpf
        iexact Hrest
      iexact Hp
    unfold Pipeline.Dat.owesAt Pipeline.owesWithin
    icases HO with ⟨%W, -, HO⟩; iexists W; iexact HO

/-! ## @main as its items, and the launch -/

/-- @main's four items in order: a host stretch from its boundary's contents, then a region, twice. -/
abbrev segs : List (Pipeline.Seg (pcfgs (F := F)) adm (pdats m ρ) () defs₀ 𝒱₀ L lv) :=
  [ .host (hseg hostOps0 hostOps0_sub hostOps0_noalloc (W0 m ρ)),
    .region (reg0 m ρ),
    .host (hseg hostOps1 hostOps1_sub hostOps1_noalloc (W2 m ρ)),
    .region (reg1 m ρ) ]

/-- @main is the run of those items. -/
theorem main_run (c : Dev nD) : main (F := F) c = Pipeline.Seg.run (segs m ρ) :=
  main_segs adm (pdats m ρ) () 𝒱₀ L lv _ _ (reg0 m ρ) (reg1 m ρ) rfl rfl c

set_option backward.isDefEq.respectTransparency.types false in
/-- THE RUN. At the compiled mesh, from any memory with every semaphore counter at zero and any generator registers,
    every weakly fair execution of @main on the TensorCores terminates, and in every final state each unscoped
    TensorCore buffer of each core holds the last boundary's contents `W4`: the thread states chain from the launch
    through the four items, and the last one, read against a final state, says what that state's memory holds. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm))
      (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm))
              (Pipeline.launchToks (Pipeline.pin (pcfgs (F := F)) adm) (cellOf_inj adm))) : sProp 𝕄)
            ⊢ BI.own (emb₁ (initOf (Pipeline.cells (Pipeline.pin (pcfgs (F := F)) adm) (cellOf_inj adm))
              (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.B_Kv.lean ====
/- REGION 0 of the idealized kernel program: the key/value projection kernel on its grid of 8 points, as the
   class-A half at a parameter V (the TensorCore's buffer contents when the region is entered). Per window its
   block at a point; what the body leaves in each output's buffer as a canonical piece list; the body's triple;
   the pipeline's proof data and the body obligation. Generic in the float carrier. -/
import proofs.«409614_j37976100831500_3_alg».proof.Proof.Gen.Kernel.Launch
import proofs.«409614_j37976100831500_3_alg».proof.Proof.Gen.Kernel.Skeleton
import proofs.«409614_j37976100831500_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 1024 per axis recurses once per coordinate
set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row block) holds its block at every point: it is fetched at every point,
    and in any case an input whose body leaves the block in place holds what a fetch there would put. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the key weights, whole) is fetched at the first point only; its block index never moves, so
    the buffer holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the value weights, whole): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle every access of the body goes through: the whole 1024 x 1024 buffer. -/
abbrev rK : Rect S1024x1024 := Rect.unit (s := S1024x1024) ![0, 0] S1024x1024.size inb_S1024x1024_S1024x1024_0_0

/-! ## What the body leaves in each output window's buffer -/

/-- The key block: the activations' block times the key weights, one store over the whole buffer. -/
def out0_3 (x0 x1 : Vec F S1024x1024 .f32) : Vec F S1024x1024 .f32 :=
  View.canon [⟨rK, k0_pay2 (View.ld x0 rK) (View.ld x1 rK)⟩]

/-- The value block: both operands rounded to bf16, multiplied, the product rounded to bf16; one store over the
    whole buffer. -/
def out0_4 (x0 x2 : Vec F S1024x1024 .f32) : Vec F S1024x1024 .bf16 :=
  View.canon [⟨rK, k0_pay3 (View.ld x0 rK) (View.ld x2 rK)⟩]

/-- The single whole-buffer store covers the buffer. -/
theorem cover0_3 (p0 : Vec F S1024x1024 .f32) (y : S1024x1024.Idx) :
    ∃ pc ∈ ([⟨rK, p0⟩] : List (View.Piece (Elt F) S1024x1024 .f32)), y ∈ pc.1.set :=
  View.cover_of_tiled [⟨rK, p0⟩] S1024x1024.size (by rfl) y

theorem cover0_4 (p0 : Vec F S1024x1024 .bf16) (y : S1024x1024.Idx) :
    ∃ pc ∈ ([⟨rK, p0⟩] : List (View.Piece (Elt F) S1024x1024 .bf16)), y ∈ pc.1.set :=
  View.cover_of_tiled [⟨rK, p0⟩] S1024x1024.size (by rfl) y

/-! ## The body's triple -/

set_option maxHeartbeats 1000000 in
/-- The body on whole staging memrefs, the three inputs' at read contents and the two outputs' at anything, runs to
    the continuation holding the inputs' as they were and each output's at its canonical contents. -/
theorem sound_kernel0 (c : Dev nD) (E : Set ℕ) (i : grid0.Coords)
    (arg1 : Memref sig .tc .vmem S1024x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S1024x1024 .bf16) (harg5 : arg5.IsWhole)
    (x0 x1 x2 : Vec F S1024x1024 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1)
            ∗ owns (c : Thread nD τ) arg5 fullShare (out0_4 x0 x2)) -∗ K ⟨⟩))
      ⊢ wp frame (wpE (defs₀ (F := F)) Variants.none c none) E
          (cc0__kv_proj_kernel i arg1 harg1 arg2 harg2 arg3 harg3 arg4 harg4 arg5 harg5) K := by
  simp only [cc0__kv_proj_kernel_eq_skeleton]; unfold cc0__kv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the projection pipeline on core c: the arrays as the region finds them; after the body at
    point t each input's buffer at its block, the key output's at the product of the activations' block and the
    key weights, the value output's at the rounded product with the value weights; the class-A invariant; full
    shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : Pipeline.BodyObligation (dat0 (F := F) V c) (defs₀ (F := F)) Variants.none () Set.univ := fun t => by
  rw [bigSep_W0, bigSep_W0]
  exact sound_body0 V c t

end Cert.Kernel.Hand

end
-- ==== Proof.B_FlashPure.lean ====
/-
  The flash-attention kernel's body as pure functions of what it reads: the state it carries between grid
  points in its four scratch buffers (the projected query tile, the running row maxima, the running
  denominators, the running numerators) and the output tile it stores at a query tile's last key tile.

  At a grid point the body reads two words (the query-tile index and the key-tile index of the step), and:
  at a query tile's FIRST key tile (key index 0) it projects the query tile and resets the other three;
  it then folds the key tile into maxima, denominators and numerators; at the LAST key tile (key index =
  query index) it stores numerators / denominators.
-/
import proofs.«409614_j37976100831500_3_alg».proof.Proof.Gen.Kernel.Skeleton

noncomputable section

namespace Cert.Kernel.Hand

open Idealize.ShloMosaic Idealize.SL.Sem Cert.Kernel Cert.Kernel.Gen

variable {F : FTy → Type} [FloatOps F]

/-- What the four scratch buffers hold: query tile, row maxima, denominators, numerators. -/
abbrev St (F : FTy → Type) : Type :=
  Vec F S512x1024 .f32 × Vec F S512x1 .f32 × Vec F S512x1 .f32 × Vec F S512x1024 .f32

/-- The step is a query tile's first: its key-tile word is 0 (the body's own test of the word). -/
abbrev isFirst (v3 : BitVec 32) : Prop :=
  (Scalar.cmpi .ne (Scalar.extui (Scalar.cmpi .eq v3 0#32)) 0#32) = 1#1

/-- The step is a query tile's last: its key-tile word equals its query-tile word (the body's own test). -/
abbrev isLast (v1 v3 : BitVec 32) : Prop := k1_cond2 v1 v3 = 1#1

/-- The scratch contents after the first conditional: projected and reset at a first step, else as found. -/
def reset (v3 : BitVec 32) (xb : Vec F S1x512x1024 .f32) (wq : Vec F S1024x1024 .f32) (st : St F) : St F :=
  if isFirst v3 then (k1_pay5 xb wq, k1_pay6, k1_pay7, k1_pay8) else st

/-- The scratch contents after the body at a step with words `v1` (query tile) and `v3` (key tile), the
    query block `xb`, the query weights `wq`, the key block `kb` and the value block `vb`. -/
def stepS (v1 v3 : BitVec 32) (xb : Vec F S1x512x1024 .f32) (wq : Vec F S1024x1024 .f32)
    (kb : Vec F S1x512x1024 .f32) (vb : Vec F S1x512x1024 .bf16) (st : St F) : St F :=
  let r := reset v3 xb wq st
  (r.1,
   k1_pay3 (k1_pay11 v1 v3 r.1 kb r.2.1),
   k1_pay1 (k1_pay13 v1 v3 r.1 kb r.2.1) (k1_pay14 v1 v3 r.1 kb r.2.1 r.2.2.1),
   k1_pay2 (k1_pay9 vb) (k1_pay12 v1 v3 r.1 kb r.2.1) (k1_pay13 v1 v3 r.1 kb r.2.1) r.2.2.2)

/-- The output tile's staging buffer after the body: stored at a last step, else as found (`o`). -/
def outO (v1 v3 : BitVec 32) (xb : Vec F S1x512x1024 .f32) (wq : Vec F S1024x1024 .f32)
    (kb : Vec F S1x512x1024 .f32) (vb : Vec F S1x512x1024 .bf16) (o : Vec F S1x512x1024 .f32) (st : St F) :
    Vec F S1x512x1024 .f32 :=
  if isLast v1 v3 then k1_pay4 (stepS v1 v3 xb wq kb vb st).2.2.2 (stepS v1 v3 xb wq kb vb st).2.2.1 else o

/-- The word a step reads from a step table `T` at grid point `i`: the table's element at the step coordinate. -/
def wd (T : S10.Idx → BitVec 32) (i : grid1.Coords) : BitVec 32 :=
  T ((Rect.unit (s := S10) (k1_off1 i) S1.size (k1_off1_inb i)).emb (Shape.Idx.first (numel1_S1.symm ▸ Nat.one_pos)))

/-- A first step forgets what the scratch buffers held. -/
theorem stepS_first (v1 v3 : BitVec 32) (h : isFirst v3) (xb : Vec F S1x512x1024 .f32) (wq : Vec F S1024x1024 .f32)
    (kb : Vec F S1x512x1024 .f32) (vb : Vec F S1x512x1024 .bf16) (st st' : St F) :
    stepS v1 v3 xb wq kb vb st = stepS v1 v3 xb wq kb vb st' := by
  unfold stepS reset; rw [if_pos h, if_pos h]

end Cert.Kernel.Hand

end
-- ==== Proof.B_FlashSched.lean ====
/-
  The flash-attention call at the tables its host program pins: the step tables are the two literal
  constants of @main — query-tile index 0 1 1 2 2 2 3 3 3 3 and key-tile index 0 0 1 0 1 2 0 1 2 3 over
  the ten steps of a batch element: every pair (query tile, key tile ≤ query tile) once, key tiles
  ascending inside a query tile.
-/
import proofs.«409614_j37976100831500_3_alg».proof.Proof.Gen.Kernel.Launch
import proofs.«409614_j37976100831500_3_alg».proof.Proof.B_FlashPure
import Idealize.ShloMosaic.Lib.Pipeline.TableIdle
import Idealize.ShloMosaic.PureOps.BitExact

set_option maxRecDepth 16384

noncomputable section

namespace Cert.Kernel.Hand

open Idealize.ShloMosaic Idealize.ShloMosaic.TcCoe Idealize.SL.Sem Cert.Kernel Cert.Kernel.Gen

variable {F : FTy → Type} [FloatOps F]

/-- The two step tables' contents: the literal constants @main writes into them. -/
def tbl : pre1.Contents (Elt F) := fun k => match k with
  | ⟨0, _⟩ => fun i => lit0 (S10.rowMajor i)
  | ⟨1, _⟩ => fun i => lit1 (S10.rowMajor i)

/-- At these contents every table-indexed block lies inside its array. -/
theorem tbl_ok_bits : ok1 (F := Bits) tbl := by decide +kernel
theorem tbl_ok : ok1 (F := F) tbl := tbl_ok_bits

/-- The admissible contents of every call's tables: call 0 has none. -/
def adm : (p : Fin 2) → (pcfgs (F := F) p).Adm
  | ⟨0, _⟩ => cfg0.toPCfg_adm
  | ⟨1, _⟩ => ⟨tbl, tbl_ok⟩

/-- The flash call's pipeline at the pinned tables. -/
abbrev cfgA : Pipeline.Cfg sig Λ₀ := cfg1 (F := F) ⟨tbl, tbl_ok⟩

example : Pipeline.pin (pcfgs (F := F)) adm 1 = cfgA (F := F) := rfl
example : Pipeline.pin (pcfgs (F := F)) adm 0 = cfg0 := rfl
theorem cfgA_N : (cfgA (F := F)).N = 40 := N_1

/-- The query-tile word at point t. -/
def w1 (t : Fin (cfgA (F := F)).N) : BitVec 32 := wd (tbl (F := F) 0) ((cfgA (F := F)).grid.coords t)
/-- The key-tile word at point t. -/
def w3 (t : Fin (cfgA (F := F)).N) : BitVec 32 := wd (tbl (F := F) 1) ((cfgA (F := F)).grid.coords t)

/-- The output window is written back exactly at the last key tile of a query tile, and is idle everywhere
    else: decided over the 40 grid points (no float operation is involved, so one carrier decides for all). -/
theorem sched4_ideal : ∀ t : Fin (cfgA (F := Bits)).N,
    ((cfgA (F := Bits)).win 4).flush t = decide (isLast (w1 (F := Bits) t) (w3 (F := Bits) t))
    ∧ (cfgA (F := Bits)).idle 4 ((cfgA (F := Bits)).grid.coords t) = !decide (isLast (w1 (F := Bits) t) (w3 (F := Bits) t)) := by
  decide +kernel
theorem sched4 : ∀ t : Fin (cfgA (F := F)).N,
    ((cfgA (F := F)).win 4).flush t = decide (isLast (w1 (F := F) t) (w3 (F := F) t))
    ∧ (cfgA (F := F)).idle 4 ((cfgA (F := F)).grid.coords t) = !decide (isLast (w1 (F := F) t) (w3 (F := F) t)) :=
  sched4_ideal

/-- The region's first point is a query tile's first key tile. -/
theorem first0_ideal : ∀ h : 0 < (cfgA (F := Bits)).N, isFirst (w3 (F := Bits) ⟨0, h⟩) := by decide +kernel
theorem first0 : ∀ h : 0 < (cfgA (F := F)).N, isFirst (w3 (F := F) ⟨0, h⟩) := first0_ideal

/-- The output window's current buffer holds nothing the body stored whenever the body runs: every point
    either writes the block back or leaves the buffer untouched. -/
theorem fresh4 : ∀ n, n ≤ (cfgA (F := F)).N → (cfgA (F := F)).fresh 4 n = true :=
  Pipeline.Cfg.fresh_tab (cfgA (F := F)) 4 (fun _ => true) rfl (fun t => by
    rw [(sched4 (F := F) t).1, (sched4 (F := F) t).2]
    cases decide (isLast (w1 (F := F) t) (w3 (F := F) t)) <;> rfl)

end Cert.Kernel.Hand

end
-- ==== Proof.B_FlashTraj.lean ====
/-
  The flash call at the pinned step tables, point by point: the two words a point reads, each
  window's block there, and the contents of the four scratch buffers after each point (a recursion over
  the points: the body's pure step applied to what the point before left).
-/
import proofs.«409614_j37976100831500_3_alg».proof.Proof.B_FlashSched

set_option maxRecDepth 16384

noncomputable section

namespace Cert.Kernel.Hand

open Idealize.ShloMosaic Idealize.ShloMosaic.TcCoe Idealize.SL.Sem Cert.Kernel Cert.Kernel.Gen

variable {F : FTy → Type} [FloatOps F]

variable (V : (c : Dev nD) → (b : Ref sig .tc) → Buf (Elt F) ((c : Thread nD τ).loc b))

/-- Window `w`'s block at point `t`, read off its array as the region finds it (`V`). -/
def iblk1 (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V c (Pipeline.arrRef spec1 w))

/-- The body's pure step at point `t` over what the scratch buffers held. -/
def stepAt (c : Dev nD) (t : Fin (cfgA (F := F)).N) (st : St F) : St F :=
  stepS (w1 (F := F) t) (w3 (F := F) t) (iblk1 V c 0 t) (iblk1 V c 1 t) (iblk1 V c 2 t) (iblk1 V c 3 t) st

/-- A state to start the recursion from: the first point is a first step and forgets it. -/
def st0 : St F := (k1_pay8, k1_pay7, k1_pay7, k1_pay8)

/-- What the four scratch buffers hold AFTER point `n` (before the first point: anything). -/
def traj (c : Dev nD) : (n : ℕ) → n < (cfgA (F := F)).N → St F
  | 0, h => stepAt V c ⟨0, h⟩ st0
  | n + 1, h => stepAt V c ⟨n + 1, h⟩ (traj c n (Nat.lt_of_succ_lt h))

theorem traj_zero (c : Dev nD) (h : 0 < (cfgA (F := F)).N) :
    traj V c 0 h = stepAt V c ⟨0, h⟩ st0 := rfl

theorem traj_succ (c : Dev nD) (n : ℕ) (h : n + 1 < (cfgA (F := F)).N) :
    traj V c (n + 1) h = stepAt V c ⟨n + 1, h⟩ (traj V c n (Nat.lt_of_succ_lt h)) := rfl

end Cert.Kernel.Hand

end
-- ==== Proof.B_FlashRun.lean ====
/-
  The flash-attention kernel's body at one grid point, as a triple: from the two step tables, the five
  windows' staging buffers and the four scratch buffers at given contents, the body runs to a state in which
  the tables and the four input buffers are as they were, the scratch buffers hold `stepS` of what they
  held, and the output buffer holds `outO`.

  The body branches twice, on the two words it reads from the tables: whether the step is a query tile's
  first (it then projects the query tile and resets the running maxima, denominators and numerators) and
  whether it is its last (it then stores numerators / denominators). Each of the four combinations is one
  straight-line sequence of whole-buffer loads and stores; the triple is proved per combination and the
  four are put together by cases. Every access is the whole buffer, so a buffer reads back the payload of
  the last store into it, and a load before any store reads what the buffer held on entry.
-/
import proofs.«409614_j37976100831500_3_alg».proof.Proof.B_FlashPure
import proofs.«409614_j37976100831500_3_alg».proof.Proof.Gen.Kernel.Launch
import proofs.«409614_j37976100831500_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384
set_option Elab.async false

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

namespace FlashRun

/-- Both offsets of a rank-two access are zero. -/
theorem hz2 : (![0, 0] : Fin 2 → ℕ) = fun _ => 0 := by funext a; fin_cases a <;> rfl
/-- All three offsets of a rank-three access are zero. -/
theorem hz3 : (![0, 0, 0] : Fin 3 → ℕ) = fun _ => 0 := by funext a; fin_cases a <;> rfl

section Whole

variable {Val : EltTy → Type} [∀ e, Nonempty (Val e)] {S : Shape} {e : EltTy}
variable {sg : RefSig} {κ : Kind} {sp : Space}

/-- After a list of writes whose LAST one fills the whole shape, the buffer reads that write's payload. -/
theorem read_writes_head (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h inb]

/-- A load of the whole shape after writes whose last one fills it reads that write's payload. -/
theorem readCov_head (v : View sg κ sp S e) {off : Fin S.rank → Nat}
    (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h inb, View.ld_unit_zero h inb]

end Whole

section Cases

variable (v1 v3 : BitVec 32) (xb : Vec F S1x512x1024 .f32) (wq : Vec F S1024x1024 .f32)
  (kb : Vec F S1x512x1024 .f32) (vb : Vec F S1x512x1024 .bf16) (o : Vec F S1x512x1024 .f32) (st : St F)

/-- The scratch after a step that is not a query tile's first: the query tile kept, the rest folded from what was found. -/
theorem stepS_of_not_first (h : ¬ isFirst v3) : stepS v1 v3 xb wq kb vb st =
    (st.1, k1_pay3 (k1_pay11 v1 v3 st.1 kb st.2.1),
      k1_pay1 (k1_pay13 v1 v3 st.1 kb st.2.1) (k1_pay14 v1 v3 st.1 kb st.2.1 st.2.2.1),
      k1_pay2 (k1_pay9 vb) (k1_pay12 v1 v3 st.1 kb st.2.1) (k1_pay13 v1 v3 st.1 kb st.2.1) st.2.2.2) := by
  unfold stepS reset; rw [if_neg h]

/-- The scratch after a query tile's first step: the projected query tile, the rest folded from the reset values. -/
theorem stepS_of_first (h : isFirst v3) : stepS v1 v3 xb wq kb vb st =
    (k1_pay5 xb wq, k1_pay3 (k1_pay11 v1 v3 (k1_pay5 xb wq) kb k1_pay6),
      k1_pay1 (k1_pay13 v1 v3 (k1_pay5 xb wq) kb k1_pay6) (k1_pay14 v1 v3 (k1_pay5 xb wq) kb k1_pay6 k1_pay7),
      k1_pay2 (k1_pay9 vb) (k1_pay12 v1 v3 (k1_pay5 xb wq) kb k1_pay6) (k1_pay13 v1 v3 (k1_pay5 xb wq) kb k1_pay6) k1_pay8) := by
  unfold stepS reset; rw [if_pos h]

theorem outO_of_not_last (h : ¬ isLast v1 v3) : outO v1 v3 xb wq kb vb o st = o := by
  unfold outO; rw [if_neg h]

theorem outO_of_last (h : isLast v1 v3) : outO v1 v3 xb wq kb vb o st =
    k1_pay4 (stepS v1 v3 xb wq kb vb st).2.2.2 (stepS v1 v3 xb wq kb vb st).2.2.1 := by
  unfold outO; rw [if_pos h]

end Cases

set_option maxHeartbeats 1000000 in
/-- A query tile's first step that is also its last (query tile 0): project and reset, fold the key tile, store the output. -/
theorem run_A (c : Dev nD) (E : Set ℕ) (i : grid1.Coords)
    (arg4 : Memref sig .tc .vmem S1x512x1024 .f32) (harg4 : arg4.IsWhole) (arg5 : Memref sig .tc .vmem S1024x1024 .f32) (harg5 : arg5.IsWhole)
    (arg6 : Memref sig .tc .vmem S1x512x1024 .f32) (harg6 : arg6.IsWhole) (arg7 : Memref sig .tc .vmem S1x512x1024 .bf16) (harg7 : arg7.IsWhole)
    (arg8 : Memref sig .tc .vmem S1x512x1024 .f32) (harg8 : arg8.IsWhole)
    (T0 T1 : S10.Idx → BitVec 32) (qT : PosShare TreeShare)
    (xb : Vec F S1x512x1024 .f32) (wq : Vec F S1024x1024 .f32) (kb : Vec F S1x512x1024 .f32) (vb : Vec F S1x512x1024 .bf16) (o : Vec F S1x512x1024 .f32)
    (st : St F) (K : PUnit → sProp 𝕄)
    (hc0 : isFirst (wd T1 i)) (hc1 : isLast (wd T0 i) (wd T1 i)) :
    iprop(((Memref.whole main_c : Memref sig .tc .smem S10 .i32).view.loc (c : Thread nD τ) ↦{qT} T0) ∗ ((Memref.whole main_c_0 : Memref sig .tc .smem S10 .i32).view.loc (c : Thread nD τ) ↦{qT} T1)
        ∗ owns (c : Thread nD τ) arg4 fullShare xb ∗ owns (c : Thread nD τ) arg5 fullShare wq ∗ owns (c : Thread nD τ) arg6 fullShare kb
        ∗ owns (c : Thread nD τ) arg7 fullShare vb ∗ owns (c : Thread nD τ) arg8 fullShare o
        ∗ owns (c : Thread nD τ) (Memref.whole cc1_scratch0) fullShare st.1 ∗ owns (c : Thread nD τ) (Memref.whole cc1_scratch1) fullShare st.2.1
        ∗ owns (c : Thread nD τ) (Memref.whole cc1_scratch2) fullShare st.2.2.1 ∗ owns (c : Thread nD τ) (Memref.whole cc1_scratch3) fullShare st.2.2.2
        ∗ (iprop(((Memref.whole main_c : Memref sig .tc .smem S10 .i32).view.loc (c : Thread nD τ) ↦{qT} T0) ∗ ((Memref.whole main_c_0 : Memref sig .tc .smem S10 .i32).view.loc (c : Thread nD τ) ↦{qT} T1)
            ∗ owns (c : Thread nD τ) arg4 fullShare xb ∗ owns (c : Thread nD τ) arg5 fullShare wq ∗ owns (c : Thread nD τ) arg6 fullShare kb
            ∗ owns (c : Thread nD τ) arg7 fullShare vb ∗ owns (c : Thread nD τ) arg8 fullShare (outO (wd T0 i) (wd T1 i) xb wq kb vb o st)
            ∗ owns (c : Thread nD τ) (Memref.whole cc1_scratch0) fullShare (stepS (wd T0 i) (wd T1 i) xb wq kb vb st).1
            ∗ owns (c : Thread nD τ) (Memref.whole cc1_scratch1) fullShare (stepS (wd T0 i) (wd T1 i) xb wq kb vb st).2.1
            ∗ owns (c : Thread nD τ) (Memref.whole cc1_scratch2) fullShare (stepS (wd T0 i) (wd T1 i) xb wq kb vb st).2.2.1
            ∗ owns (c : Thread nD τ) (Memref.whole cc1_scratch3) fullShare (stepS (wd T0 i) (wd T1 i) xb wq kb vb st).2.2.2) -∗ K ⟨⟩))
      ⊢ wp frame (wpE (defs₀ (F := F)) Variants.none c none) E
          (cc1__flash_kernel i (Memref.whole main_c) (Memref.isWhole_whole _) (Memref.whole main_c_0) (Memref.isWhole_whole _) arg4 harg4 arg5 harg5 arg6 harg6 arg7 harg7 arg8 harg8
            (Memref.whole cc1_scratch0) (Memref.isWhole_whole _) (Memref.whole cc1_scratch1) (Memref.isWhole_whole _) (Memref.whole cc1_scratch2) (Memref.isWhole_whole _) (Memref.whole cc1_scratch3) (Memref.isWhole_whole _)) K := by
  unfold owns
  rw [cc1__flash_kernel_eq_skeleton]; unfold cc1__flash_kernel_skel
  rw [k1_part1_eq_skeleton]; unfold k1_part1_skel
  iintro ⟨HT0, HT1, ⟨%f4, %hf4, H4⟩, ⟨%f5, %hf5, H5⟩, ⟨%f6, %hf6, H6⟩, ⟨%f7, %hf7, H7⟩, ⟨%f8, %hf8, H8⟩, ⟨%g0, %hg0, S0⟩, ⟨%g1, %hg1, S1⟩, ⟨%g2, %hg2, S2⟩, ⟨%g3, %hg3, S3⟩, Hk⟩
  obtain rfl := harg4.eq_unread hf4; obtain rfl := harg5.eq_unread hf5; obtain rfl := harg6.eq_unread hf6; obtain rfl := harg7.eq_unread hf7; obtain rfl := harg8.eq_unread hf8
  have hT0 : (Memref.whole main_c : Memref sig .tc .smem S10 .i32).IsWhole := Memref.isWhole_whole _
  have hT1 : (Memref.whole main_c_0 : Memref sig .tc .smem S10 .i32).IsWhole := Memref.isWhole_whole _
  sl_exec (disch := first | exact hc0 | exact hc1)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  rw [outO_of_last _ _ _ _ _ _ _ _ hc1, stepS_of_first _ _ _ _ _ _ _ hc0]
  isplitl [H8]
  · iexists _; isplitr; swap; · iexact H8
    ipureintro
    sl_unfold_run_names
    rw [read_writes_head (S := S1x512x1024) _ _ hz3]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S0]
  · iexists _; isplitr; swap; · iexact S0
    ipureintro
    sl_unfold_run_names
    rw [read_writes_head (S := S512x1024) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S1]
  · iexists _; isplitr; swap; · iexact S1
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S2]
  · iexists _; isplitr; swap; · iexact S2
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  iexists _; isplitr; swap; · iexact S3
  ipureintro
  sl_unfold_run_names
  rw [read_writes_head (S := S512x1024) _ _ hz2]
  simp only [View.readAt_eq_ld, hg0, hg1, hg2, hg3, harg4.read_unread, harg5.read_unread, harg6.read_unread, harg7.read_unread, harg8.read_unread,
    View.ld_unit_zero (S := S512x1024) hz2, View.ld_unit_zero (S := S512x1) hz2, View.ld_unit_zero (S := S1x512x1024) hz3, View.ld_unit_zero (S := S1024x1024) hz2,
    readCov_head (S := S512x1024) _ hz2, readCov_head (S := S512x1) _ hz2, readCov_head (S := S1x512x1024) _ hz3]
  try rfl

set_option maxHeartbeats 1000000 in
/-- A query tile's first step that is not its last: project and reset, fold the key tile; the output buffer is left as found. -/
theorem run_B (c : Dev nD) (E : Set ℕ) (i : grid1.Coords)
    (arg4 : Memref sig .tc .vmem S1x512x1024 .f32) (harg4 : arg4.IsWhole) (arg5 : Memref sig .tc .vmem S1024x1024 .f32) (harg5 : arg5.IsWhole)
    (arg6 : Memref sig .tc .vmem S1x512x1024 .f32) (harg6 : arg6.IsWhole) (arg7 : Memref sig .tc .vmem S1x512x1024 .bf16) (harg7 : arg7.IsWhole)
    (arg8 : Memref sig .tc .vmem S1x512x1024 .f32) (harg8 : arg8.IsWhole)
    (T0 T1 : S10.Idx → BitVec 32) (qT : PosShare TreeShare)
    (xb : Vec F S1x512x1024 .f32) (wq : Vec F S1024x1024 .f32) (kb : Vec F S1x512x1024 .f32) (vb : Vec F S1x512x1024 .bf16) (o : Vec F S1x512x1024 .f32)
    (st : St F) (K : PUnit → sProp 𝕄)
    (hc0 : isFirst (wd T1 i)) (hc1 : ¬ isLast (wd T0 i) (wd T1 i)) :
    iprop(((Memref.whole main_c : Memref sig .tc .smem S10 .i32).view.loc (c : Thread nD τ) ↦{qT} T0) ∗ ((Memref.whole main_c_0 : Memref sig .tc .smem S10 .i32).view.loc (c : Thread nD τ) ↦{qT} T1)
        ∗ owns (c : Thread nD τ) arg4 fullShare xb ∗ owns (c : Thread nD τ) arg5 fullShare wq ∗ owns (c : Thread nD τ) arg6 fullShare kb
        ∗ owns (c : Thread nD τ) arg7 fullShare vb ∗ owns (c : Thread nD τ) arg8 fullShare o
        ∗ owns (c : Thread nD τ) (Memref.whole cc1_scratch0) fullShare st.1 ∗ owns (c : Thread nD τ) (Memref.whole cc1_scratch1) fullShare st.2.1
        ∗ owns (c : Thread nD τ) (Memref.whole cc1_scratch2) fullShare st.2.2.1 ∗ owns (c : Thread nD τ) (Memref.whole cc1_scratch3) fullShare st.2.2.2
        ∗ (iprop(((Memref.whole main_c : Memref sig .tc .smem S10 .i32).view.loc (c : Thread nD τ) ↦{qT} T0) ∗ ((Memref.whole main_c_0 : Memref sig .tc .smem S10 .i32).view.loc (c : Thread nD τ) ↦{qT} T1)
            ∗ owns (c : Thread nD τ) arg4 fullShare xb ∗ owns (c : Thread nD τ) arg5 fullShare wq ∗ owns (c : Thread nD τ) arg6 fullShare kb
            ∗ owns (c : Thread nD τ) arg7 fullShare vb ∗ owns (c : Thread nD τ) arg8 fullShare (outO (wd T0 i) (wd T1 i) xb wq kb vb o st)
            ∗ owns (c : Thread nD τ) (Memref.whole cc1_scratch0) fullShare (stepS (wd T0 i) (wd T1 i) xb wq kb vb st).1
            ∗ owns (c : Thread nD τ) (Memref.whole cc1_scratch1) fullShare (stepS (wd T0 i) (wd T1 i) xb wq kb vb st).2.1
            ∗ owns (c : Thread nD τ) (Memref.whole cc1_scratch2) fullShare (stepS (wd T0 i) (wd T1 i) xb wq kb vb st).2.2.1
            ∗ owns (c : Thread nD τ) (Memref.whole cc1_scratch3) fullShare (stepS (wd T0 i) (wd T1 i) xb wq kb vb st).2.2.2) -∗ K ⟨⟩))
      ⊢ wp frame (wpE (defs₀ (F := F)) Variants.none c none) E
          (cc1__flash_kernel i (Memref.whole main_c) (Memref.isWhole_whole _) (Memref.whole main_c_0) (Memref.isWhole_whole _) arg4 harg4 arg5 harg5 arg6 harg6 arg7 harg7 arg8 harg8
            (Memref.whole cc1_scratch0) (Memref.isWhole_whole _) (Memref.whole cc1_scratch1) (Memref.isWhole_whole _) (Memref.whole cc1_scratch2) (Memref.isWhole_whole _) (Memref.whole cc1_scratch3) (Memref.isWhole_whole _)) K := by
  unfold owns
  rw [cc1__flash_kernel_eq_skeleton]; unfold cc1__flash_kernel_skel
  rw [k1_part1_eq_skeleton]; unfold k1_part1_skel
  iintro ⟨HT0, HT1, ⟨%f4, %hf4, H4⟩, ⟨%f5, %hf5, H5⟩, ⟨%f6, %hf6, H6⟩, ⟨%f7, %hf7, H7⟩, ⟨%f8, %hf8, H8⟩, ⟨%g0, %hg0, S0⟩, ⟨%g1, %hg1, S1⟩, ⟨%g2, %hg2, S2⟩, ⟨%g3, %hg3, S3⟩, Hk⟩
  obtain rfl := harg4.eq_unread hf4; obtain rfl := harg5.eq_unread hf5; obtain rfl := harg6.eq_unread hf6; obtain rfl := harg7.eq_unread hf7; obtain rfl := harg8.eq_unread hf8
  have hT0 : (Memref.whole main_c : Memref sig .tc .smem S10 .i32).IsWhole := Memref.isWhole_whole _
  have hT1 : (Memref.whole main_c_0 : Memref sig .tc .smem S10 .i32).IsWhole := Memref.isWhole_whole _
  sl_exec (disch := first | exact hc0 | exact hc1)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  rw [outO_of_not_last _ _ _ _ _ _ _ _ hc1, stepS_of_first _ _ _ _ _ _ _ hc0]
  isplitl [H8]
  · iexists _; isplitr; · ipureintro; exact harg8.read_unread _
    iexact H8
  isplitl [S0]
  · iexists _; isplitr; swap; · iexact S0
    ipureintro
    sl_unfold_run_names
    rw [read_writes_head (S := S512x1024) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S1]
  · iexists _; isplitr; swap; · iexact S1
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S2]
  · iexists _; isplitr; swap; · iexact S2
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  iexists _; isplitr; swap; · iexact S3
  ipureintro
  sl_unfold_run_names
  rw [read_writes_head (S := S512x1024) _ _ hz2]
  simp only [View.readAt_eq_ld, hg0, hg1, hg2, hg3, harg4.read_unread, harg5.read_unread, harg6.read_unread, harg7.read_unread, harg8.read_unread,
    View.ld_unit_zero (S := S512x1024) hz2, View.ld_unit_zero (S := S512x1) hz2, View.ld_unit_zero (S := S1x512x1024) hz3, View.ld_unit_zero (S := S1024x1024) hz2,
    readCov_head (S := S512x1024) _ hz2, readCov_head (S := S512x1) _ hz2, readCov_head (S := S1x512x1024) _ hz3]
  try rfl

set_option maxHeartbeats 1000000 in
/-- A later step that is a query tile's last: fold the key tile into what the scratch buffers held, store the output. -/
theorem run_C (c : Dev nD) (E : Set ℕ) (i : grid1.Coords)
    (arg4 : Memref sig .tc .vmem S1x512x1024 .f32) (harg4 : arg4.IsWhole) (arg5 : Memref sig .tc .vmem S1024x1024 .f32) (harg5 : arg5.IsWhole)
    (arg6 : Memref sig .tc .vmem S1x512x1024 .f32) (harg6 : arg6.IsWhole) (arg7 : Memref sig .tc .vmem S1x512x1024 .bf16) (harg7 : arg7.IsWhole)
    (arg8 : Memref sig .tc .vmem S1x512x1024 .f32) (harg8 : arg8.IsWhole)
    (T0 T1 : S10.Idx → BitVec 32) (qT : PosShare TreeShare)
    (xb : Vec F S1x512x1024 .f32) (wq : Vec F S1024x1024 .f32) (kb : Vec F S1x512x1024 .f32) (vb : Vec F S1x512x1024 .bf16) (o : Vec F S1x512x1024 .f32)
    (st : St F) (K : PUnit → sProp 𝕄)
    (hc0 : ¬ isFirst (wd T1 i)) (hc1 : isLast (wd T0 i) (wd T1 i)) :
    iprop(((Memref.whole main_c : Memref sig .tc .smem S10 .i32).view.loc (c : Thread nD τ) ↦{qT} T0) ∗ ((Memref.whole main_c_0 : Memref sig .tc .smem S10 .i32).view.loc (c : Thread nD τ) ↦{qT} T1)
        ∗ owns (c : Thread nD τ) arg4 fullShare xb ∗ owns (c : Thread nD τ) arg5 fullShare wq ∗ owns (c : Thread nD τ) arg6 fullShare kb
        ∗ owns (c : Thread nD τ) arg7 fullShare vb ∗ owns (c : Thread nD τ) arg8 fullShare o
        ∗ owns (c : Thread nD τ) (Memref.whole cc1_scratch0) fullShare st.1 ∗ owns (c : Thread nD τ) (Memref.whole cc1_scratch1) fullShare st.2.1
        ∗ owns (c : Thread nD τ) (Memref.whole cc1_scratch2) fullShare st.2.2.1 ∗ owns (c : Thread nD τ) (Memref.whole cc1_scratch3) fullShare st.2.2.2
        ∗ (iprop(((Memref.whole main_c : Memref sig .tc .smem S10 .i32).view.loc (c : Thread nD τ) ↦{qT} T0) ∗ ((Memref.whole main_c_0 : Memref sig .tc .smem S10 .i32).view.loc (c : Thread nD τ) ↦{qT} T1)
            ∗ owns (c : Thread nD τ) arg4 fullShare xb ∗ owns (c : Thread nD τ) arg5 fullShare wq ∗ owns (c : Thread nD τ) arg6 fullShare kb
            ∗ owns (c : Thread nD τ) arg7 fullShare vb ∗ owns (c : Thread nD τ) arg8 fullShare (outO (wd T0 i) (wd T1 i) xb wq kb vb o st)
            ∗ owns (c : Thread nD τ) (Memref.whole cc1_scratch0) fullShare (stepS (wd T0 i) (wd T1 i) xb wq kb vb st).1
            ∗ owns (c : Thread nD τ) (Memref.whole cc1_scratch1) fullShare (stepS (wd T0 i) (wd T1 i) xb wq kb vb st).2.1
            ∗ owns (c : Thread nD τ) (Memref.whole cc1_scratch2) fullShare (stepS (wd T0 i) (wd T1 i) xb wq kb vb st).2.2.1
            ∗ owns (c : Thread nD τ) (Memref.whole cc1_scratch3) fullShare (stepS (wd T0 i) (wd T1 i) xb wq kb vb st).2.2.2) -∗ K ⟨⟩))
      ⊢ wp frame (wpE (defs₀ (F := F)) Variants.none c none) E
          (cc1__flash_kernel i (Memref.whole main_c) (Memref.isWhole_whole _) (Memref.whole main_c_0) (Memref.isWhole_whole _) arg4 harg4 arg5 harg5 arg6 harg6 arg7 harg7 arg8 harg8
            (Memref.whole cc1_scratch0) (Memref.isWhole_whole _) (Memref.whole cc1_scratch1) (Memref.isWhole_whole _) (Memref.whole cc1_scratch2) (Memref.isWhole_whole _) (Memref.whole cc1_scratch3) (Memref.isWhole_whole _)) K := by
  unfold owns
  rw [cc1__flash_kernel_eq_skeleton]; unfold cc1__flash_kernel_skel
  rw [k1_part1_eq_skeleton]; unfold k1_part1_skel
  iintro ⟨HT0, HT1, ⟨%f4, %hf4, H4⟩, ⟨%f5, %hf5, H5⟩, ⟨%f6, %hf6, H6⟩, ⟨%f7, %hf7, H7⟩, ⟨%f8, %hf8, H8⟩, ⟨%g0, %hg0, S0⟩, ⟨%g1, %hg1, S1⟩, ⟨%g2, %hg2, S2⟩, ⟨%g3, %hg3, S3⟩, Hk⟩
  obtain rfl := harg4.eq_unread hf4; obtain rfl := harg5.eq_unread hf5; obtain rfl := harg6.eq_unread hf6; obtain rfl := harg7.eq_unread hf7; obtain rfl := harg8.eq_unread hf8
  have hT0 : (Memref.whole main_c : Memref sig .tc .smem S10 .i32).IsWhole := Memref.isWhole_whole _
  have hT1 : (Memref.whole main_c_0 : Memref sig .tc .smem S10 .i32).IsWhole := Memref.isWhole_whole _
  sl_exec (disch := first | exact hc0 | exact hc1)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  rw [outO_of_last _ _ _ _ _ _ _ _ hc1, stepS_of_not_first _ _ _ _ _ _ _ hc0]
  isplitl [H8]
  · iexists _; isplitr; swap; · iexact H8
    ipureintro
    sl_unfold_run_names
    rw [read_writes_head (S := S1x512x1024) _ _ hz3]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S0]
  · iexists _; isplitr; · ipureintro; exact hg0
    iexact S0
  isplitl [S1]
  · iexists _; isplitr; swap; · iexact S1
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S2]
  · iexists _; isplitr; swap; · iexact S2
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  iexists _; isplitr; swap; · iexact S3
  ipureintro
  sl_unfold_run_names
  rw [read_writes_head (S := S512x1024) _ _ hz2]
  simp only [View.readAt_eq_ld, hg0, hg1, hg2, hg3, harg4.read_unread, harg5.read_unread, harg6.read_unread, harg7.read_unread, harg8.read_unread,
    View.ld_unit_zero (S := S512x1024) hz2, View.ld_unit_zero (S := S512x1) hz2, View.ld_unit_zero (S := S1x512x1024) hz3, View.ld_unit_zero (S := S1024x1024) hz2,
    readCov_head (S := S512x1024) _ hz2, readCov_head (S := S512x1) _ hz2, readCov_head (S := S1x512x1024) _ hz3]
  try rfl

set_option maxHeartbeats 1000000 in
/-- A later step that is not the last: fold the key tile into what the scratch buffers held; the output buffer is left as found. -/
theorem run_D (c : Dev nD) (E : Set ℕ) (i : grid1.Coords)
    (arg4 : Memref sig .tc .vmem S1x512x1024 .f32) (harg4 : arg4.IsWhole) (arg5 : Memref sig .tc .vmem S1024x1024 .f32) (harg5 : arg5.IsWhole)
    (arg6 : Memref sig .tc .vmem S1x512x1024 .f32) (harg6 : arg6.IsWhole) (arg7 : Memref sig .tc .vmem S1x512x1024 .bf16) (harg7 : arg7.IsWhole)
    (arg8 : Memref sig .tc .vmem S1x512x1024 .f32) (harg8 : arg8.IsWhole)
    (T0 T1 : S10.Idx → BitVec 32) (qT : PosShare TreeShare)
    (xb : Vec F S1x512x1024 .f32) (wq : Vec F S1024x1024 .f32) (kb : Vec F S1x512x1024 .f32) (vb : Vec F S1x512x1024 .bf16) (o : Vec F S1x512x1024 .f32)
    (st : St F) (K : PUnit → sProp 𝕄)
    (hc0 : ¬ isFirst (wd T1 i)) (hc1 : ¬ isLast (wd T0 i) (wd T1 i)) :
    iprop(((Memref.whole main_c : Memref sig .tc .smem S10 .i32).view.loc (c : Thread nD τ) ↦{qT} T0) ∗ ((Memref.whole main_c_0 : Memref sig .tc .smem S10 .i32).view.loc (c : Thread nD τ) ↦{qT} T1)
        ∗ owns (c : Thread nD τ) arg4 fullShare xb ∗ owns (c : Thread nD τ) arg5 fullShare wq ∗ owns (c : Thread nD τ) arg6 fullShare kb
        ∗ owns (c : Thread nD τ) arg7 fullShare vb ∗ owns (c : Thread nD τ) arg8 fullShare o
        ∗ owns (c : Thread nD τ) (Memref.whole cc1_scratch0) fullShare st.1 ∗ owns (c : Thread nD τ) (Memref.whole cc1_scratch1) fullShare st.2.1
        ∗ owns (c : Thread nD τ) (Memref.whole cc1_scratch2) fullShare st.2.2.1 ∗ owns (c : Thread nD τ) (Memref.whole cc1_scratch3) fullShare st.2.2.2
        ∗ (iprop(((Memref.whole main_c : Memref sig .tc .smem S10 .i32).view.loc (c : Thread nD τ) ↦{qT} T0) ∗ ((Memref.whole main_c_0 : Memref sig .tc .smem S10 .i32).view.loc (c : Thread nD τ) ↦{qT} T1)
            ∗ owns (c : Thread nD τ) arg4 fullShare xb ∗ owns (c : Thread nD τ) arg5 fullShare wq ∗ owns (c : Thread nD τ) arg6 fullShare kb
            ∗ owns (c : Thread nD τ) arg7 fullShare vb ∗ owns (c : Thread nD τ) arg8 fullShare (outO (wd T0 i) (wd T1 i) xb wq kb vb o st)
            ∗ owns (c : Thread nD τ) (Memref.whole cc1_scratch0) fullShare (stepS (wd T0 i) (wd T1 i) xb wq kb vb st).1
            ∗ owns (c : Thread nD τ) (Memref.whole cc1_scratch1) fullShare (stepS (wd T0 i) (wd T1 i) xb wq kb vb st).2.1
            ∗ owns (c : Thread nD τ) (Memref.whole cc1_scratch2) fullShare (stepS (wd T0 i) (wd T1 i) xb wq kb vb st).2.2.1
            ∗ owns (c : Thread nD τ) (Memref.whole cc1_scratch3) fullShare (stepS (wd T0 i) (wd T1 i) xb wq kb vb st).2.2.2) -∗ K ⟨⟩))
      ⊢ wp frame (wpE (defs₀ (F := F)) Variants.none c none) E
          (cc1__flash_kernel i (Memref.whole main_c) (Memref.isWhole_whole _) (Memref.whole main_c_0) (Memref.isWhole_whole _) arg4 harg4 arg5 harg5 arg6 harg6 arg7 harg7 arg8 harg8
            (Memref.whole cc1_scratch0) (Memref.isWhole_whole _) (Memref.whole cc1_scratch1) (Memref.isWhole_whole _) (Memref.whole cc1_scratch2) (Memref.isWhole_whole _) (Memref.whole cc1_scratch3) (Memref.isWhole_whole _)) K := by
  unfold owns
  rw [cc1__flash_kernel_eq_skeleton]; unfold cc1__flash_kernel_skel
  rw [k1_part1_eq_skeleton]; unfold k1_part1_skel
  iintro ⟨HT0, HT1, ⟨%f4, %hf4, H4⟩, ⟨%f5, %hf5, H5⟩, ⟨%f6, %hf6, H6⟩, ⟨%f7, %hf7, H7⟩, ⟨%f8, %hf8, H8⟩, ⟨%g0, %hg0, S0⟩, ⟨%g1, %hg1, S1⟩, ⟨%g2, %hg2, S2⟩, ⟨%g3, %hg3, S3⟩, Hk⟩
  obtain rfl := harg4.eq_unread hf4; obtain rfl := harg5.eq_unread hf5; obtain rfl := harg6.eq_unread hf6; obtain rfl := harg7.eq_unread hf7; obtain rfl := harg8.eq_unread hf8
  have hT0 : (Memref.whole main_c : Memref sig .tc .smem S10 .i32).IsWhole := Memref.isWhole_whole _
  have hT1 : (Memref.whole main_c_0 : Memref sig .tc .smem S10 .i32).IsWhole := Memref.isWhole_whole _
  sl_exec (disch := first | exact hc0 | exact hc1)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  rw [outO_of_not_last _ _ _ _ _ _ _ _ hc1, stepS_of_not_first _ _ _ _ _ _ _ hc0]
  isplitl [H8]
  · iexists _; isplitr; · ipureintro; exact harg8.read_unread _
    iexact H8
  isplitl [S0]
  · iexists _; isplitr; · ipureintro; exact hg0
    iexact S0
  isplitl [S1]
  · iexists _; isplitr; swap; · iexact S1
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  isplitl [S2]
  · iexists _; isplitr; swap; · iexact S2
    ipureintro
    sl_unfold_run_names
    rw [read_writes_head (S := S512x1) _ _ hz2]
    simp only [View.readAt_eq_ld, hg0, hg1, hg2, hg3, harg4.read_unread, harg5.read_unread, harg6.read_unread, harg7.read_unread, harg8.read_unread,
      View.ld_unit_zero (S := S512x1024) hz2, View.ld_unit_zero (S := S512x1) hz2, View.ld_unit_zero (S := S1x512x1024) hz3, View.ld_unit_zero (S := S1024x1024) hz2,
      readCov_head (S := S512x1024) _ hz2, readCov_head (S := S512x1) _ hz2, readCov_head (S := S1x512x1024) _ hz3]
    try rfl
  iexists _; isplitr; swap; · iexact S3
  ipureintro
  sl_unfold_run_names
  rw [read_writes_head (S := S512x1024) _ _ hz2]
  simp only [View.readAt_eq_ld, hg0, hg1, hg2, hg3, harg4.read_unread, harg5.read_unread, harg6.read_unread, harg7.read_unread, harg8.read_unread,
    View.ld_unit_zero (S := S512x1024) hz2, View.ld_unit_zero (S := S512x1) hz2, View.ld_unit_zero (S := S1x512x1024) hz3, View.ld_unit_zero (S := S1024x1024) hz2,
    readCov_head (S := S512x1024) _ hz2, readCov_head (S := S512x1) _ hz2, readCov_head (S := S1x512x1024) _ hz3]
  try rfl

end FlashRun

open FlashRun in
/-- THE BODY'S TRIPLE at any grid point: whichever of the four combinations the two words select, the scratch
    buffers end at `stepS` and the output buffer at `outO` of what the body read. -/
theorem sound_kernel1 (c : Dev nD) (E : Set ℕ) (i : grid1.Coords)
    (arg4 : Memref sig .tc .vmem S1x512x1024 .f32) (harg4 : arg4.IsWhole) (arg5 : Memref sig .tc .vmem S1024x1024 .f32) (harg5 : arg5.IsWhole)
    (arg6 : Memref sig .tc .vmem S1x512x1024 .f32) (harg6 : arg6.IsWhole) (arg7 : Memref sig .tc .vmem S1x512x1024 .bf16) (harg7 : arg7.IsWhole)
    (arg8 : Memref sig .tc .vmem S1x512x1024 .f32) (harg8 : arg8.IsWhole)
    (T0 T1 : S10.Idx → BitVec 32) (qT : PosShare TreeShare)
    (xb : Vec F S1x512x1024 .f32) (wq : Vec F S1024x1024 .f32) (kb : Vec F S1x512x1024 .f32) (vb : Vec F S1x512x1024 .bf16) (o : Vec F S1x512x1024 .f32)
    (st : St F) (K : PUnit → sProp 𝕄) :
    iprop((((c : Thread nD τ).loc main_c) ↦{qT} T0) ∗ (((c : Thread nD τ).loc main_c_0) ↦{qT} T1)
        ∗ owns (c : Thread nD τ) arg4 fullShare xb ∗ owns (c : Thread nD τ) arg5 fullShare wq ∗ owns (c : Thread nD τ) arg6 fullShare kb
        ∗ owns (c : Thread nD τ) arg7 fullShare vb ∗ owns (c : Thread nD τ) arg8 fullShare o
        ∗ owns (c : Thread nD τ) (Memref.whole cc1_scratch0) fullShare st.1 ∗ owns (c : Thread nD τ) (Memref.whole cc1_scratch1) fullShare st.2.1
        ∗ owns (c : Thread nD τ) (Memref.whole cc1_scratch2) fullShare st.2.2.1 ∗ owns (c : Thread nD τ) (Memref.whole cc1_scratch3) fullShare st.2.2.2
        ∗ (iprop((((c : Thread nD τ).loc main_c) ↦{qT} T0) ∗ (((c : Thread nD τ).loc main_c_0) ↦{qT} T1)
            ∗ owns (c : Thread nD τ) arg4 fullShare xb ∗ owns (c : Thread nD τ) arg5 fullShare wq ∗ owns (c : Thread nD τ) arg6 fullShare kb
            ∗ owns (c : Thread nD τ) arg7 fullShare vb ∗ owns (c : Thread nD τ) arg8 fullShare (outO (wd T0 i) (wd T1 i) xb wq kb vb o st)
            ∗ owns (c : Thread nD τ) (Memref.whole cc1_scratch0) fullShare (stepS (wd T0 i) (wd T1 i) xb wq kb vb st).1
            ∗ owns (c : Thread nD τ) (Memref.whole cc1_scratch1) fullShare (stepS (wd T0 i) (wd T1 i) xb wq kb vb st).2.1
            ∗ owns (c : Thread nD τ) (Memref.whole cc1_scratch2) fullShare (stepS (wd T0 i) (wd T1 i) xb wq kb vb st).2.2.1
            ∗ owns (c : Thread nD τ) (Memref.whole cc1_scratch3) fullShare (stepS (wd T0 i) (wd T1 i) xb wq kb vb st).2.2.2) -∗ K ⟨⟩))
      ⊢ wp frame (wpE (defs₀ (F := F)) Variants.none c none) E
          (cc1__flash_kernel i (Memref.whole main_c) (Memref.isWhole_whole _) (Memref.whole main_c_0) (Memref.isWhole_whole _) arg4 harg4 arg5 harg5 arg6 harg6 arg7 harg7 arg8 harg8
            (Memref.whole cc1_scratch0) (Memref.isWhole_whole _) (Memref.whole cc1_scratch1) (Memref.isWhole_whole _) (Memref.whole cc1_scratch2) (Memref.isWhole_whole _) (Memref.whole cc1_scratch3) (Memref.isWhole_whole _)) K := by
  by_cases hc0 : isFirst (wd T1 i)
  · by_cases hc1 : isLast (wd T0 i) (wd T1 i)
    · exact run_A c E i arg4 harg4 arg5 harg5 arg6 harg6 arg7 harg7 arg8 harg8 T0 T1 qT xb wq kb vb o st K hc0 hc1
    · exact run_B c E i arg4 harg4 arg5 harg5 arg6 harg6 arg7 harg7 arg8 harg8 T0 T1 qT xb wq kb vb o st K hc0 hc1
  · by_cases hc1 : isLast (wd T0 i) (wd T1 i)
    · exact run_C c E i arg4 harg4 arg5 harg5 arg6 harg6 arg7 harg7 arg8 harg8 T0 T1 qT xb wq kb vb o st K hc0 hc1
    · exact run_D c E i arg4 harg4 arg5 harg5 arg6 harg6 arg7 harg7 arg8 harg8 T0 T1 qT xb wq kb vb o st K hc0 hc1

end Cert.Kernel.Hand

end
-- ==== Proof.B_FlashDat.lean ====
/-
  The flash-attention call's proof data and body obligation, at a parameter V (the TensorCore's buffer contents
  when the region is entered) and at the pinned step tables: each window's block at a point; the scratch
  contents after every point as one recursion over the points; the invariant (the tables held, the scratch
  buffers at the recursion's value, the other call's staging buffers and the generator register untouched);
  and, point by point, that the body runs from the invariant to the invariant, storing the output tile exactly
  at a query tile's last key tile.
-/
import proofs.«409614_j37976100831500_3_alg».proof.Proof.B_FlashSched
import proofs.«409614_j37976100831500_3_alg».proof.Proof.B_FlashTraj
import proofs.«409614_j37976100831500_3_alg».proof.Proof.B_FlashPure
import proofs.«409614_j37976100831500_3_alg».proof.Proof.B_FlashRun
import proofs.«409614_j37976100831500_3_alg».proof.Proof.Gen.Kernel.Launch
import proofs.«409614_j37976100831500_3_alg».proof.Proof.Gen.Kernel.Skeleton
import Idealize.ShloMosaic.Lib.Pipeline.TableIdle
import Idealize.ShloMosaic.Lib.Pipeline.FrameBody
import Idealize.ShloMosaic.Lib.Pipeline.Kit
import Idealize.ShloMosaic.Lib.Tactic
import Idealize.ShloMosaic.PureOps.BitExact

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scratch contents before a point -/

/-- What the scratch buffers hold before position t of the invariant's index (anything before the first point). -/
def prevT (c : Dev nD) (t : Fin ((cfgA (F := F)).N + 1)) : St F :=
  if h : t.val = 0 then st0 else traj V c (t.val - 1) (by have := t.isLt; omega)

theorem prevT_succ (c : Dev nD) (t : Fin (cfgA (F := F)).N) : prevT V c t.succ = traj V c t.val t.isLt := by
  unfold prevT; rw [dif_neg (by simp)]; rfl

/-- A step from contents that are the recursion's (or, at the first point, from any contents: the first point
    is a first key tile, which resets the scratch) gives the recursion's next value. -/
theorem step_eq (c : Dev nD) (t : Fin (cfgA (F := F)).N) (st : St F) (hst : t.val ≠ 0 → st = prevT V c t.castSucc) :
    stepAt V c t st = traj V c t.val t.isLt := by
  obtain ⟨n, hn⟩ := t
  cases n with
  | zero => exact stepS_first _ _ (first0 (F := F) hn) _ _ _ _ _ _
  | succ n =>
    rw [hst (Nat.succ_ne_zero n)]
    have h0 : ¬ ((⟨n + 1, hn⟩ : Fin (cfgA (F := F)).N).castSucc.val = 0) := Nat.succ_ne_zero n
    unfold prevT; rw [dif_neg h0]; rfl

/-! ## The invariant -/

/-- The four scratch buffers at contents st. -/
def scr1 (c : Dev nD) (st : St F) : sProp 𝕄 :=
  iprop(owns (c : Thread nD τ) (Memref.whole cc1_scratch0) fullShare st.1 ∗ owns (c : Thread nD τ) (Memref.whole cc1_scratch1) fullShare st.2.1
    ∗ owns (c : Thread nD τ) (Memref.whole cc1_scratch2) fullShare st.2.2.1 ∗ owns (c : Thread nD τ) (Memref.whole cc1_scratch3) fullShare st.2.2.2)

/-- What the body never touches: the projection call's staging buffers at any contents, the generator register
    at any state. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ r, prngReg c r))

/-- The invariant before point t: the two step tables held whole at their pinned contents; the scratch buffers
    at some contents, the recursion's once a point has run; the untouched rest. -/
def Phi1 (c : Dev nD) (t : Fin ((cfgA (F := F)).N + 1)) : sProp 𝕄 :=
  iprop(Pipeline.prefHeld (Ix := Unit) (Name := ℕ) (U := UR sig nD τ) (Lvl := ℕ) pre1 c (fun _ => fullShare) (tbl (F := F))
    ∗ (∃ st : St F, ⌜t.val ≠ 0 → st = prevT V c t⌝ ∗ scr1 c st)
    ∗ rest1 (F := F) c)

/-- The tables one by one. -/
theorem prefHeld1_eq (c : Dev nD) (q : Fin pre1.K → PosShare TreeShare) (v : pre1.Contents (Elt F)) :
    (Pipeline.prefHeld (Ix := Unit) (Name := ℕ) (U := UR sig nD τ) (Lvl := ℕ) pre1 c q v : sProp 𝕄)
      = iprop((((c : Thread nD τ).loc main_c) ↦{q 0} v 0) ∗ (((c : Thread nD τ).loc main_c_0) ↦{q 1} v 1)) := by
  unfold Pipeline.prefHeld
  exact bigSep_univ_eq_bigSepL [(0 : Fin 2), (1 : Fin 2)] (by decide) (by decide) _

/-- The invariant at the first point, from what the launch hands the region. -/
theorem Phi1_in (c : Dev nD) : iprop((∃ r, prngReg c r) ∗ Pipeline.prefHeld pre1 c (fun _ => fullShare) (tbl (F := F)) ∗ Pipeline.scopedRest (Ix := Unit) (Name := ℕ) (U := UR sig nD τ) (Lvl := ℕ) (Val := Elt F) spec1 c) ⊢ (Phi1 V c 0 : sProp 𝕄) := by
  rw [scopedRest1_eq]
  unfold Phi1 rest1 scr1
  simp only [owns_whole]
  iintro ⟨Hr, HT, G0, G1, G2, G3, G4, G5, G6, G7, ⟨%a0, S0⟩, ⟨%a1, S1⟩, ⟨%a2, S2⟩, ⟨%a3, S3⟩⟩
  isplitl [HT]; · iexact HT
  isplitl [S0 S1 S2 S3]
  · iexists (a0, a1, a2, a3)
    isplitr; · ipureintro; intro h; exact absurd rfl h
    isplitl [S0]; · iexact S0
    isplitl [S1]; · iexact S1
    isplitl [S2]; · iexact S2
    iexact S3
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iexact Hr

/-- At the last point the invariant gives everything back. -/
theorem Phi1_out (c : Dev nD) : (Phi1 V c (Fin.last _) : sProp 𝕄) ⊢ iprop((∃ r, prngReg c r) ∗ Pipeline.prefHeld pre1 c (fun _ => fullShare) (tbl (F := F)) ∗ Pipeline.scopedRest (Ix := Unit) (Name := ℕ) (U := UR sig nD τ) (Lvl := ℕ) (Val := Elt F) spec1 c) := by
  rw [scopedRest1_eq]
  unfold Phi1 rest1 scr1
  simp only [owns_whole]
  iintro ⟨HT, ⟨%st, -, S0, S1, S2, S3⟩, G0, G1, G2, G3, G4, G5, G6, G7, Hr⟩
  isplitl [Hr]; · iexact Hr
  isplitl [HT]; · iexact HT
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [S0]; · iexists _; iexact S0
  isplitl [S1]; · iexists _; iexact S1
  isplitl [S2]; · iexists _; iexact S2
  iexists _; iexact S3

/-! ## The pipeline's proof data -/

/-- The proof data of the flash pipeline on core c: the arrays as the region finds them; after the body at point
    t each input's buffer at its block and the output's at numerators / denominators of the scratch contents
    after t; the invariant above; full shares; nothing owed. -/
def dat1 (c : Dev nD) : Dat τ (Elt F) Unit ℕ (UR sig nD τ) ℕ (cfgA (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (traj V c t.val t.isLt).2.2.2 (traj V c t.val t.isLt).2.2.1
  Φ t := Phi1 V c t
  q _ := fullShare
  owed _ := 0

theorem A_eq1 (c : Dev nD) (w : Fin (cfgA (F := F)).W) : (dat1 V c).A w = V c (Pipeline.arrRef spec1 w) := by
  dsimp only [dat1]

theorem after1_0 (c : Dev nD) (t : Fin (cfgA (F := F)).N) : (dat1 V c).after 0 t = iblk1 V c 0 t := rfl
theorem after1_1 (c : Dev nD) (t : Fin (cfgA (F := F)).N) : (dat1 V c).after 1 t = iblk1 V c 1 t := rfl
theorem after1_2 (c : Dev nD) (t : Fin (cfgA (F := F)).N) : (dat1 V c).after 2 t = iblk1 V c 2 t := rfl
theorem after1_3 (c : Dev nD) (t : Fin (cfgA (F := F)).N) : (dat1 V c).after 3 t = iblk1 V c 3 t := rfl
theorem after1_4 (c : Dev nD) (t : Fin (cfgA (F := F)).N) :
    (dat1 V c).after 4 t = k1_pay4 (traj V c t.val t.isLt).2.2.2 (traj V c t.val t.isLt).2.2.1 := rfl

/-! ## What each window's staging buffer holds when the body runs -/

/-- Each input's current buffer holds its block at every point, fetched there or not. -/
theorem before1_0 (c : Dev nD) (t : Fin (cfgA (F := F)).N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfgA (F := F)).N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfgA (F := F)).N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin (cfgA (F := F)).N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- The output's current buffer holds nothing the body stored, at every point: the block is written back at the
    very point that stores it. -/
theorem before1_4 (c : Dev nD) (t : Fin (cfgA (F := F)).N) (d) : (dat1 V c).before 4 t d = d := by
  rw [(dat1 V c).before_out_traj 4 rfl (fun _ _ => rfl)
    (fun t' _ _ hf => absurd ((fresh4 (F := F) t'.val (Nat.le_of_lt t'.isLt)).symm.trans hf) (by decide)) t.val t rfl d,
    fresh4 (F := F) t.val (Nat.le_of_lt t.isLt)]
  rfl

/-! ## The body obligation, at a generic point -/

/-- The current staging memref of each window at point t. -/
abbrev st1_0 (t : Fin (cfgA (F := F)).N) := ((cfgA (F := F)).win 0).stage ((cfgA (F := F)).slots t 0)
abbrev st1_1 (t : Fin (cfgA (F := F)).N) := ((cfgA (F := F)).win 1).stage ((cfgA (F := F)).slots t 1)
abbrev st1_2 (t : Fin (cfgA (F := F)).N) := ((cfgA (F := F)).win 2).stage ((cfgA (F := F)).slots t 2)
abbrev st1_3 (t : Fin (cfgA (F := F)).N) := ((cfgA (F := F)).win 3).stage ((cfgA (F := F)).slots t 3)
abbrev st1_4 (t : Fin (cfgA (F := F)).N) := ((cfgA (F := F)).win 4).stage ((cfgA (F := F)).slots t 4)

/-- The kernel body at point t, on what the pipeline calls it with. -/
abbrev bodyAt1 (t : Fin (cfgA (F := F)).N) : Prog (TpuEff nD τ sig (Elt F) Λ₀ .tc) PUnit :=
  cc1__flash_kernel ((cfgA (F := F)).grid.coords t) (Memref.whole main_c) (Memref.isWhole_whole _) (Memref.whole main_c_0) (Memref.isWhole_whole _)
    (spec1_0.stage ((cfgA (F := F)).slots t 0)) (hstage1_0 (((cfgA (F := F)).slots t 0).cast nbuf1_0))
    (spec1_1.stage ((cfgA (F := F)).slots t 1)) (hstage1_1 (((cfgA (F := F)).slots t 1).cast nbuf1_1))
    (spec1_2.stage ((cfgA (F := F)).slots t 2)) (hstage1_2 (((cfgA (F := F)).slots t 2).cast nbuf1_2))
    (spec1_3.stage ((cfgA (F := F)).slots t 3)) (hstage1_3 (((cfgA (F := F)).slots t 3).cast nbuf1_3))
    (spec1_4.stage ((cfgA (F := F)).slots t 4)) (hstage1_4 (((cfgA (F := F)).slots t 4).cast nbuf1_4))
    (Memref.whole cc1_scratch0) (Memref.isWhole_whole _) (Memref.whole cc1_scratch1) (Memref.isWhole_whole _)
    (Memref.whole cc1_scratch2) (Memref.isWhole_whole _) (Memref.whole cc1_scratch3) (Memref.isWhole_whole _)

/-- What the body is called with at point t, the windows one by one, -/
def bodyPre1 (c : Dev nD) (t : Fin (cfgA (F := F)).N) : sProp 𝕄 :=
  iprop((dat1 V c).Φ t.castSucc ∗ (dat1 V c).owesAt () t.castSucc
    ∗ (∃ d, owns (c : Thread nD τ) (st1_0 (F := F) t) fullShare ((dat1 V c).before 0 t d))
    ∗ (∃ d, owns (c : Thread nD τ) (st1_1 (F := F) t) fullShare ((dat1 V c).before 1 t d))
    ∗ (∃ d, owns (c : Thread nD τ) (st1_2 (F := F) t) fullShare ((dat1 V c).before 2 t d))
    ∗ (∃ d, owns (c : Thread nD τ) (st1_3 (F := F) t) fullShare ((dat1 V c).before 3 t d))
    ∗ (∃ d, owns (c : Thread nD τ) (st1_4 (F := F) t) fullShare ((dat1 V c).before 4 t d)))

/-- and what it returns: the output's buffer at the stored tile where the point stores it, else as found. -/
def bodyPost1 (c : Dev nD) (t : Fin (cfgA (F := F)).N) : sProp 𝕄 :=
  iprop((dat1 V c).Φ t.succ ∗ (dat1 V c).owesAt () t.succ
    ∗ owns (c : Thread nD τ) (st1_0 (F := F) t) fullShare ((dat1 V c).after 0 t)
    ∗ owns (c : Thread nD τ) (st1_1 (F := F) t) fullShare ((dat1 V c).after 1 t)
    ∗ owns (c : Thread nD τ) (st1_2 (F := F) t) fullShare ((dat1 V c).after 2 t)
    ∗ owns (c : Thread nD τ) (st1_3 (F := F) t) fullShare ((dat1 V c).after 3 t)
    ∗ (dat1 V c).leavesExact 4 t)

set_option maxHeartbeats 1000000 in
/-- The body at any point: the inputs' buffers hold their blocks and the output's holds nothing stored; the
    scratch buffers hold the recursion's previous value (anything at the first point, which resets them); the
    body's triple applies; the scratch buffers are left at the recursion's value, and the output's buffer at the
    stored tile exactly where the point is a query tile's last key tile. -/
theorem sound_body1 (c : Dev nD) (t : Fin (cfgA (F := F)).N) :
    bodyPre1 V c t ⊢ wp frame (wpE (defs₀ (F := F)) Variants.none c none) Set.univ (bodyAt1 (F := F) t) (fun _ => bodyPost1 V c t) := by
  unfold bodyPre1 bodyPost1 bodyAt1
  simp only [before1_0, before1_1, before1_2, before1_3, before1_4]
  rw [show (dat1 V c).Φ t.succ = Phi1 V c t.succ from rfl, show (dat1 V c).Φ t.castSucc = Phi1 V c t.castSucc from rfl,
    show (dat1 V c).owesAt () t.succ = (dat1 V c).owesAt () t.castSucc from rfl,
    after1_0, after1_1, after1_2, after1_3]
  unfold Phi1 scr1
  rw [prefHeld1_eq]
  simp only [prevT_succ]
  by_cases hl : isLast (w1 (F := F) t) (w3 (F := F) t)
  · have hi : (cfgA (F := F)).idle 4 ((cfgA (F := F)).grid.coords t) = false := by
      rw [(sched4 (F := F) t).2, decide_eq_true hl]; rfl
    rw [show (dat1 V c).leavesExact 4 t = owns (c : Thread nD τ) (st1_4 (F := F) t) fullShare ((dat1 V c).after 4 t) from by
      unfold Dat.leavesExact; rw [hi]]
    rw [after1_4]
    iintro ⟨⟨⟨T0, T1⟩, ⟨%st, %hst, S0, S1, S2, S3⟩, HR⟩, Ho, ⟨%d0, H0⟩, ⟨%d1, H1⟩, ⟨%d2, H2⟩, ⟨%d3, H3⟩, ⟨%d4, H4⟩⟩
    rw [← step_eq V c t st hst]
    rw [show k1_pay4 (stepAt V c t st).2.2.2 (stepAt V c t st).2.2.1
        = outO (w1 (F := F) t) (w3 (F := F) t) (iblk1 V c 0 t) (iblk1 V c 1 t) (iblk1 V c 2 t) (iblk1 V c 3 t) d4 st from by
      unfold outO; exact (if_pos hl).symm]
    iapply (sound_kernel1 c Set.univ ((cfgA (F := F)).grid.coords t) _ _ _ _ _ _ _ _ _ _ (tbl (F := F) 0) (tbl (F := F) 1) fullShare
      (iblk1 V c 0 t) (iblk1 V c 1 t) (iblk1 V c 2 t) (iblk1 V c 3 t) d4 st _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨T0, T1, H0, H1, H2, H3, H4, S0, S1, S2, S3⟩
    isplitl [T0 T1 S0 S1 S2 S3 HR]
    · isplitl [T0 T1]
      · isplitl [T0]; · iexact T0
        iexact T1
      isplitl [S0 S1 S2 S3]
      · iexists (stepAt V c t st)
        isplitr; · ipureintro; exact fun _ => rfl
        isplitl [S0]; · iexact S0
        isplitl [S1]; · iexact S1
        isplitl [S2]; · iexact S2
        iexact S3
      iexact HR
    isplitl [Ho]; · iexact Ho
    isplitl [H0]; · iexact H0
    isplitl [H1]; · iexact H1
    isplitl [H2]; · iexact H2
    isplitl [H3]; · iexact H3
    iexact H4
  · have hd : decide (isLast (w1 (F := F) t) (w3 (F := F) t)) = false := decide_eq_false hl
    have hi : (cfgA (F := F)).idle 4 ((cfgA (F := F)).grid.coords t) = true := by
      rw [(sched4 (F := F) t).2, hd]; rfl
    have hf : ((cfgA (F := F)).win 4).flush t = false := by
      rw [(sched4 (F := F) t).1, hd]
    rw [(dat1 V c).leavesExact_idle 4 t hi hf]
    simp only [before1_4]
    iintro ⟨⟨⟨T0, T1⟩, ⟨%st, %hst, S0, S1, S2, S3⟩, HR⟩, Ho, ⟨%d0, H0⟩, ⟨%d1, H1⟩, ⟨%d2, H2⟩, ⟨%d3, H3⟩, ⟨%d4, H4⟩⟩
    rw [← step_eq V c t st hst]
    iapply (sound_kernel1 c Set.univ ((cfgA (F := F)).grid.coords t) _ _ _ _ _ _ _ _ _ _ (tbl (F := F) 0) (tbl (F := F) 1) fullShare
      (iblk1 V c 0 t) (iblk1 V c 1 t) (iblk1 V c 2 t) (iblk1 V c 3 t) d4 st _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨T0, T1, H0, H1, H2, H3, H4, S0, S1, S2, S3⟩
    isplitl [T0 T1 S0 S1 S2 S3 HR]
    · isplitl [T0 T1]
      · isplitl [T0]; · iexact T0
        iexact T1
      isplitl [S0 S1 S2 S3]
      · iexists (stepAt V c t st)
        isplitr; · ipureintro; exact fun _ => rfl
        isplitl [S0]; · iexact S0
        isplitl [S1]; · iexact S1
        isplitl [S2]; · iexact S2
        iexact S3
      iexact HR
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.B_Run.lean ====
/- THE RUN of the idealized kernel program's @main: two kernel regions among stretches of host operations, generic
   in the float carrier. The buffer contents at every boundary between two items form a fold from the launch memory:
   a host stretch applies its operations' results, a region leaves each of its arrays at what its write-backs make of
   it and every other buffer as entered. Each argument array is read back through the fold to its launch contents;
   the result buffer is read as the last region's output array after its last write-back. One theorem says: every
   weakly fair execution terminates, and in every final state each unscoped TensorCore buffer holds the last
   boundary's contents. -/
import proofs.«409614_j37976100831500_3_alg».proof.Proof.B_Kv
import proofs.«409614_j37976100831500_3_alg».proof.Proof.B_FlashDat
import proofs.«409614_j37976100831500_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: the first region's entry contents. -/
abbrev W1 : Dev nD → Valuation τ sig (Elt F) := fun c => StableHlo.after hostOps0 (W0 m ρ c)
/-- The same at the TensorCore's references. -/
abbrev V1 : (c : Dev nD) → (b : Ref sig .tc) → Buf (Elt F) ((c : Thread nD τ).loc b) := fun c b => W1 m ρ c b
/-- At the first region's exit: each of its arrays after its last write-back, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the second region's entry contents. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit: each of its arrays after its last write-back, every other buffer as entered. -/
def W4 (c : Dev nD) : Valuation τ sig (Elt F) :=
  Pipeline.withArrays spec1 c (W3 m ρ c) fun w => (dat1 (V3 m ρ) c).arrAt w (cfgA (F := F)).N
theorem W4_arr (c : Dev nD) (w : Fin (cfgA (F := F)).W) :
    W4 m ρ c (Proc.devRef .tc (Pipeline.arrRef spec1 w)) = (dat1 (V3 m ρ) c).arrAt w (cfgA (F := F)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfgA (F := F)).W) :
    (dat1 (V3 m ρ) c).arrAt w (cfgA (F := F)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### A buffer no host operation writes keeps its contents across a host stretch -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-! ### The arguments end as launched: no host operation writes one, and a region reads it through an input window
    (whose array keeps its entry contents) or passes it by -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) :=
          (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) :=
          (W4_arr m ρ c 1).trans (((dat1 (V3 m ρ) c).arrAt_in 1 rfl _).trans (A_eq1 (V3 m ρ) c 1))
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) :=
          (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) :=
          (W2_arr m ρ c 2).trans (((dat0 (V1 m ρ) c).arrAt_in 2 rfl _).trans (A_eq0 (V1 m ρ) c 2))
    _ = W0 m ρ c (Proc.devRef .tc main_arg3) := W1_of m ρ c main_arg3 (by decide)
    _ = m ((c : Thread nD τ).loc main_arg3) := rfl

/-- The result buffer ends as the second region's output array after its last write-back. -/
theorem W4_main_v4 (c : Dev nD) :
    W4 m ρ c (Proc.devRef .tc main_v4) = (dat1 (V3 m ρ) c).arrAt 4 (cfgA (F := F)).N :=
  W4_arr m ρ c 4

/-! ### The two step tables at the second region's entry: the constants the first host stretch writes, which
    nothing writes afterwards -/

theorem W1_main_c (c : Dev nD) : W1 m ρ c (Proc.devRef .tc main_c) = tbl (F := F) 0 := by
  dsimp only [W1, hostOps0]; after_results; rfl
theorem W1_main_c_0 (c : Dev nD) : W1 m ρ c (Proc.devRef .tc main_c_0) = tbl (F := F) 1 := by
  dsimp only [W1, hostOps0]; after_results; rfl

theorem W3_main_c (c : Dev nD) : W3 m ρ c (Proc.devRef .tc main_c) = tbl (F := F) 0 :=
  (W3_of m ρ c main_c (by decide)).trans <| (W2_of_ne m ρ c main_c (by decide)).trans <| W1_main_c m ρ c

theorem W3_main_c_0 (c : Dev nD) : W3 m ρ c (Proc.devRef .tc main_c_0) = tbl (F := F) 1 :=
  (W3_of m ρ c main_c_0 (by decide)).trans <| (W2_of_ne m ρ c main_c_0 (by decide)).trans <| W1_main_c_0 m ρ c

/-- The tables' contents read off the second region's entry valuation are the pinned ones. -/
theorem V3_tbl (c : Dev nD) : (fun k => V3 m ρ c (pre1.ref k) : pre1.Contents (Elt F)) = tbl (F := F) := by
  funext k
  match k with
  | ⟨0, _⟩ => exact W3_main_c m ρ c
  | ⟨1, _⟩ => exact W3_main_c_0 m ρ c

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none
/-- No core waits on another: no level is assigned. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 :=
  iprop((∃ r, prngReg c r) ∗ ∃ W, owes (c : Thread nD τ) (0 : CellTallies nD τ sig Unit) W)

theorem hostOps0_noalloc : (hostOps0 : List (HloOp τ sig (Elt F))).Forall fun op => op.fresh = ∅ := hostOps0_fresh
theorem hostOps1_noalloc : (hostOps1 : List (HloOp τ sig (Elt F))).Forall fun op => op.fresh = ∅ := hostOps1_fresh

/-- A host stretch over the unscoped buffers from the contents `W`, `R` beside: it ends at the stretch's results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one of those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last thread state but for the core owing nothing: every unscoped buffer at the last boundary's contents, the
    generator register at some state. -/
abbrev Tₙ (c : Dev nD) : sProp 𝕄 :=
  iprop(StableHlo.held (c : Thread nD τ) (Pipeline.ucRefs τ sig) (W4 m ρ c) ∗ ∃ r, prngReg c r)

/-! ## The regions -/

set_option backward.isDefEq.respectTransparency.types false in
/-- The first region: entered from every unscoped buffer at `W1`, left at `W2`. Its arrays are taken out of the
    unscoped buffers at entry and put back at their final contents at exit; the generator register goes into the
    invariant and comes back; nothing is owed; the kernel has no semaphore of its own. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win
      (launch0 (F := F)).arr_whole c ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, whose index maps read two prefetched step tables: entered from every unscoped buffer at `W3`,
    left at `W4`. At entry the unscoped buffers split into the region's arrays, the two tables (which hold the pinned
    contents there) and the rest; the tables and the generator register go into the invariant at the first point and
    come back from it at the last; at exit the tables rejoin the rest, and with the arrays at their final contents
    these are every unscoped buffer at `W4`. Nothing is owed; the kernel has no semaphore of its own. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r)
    ∗ Pipeline.prefHeld (Ix := Unit) (Name := ℕ) (U := UR sig nD τ) (Lvl := ℕ) pre1 c (fun _ => fullShare) (tbl (F := F)))
  Z c := Pipeline.unscopedRestP (Ix := Unit) (Name := ℕ) (U := UR sig nD τ) (Lvl := ℕ) pre1 spec1 c (V3 m ρ c)
  hentry c := by
    rw [Pipeline.ownSems0_none]
    have hsplit : (StableHlo.held (c : Thread nD τ) (Pipeline.ucRefs τ sig) (W3 m ρ c) : sProp 𝕄)
        ⊢ iprop((pdats m ρ 1 c).arrays ((pdats m ρ 1 c).arrAt · 0)
            ∗ Pipeline.prefHeld pre1 c (fun _ => fullShare) (tbl (F := F))
            ∗ Pipeline.unscopedRestP pre1 spec1 c (V3 m ρ c)) := by
      have h := Pipeline.arrays_of_unscopedBufs (p := 1) (pcfgs (F := F)) adm (pdats m ρ) (launch1 (F := F)).win
        (launch1 (F := F)).arr_whole c ((pdats m ρ 1 c).share_full fun _ => rfl) (V3 m ρ c) fun _ => rfl
      rw [Pipeline.unscopedBufs_held] at h
      refine h.trans (sep_mono .rfl (Entails.of_eq ?_))
      rw [← V3_tbl m ρ c]
      exact Pipeline.unscopedRest_split (launch1 (F := F)).pre c (V3 m ρ c)
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Phi1_in (V3 m ρ) c
  hout c := by
    rw [Pipeline.ownSems0_none]
    refine (Phi1_out (V3 m ρ) c).trans ?_
    iintro ⟨Hp, Hpf, Hr⟩
    isplitl [Hp Hpf]
    · isplitl [Hp]; · iexact Hp
      iexact Hpf
    isplitr; · iempintro
    iexact Hr
  hexit c := by
    have hjoin : iprop((pdats m ρ 1 c).arrays ((pdats m ρ 1 c).arrAt · (cfgA (F := F)).N)
            ∗ Pipeline.prefHeld pre1 c (fun _ => fullShare) (tbl (F := F))
            ∗ Pipeline.unscopedRestP pre1 spec1 c (V3 m ρ c))
        ⊢ (StableHlo.held (c : Thread nD τ) (Pipeline.ucRefs τ sig) (W4 m ρ c) : sProp 𝕄) := by
      have h := Pipeline.unscopedBufs_of_arrays (p := 1) (pcfgs (F := F)) adm (Ix := Unit) (Name := ℕ) (U := UR sig nD τ) (Lvl := ℕ)
        (launch1 (F := F)).win (launch1 (F := F)).arr_whole c (pdats m ρ) ((pdats m ρ 1 c).share_full fun _ => rfl)
        (V3 m ρ c) (V4 m ρ c) ((pdats m ρ 1 c).arrAt · (cfgA (F := F)).N) (hF1 m ρ c) (hrest1 m ρ c)
      rw [Pipeline.unscopedBufs_held] at h
      refine (sep_mono .rfl (Entails.of_eq ?_)).trans h
      rw [← V3_tbl m ρ c]
      exact (Pipeline.unscopedRest_split (launch1 (F := F)).pre c (V3 m ρ c)).symm
    iintro ⟨Ha, HO, ⟨Hp, Hpf⟩, Hrest⟩
    imodintro
    isplitl [Ha Hpf Hrest Hp]
    · isplitl [Ha Hpf Hrest]
      · iapply hjoin
        isplitl [Ha]; · iexact Ha
        isplitl [Hpf]; · iexact Hpf
        iexact Hrest
      iexact Hp
    unfold Pipeline.Dat.owesAt Pipeline.owesWithin
    icases HO with ⟨%W, -, HO⟩; iexists W; iexact HO

/-! ## @main as its items, and the launch -/

/-- @main's four items in order: a host stretch from its boundary's contents, then a region, twice. -/
abbrev segs : List (Pipeline.Seg (pcfgs (F := F)) adm (pdats m ρ) () defs₀ 𝒱₀ L lv) :=
  [ .host (hseg hostOps0 hostOps0_sub hostOps0_noalloc (W0 m ρ)),
    .region (reg0 m ρ),
    .host (hseg hostOps1 hostOps1_sub hostOps1_noalloc (W2 m ρ)),
    .region (reg1 m ρ) ]

/-- @main is the run of those items. -/
theorem main_run (c : Dev nD) : main (F := F) c = Pipeline.Seg.run (segs m ρ) :=
  main_segs adm (pdats m ρ) () 𝒱₀ L lv _ _ (reg0 m ρ) (reg1 m ρ) rfl rfl c

set_option backward.isDefEq.respectTransparency.types false in
/-- THE RUN. At the compiled mesh, from any memory with every semaphore counter at zero and any generator registers,
    every weakly fair execution of @main on the TensorCores terminates, and in every final state each unscoped
    TensorCore buffer of each core holds the last boundary's contents `W4`: the thread states chain from the launch
    through the four items, and the last one, read against a final state, says what that state's memory holds. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm))
      (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm))
              (Pipeline.launchToks (Pipeline.pin (pcfgs (F := F)) adm) (cellOf_inj adm))) : sProp 𝕄)
            ⊢ BI.own (emb₁ (initOf (Pipeline.cells (Pipeline.pin (pcfgs (F := F)) adm) (cellOf_inj adm))
              (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Hand

end
-- ==== Proof.Softmax.lean ====
import Idealize.ShloMosaic.PureOps.Ideal
import Mathlib.Data.EReal.Basic
import Mathlib.Data.EReal.Operations
import Mathlib.Data.EReal.Inv
import Mathlib.Analysis.SpecialFunctions.Exp
import Mathlib.Algebra.BigOperators.Group.Finset.Basic
import Mathlib.Algebra.Order.BigOperators.Group.Finset
import Mathlib.Data.Finset.Lattice.Fold

/-!
# The online softmax recurrence equals the plain softmax average

Pure mathematics on the extended reals. A score is a real number or ⊥ (a masked
position); a value is a real number. The recurrence keeps a running maximum, a running
denominator and a running numerator, and rescales the latter two by
exp (old maximum - new maximum) whenever a new tile arrives. Because
exp (M - M') * exp (x - M) = exp (x - M') for reals M, M' and every score x (both sides
vanish at x = ⊥), the state after tiles 0..n is the maximum over all scores seen, and the
two sums of exp (score - that maximum) (weighted by the values for the numerator).
-/

namespace Cert.Attn

open Idealize.ShloMosaic
open scoped BigOperators

/-- One step of the recurrence for one query row and one output column: 's' the tile's
(masked, scaled) scores, 'v' the tile's values, the state (running max m, running
denominator l, running numerator a). -/
noncomputable def flashStep {T : ℕ} (s v : Fin T → EReal) (st : EReal × EReal × EReal) :
    EReal × EReal × EReal :=
  let m' := max st.1 (Finset.univ.sup s)
  (m', Ideal.exp (st.1 - m') * st.2.1 + ∑ κ, Ideal.exp (s κ - m'),
    Ideal.exp (st.1 - m') * st.2.2 + ∑ κ, Ideal.exp (s κ - m') * v κ)

/-- The state after tiles 0..n from the reset state (⊥, 0, 0). -/
noncomputable def flashFold {T : ℕ} (s v : ℕ → Fin T → EReal) : ℕ → EReal × EReal × EReal
  | 0 => flashStep (s 0) (v 0) (⊥, 0, 0)
  | n + 1 => flashStep (s (n + 1)) (v (n + 1)) (flashFold s v n)

/-- The row maximum over tiles 0..n. -/
noncomputable def tilesMax {T : ℕ} (s : ℕ → Fin T → EReal) (n : ℕ) : EReal :=
  (Finset.range (n + 1)).sup fun j => Finset.univ.sup (s j)

/-! ### Real sums inside the extended reals -/

/-- The inclusion of the reals commutes with finite sums. -/
theorem coe_finset_sum {ι : Type*} (t : Finset ι) (g : ι → ℝ) :
    ((∑ k ∈ t, g k : ℝ) : EReal) = ∑ k ∈ t, (g k : EReal) := by
  classical
  induction t using Finset.induction_on with
  | empty => simp
  | insert a t ha ih => rw [Finset.sum_insert ha, Finset.sum_insert ha, EReal.coe_add, ih]

/-- A sum of extended reals that are all real is the real sum. -/
theorem sum_eq_coe {ι : Type*} (t : Finset ι) (F : ι → EReal) (f : ι → ℝ)
    (h : ∀ k ∈ t, F k = (f k : EReal)) : ∑ k ∈ t, F k = ((∑ k ∈ t, f k : ℝ) : EReal) := by
  rw [coe_finset_sum]
  exact Finset.sum_congr rfl h

/-- The same for a sum over tiles of sums inside a tile. -/
theorem sum2_eq_coe {T : ℕ} (R : Finset ℕ) (F : ℕ → Fin T → EReal) (f : ℕ → Fin T → ℝ)
    (h : ∀ j ∈ R, ∀ κ, F j κ = (f j κ : EReal)) :
    ∑ j ∈ R, ∑ κ, F j κ = ((∑ j ∈ R, ∑ κ, f j κ : ℝ) : EReal) :=
  sum_eq_coe R _ _ fun j hj => sum_eq_coe Finset.univ _ _ fun κ _ => h j hj κ

/-- A real factor distributes over a tiled sum of reals, term by term. -/
theorem coe_mul_sum2 {T : ℕ} (R : Finset ℕ) (F F' : ℕ → Fin T → EReal) (f f' : ℕ → Fin T → ℝ)
    (c : ℝ) (hF : ∀ j ∈ R, ∀ κ, F j κ = (f j κ : EReal))
    (hF' : ∀ j ∈ R, ∀ κ, F' j κ = (f' j κ : EReal))
    (hc : ∀ j ∈ R, ∀ κ, c * f j κ = f' j κ) :
    (c : EReal) * ∑ j ∈ R, ∑ κ, F j κ = ∑ j ∈ R, ∑ κ, F' j κ := by
  rw [sum2_eq_coe R F f hF, sum2_eq_coe R F' f' hF', ← EReal.coe_mul, Finset.mul_sum]
  congr 1
  refine Finset.sum_congr rfl fun j hj => ?_
  rw [Finset.mul_sum]
  exact Finset.sum_congr rfl fun κ _ => hc j hj κ

/-! ### The real number exp (x - M) for a score x -/

/-- The real number 'exp (x - M)' of a score 'x' (real or ⊥) against a real 'M'. -/
noncomputable def expSub (x : EReal) (M : ℝ) : ℝ := (Ideal.exp (x - (M : EReal))).toReal

theorem expSub_bot (M : ℝ) : expSub ⊥ M = 0 := by
  rw [expSub, EReal.bot_sub, Ideal.exp_bot, EReal.toReal_zero]

theorem expSub_coe (r M : ℝ) : expSub (r : EReal) M = Real.exp (r - M) := by
  rw [expSub, ← EReal.coe_sub, Ideal.exp_coe, EReal.toReal_coe]

theorem exp_sub_coe {x : EReal} (hx : x = ⊥ ∨ ∃ r : ℝ, x = (r : EReal)) (M : ℝ) :
    Ideal.exp (x - (M : EReal)) = ((expSub x M : ℝ) : EReal) := by
  rcases hx with rfl | ⟨r, rfl⟩
  · rw [expSub_bot, EReal.bot_sub, Ideal.exp_bot, EReal.coe_zero]
  · rw [expSub_coe, ← EReal.coe_sub, Ideal.exp_coe]

theorem expSub_nonneg {x : EReal} (hx : x = ⊥ ∨ ∃ r : ℝ, x = (r : EReal)) (M : ℝ) :
    0 ≤ expSub x M := by
  rcases hx with rfl | ⟨r, rfl⟩
  · rw [expSub_bot]
  · rw [expSub_coe]; exact (Real.exp_pos _).le

/-- Changing the reference point multiplies by the exponential of the shift. -/
theorem expSub_rescale {x : EReal} (hx : x = ⊥ ∨ ∃ r : ℝ, x = (r : EReal)) (M M' : ℝ) :
    Real.exp (M - M') * expSub x M = expSub x M' := by
  rcases hx with rfl | ⟨r, rfl⟩
  · rw [expSub_bot, expSub_bot, mul_zero]
  · rw [expSub_coe, expSub_coe, ← Real.exp_add]
    congr 1
    ring

/-! ### The running maximum -/

theorem tilesMax_zero {T : ℕ} (s : ℕ → Fin T → EReal) : tilesMax s 0 = Finset.univ.sup (s 0) := by
  rw [tilesMax, Finset.range_one, Finset.sup_singleton]

theorem tilesMax_succ {T : ℕ} (s : ℕ → Fin T → EReal) (n : ℕ) :
    tilesMax s (n + 1) = max (tilesMax s n) (Finset.univ.sup (s (n + 1))) := by
  rw [tilesMax, Finset.range_add_one, Finset.sup_insert, max_comm]
  rfl

theorem tilesMax_real {T : ℕ} (n : ℕ) (s : ℕ → Fin T → EReal)
    (hs : ∀ j ≤ n, ∀ κ, s j κ = ⊥ ∨ ∃ r : ℝ, s j κ = (r : EReal))
    (h0 : ∃ κ, ∃ r : ℝ, s 0 κ = (r : EReal)) : ∃ M : ℝ, tilesMax s n = (M : EReal) := by
  obtain ⟨κ0, r0, h0⟩ := h0
  have htop : tilesMax s n ≠ ⊤ := by
    refine ne_of_lt ?_
    rw [tilesMax, Finset.sup_lt_iff bot_lt_top]
    intro j hj
    rw [Finset.sup_lt_iff bot_lt_top]
    intro κ _
    rcases hs j (Nat.lt_succ_iff.mp (Finset.mem_range.mp hj)) κ with h | ⟨r, h⟩
    · rw [h]; exact bot_lt_top
    · rw [h]; exact EReal.coe_lt_top r
  have hbot : tilesMax s n ≠ ⊥ := by
    refine ne_of_gt ?_
    have h1 : s 0 κ0 ≤ Finset.univ.sup (s 0) := Finset.le_sup (f := s 0) (Finset.mem_univ κ0)
    have h2 : Finset.univ.sup (s 0) ≤ tilesMax s n :=
      Finset.le_sup (f := fun j => Finset.univ.sup (s j)) (Finset.mem_range.mpr (Nat.succ_pos n))
    exact lt_of_lt_of_le (h0 ▸ EReal.bot_lt_coe r0) (h1.trans h2)
  exact ⟨(tilesMax s n).toReal, (EReal.coe_toReal htop hbot).symm⟩

/-! ### The denominator -/

theorem denom_pos_real {T : ℕ} (n : ℕ) (s : ℕ → Fin T → EReal)
    (hs : ∀ j ≤ n, ∀ κ, s j κ = ⊥ ∨ ∃ r : ℝ, s j κ = (r : EReal))
    (h0 : ∃ κ, ∃ r : ℝ, s 0 κ = (r : EReal)) :
    ∃ Z : ℝ, 0 < Z ∧
      (∑ j ∈ Finset.range (n + 1), ∑ κ, Ideal.exp (s j κ - tilesMax s n)) = (Z : EReal) := by
  obtain ⟨M, hM⟩ := tilesMax_real n s hs h0
  obtain ⟨κ0, r0, h0⟩ := h0
  have hmem : ∀ j ∈ Finset.range (n + 1), j ≤ n := fun j hj =>
    Nat.lt_succ_iff.mp (Finset.mem_range.mp hj)
  refine ⟨∑ j ∈ Finset.range (n + 1), ∑ κ, expSub (s j κ) M, ?_, ?_⟩
  · refine Finset.sum_pos' (fun j hj => Finset.sum_nonneg fun κ _ =>
      expSub_nonneg (hs j (hmem j hj) κ) M) ⟨0, Finset.mem_range.mpr (Nat.succ_pos n), ?_⟩
    refine Finset.sum_pos' (fun κ _ => expSub_nonneg (hs 0 (Nat.zero_le n) κ) M)
      ⟨κ0, Finset.mem_univ κ0, ?_⟩
    rw [h0, expSub_coe]
    exact Real.exp_pos _
  · rw [hM]
    exact sum2_eq_coe _ _ _ fun j hj κ => exp_sub_coe (hs j (hmem j hj) κ) M

/-! ### The recurrence -/

theorem flashStep_eq {T : ℕ} (s v : Fin T → EReal) (m l a : EReal) :
    flashStep s v (m, l, a) =
      (max m (Finset.univ.sup s),
        Ideal.exp (m - max m (Finset.univ.sup s)) * l
          + ∑ κ, Ideal.exp (s κ - max m (Finset.univ.sup s)),
        Ideal.exp (m - max m (Finset.univ.sup s)) * a
          + ∑ κ, Ideal.exp (s κ - max m (Finset.univ.sup s)) * v κ) := rfl

theorem flashFold_eq {T : ℕ} (n : ℕ) (s v : ℕ → Fin T → EReal)
    (hs : ∀ j ≤ n, ∀ κ, s j κ = ⊥ ∨ ∃ r : ℝ, s j κ = (r : EReal))
    (h0 : ∃ κ, ∃ r : ℝ, s 0 κ = (r : EReal))
    (hv : ∀ j ≤ n, ∀ κ, ∃ r : ℝ, v j κ = (r : EReal)) :
    flashFold s v n = (tilesMax s n,
      ∑ j ∈ Finset.range (n + 1), ∑ κ, Ideal.exp (s j κ - tilesMax s n),
      ∑ j ∈ Finset.range (n + 1), ∑ κ, Ideal.exp (s j κ - tilesMax s n) * v j κ) := by
  induction n with
  | zero =>
    rw [flashFold, flashStep_eq, tilesMax_zero, bot_sup_eq]
    simp only [mul_zero, zero_add, Finset.range_one, Finset.sum_singleton]
  | succ n ih =>
    have hs' : ∀ j ≤ n, ∀ κ, s j κ = ⊥ ∨ ∃ r : ℝ, s j κ = (r : EReal) := fun j hj =>
      hs j (Nat.le_succ_of_le hj)
    have hv' : ∀ j ≤ n, ∀ κ, ∃ r : ℝ, v j κ = (r : EReal) := fun j hj =>
      hv j (Nat.le_succ_of_le hj)
    obtain ⟨M, hM⟩ := tilesMax_real n s hs' h0
    obtain ⟨M', hM'⟩ := tilesMax_real (n + 1) s hs h0
    have hmem : ∀ j ∈ Finset.range (n + 1), j ≤ n := fun j hj =>
      Nat.lt_succ_iff.mp (Finset.mem_range.mp hj)
    have hw : ∀ j ∈ Finset.range (n + 1), ∀ κ, v j κ = (((v j κ).toReal : ℝ) : EReal) := by
      intro j hj κ
      obtain ⟨r, hr⟩ := hv' j (hmem j hj) κ
      rw [hr, EReal.toReal_coe]
    rw [flashFold, ih hs' hv', flashStep_eq, ← tilesMax_succ, hM, hM', ← EReal.coe_sub,
      Ideal.exp_coe, Finset.sum_range_succ _ (n + 1), Finset.sum_range_succ _ (n + 1)]
    congr 2
    · congr 1
      exact coe_mul_sum2 _ _ _ (fun j κ => expSub (s j κ) M) (fun j κ => expSub (s j κ) M') _
        (fun j hj κ => exp_sub_coe (hs' j (hmem j hj) κ) M)
        (fun j hj κ => exp_sub_coe (hs' j (hmem j hj) κ) M')
        (fun j hj κ => expSub_rescale (hs' j (hmem j hj) κ) M M')
    · congr 1
      refine coe_mul_sum2 _ _ _ (fun j κ => expSub (s j κ) M * (v j κ).toReal)
        (fun j κ => expSub (s j κ) M' * (v j κ).toReal) _ ?_ ?_ ?_
      · intro j hj κ
        rw [exp_sub_coe (hs' j (hmem j hj) κ) M, EReal.coe_mul, ← hw j hj κ]
      · intro j hj κ
        rw [exp_sub_coe (hs' j (hmem j hj) κ) M', EReal.coe_mul, ← hw j hj κ]
      · intro j hj κ
        rw [← mul_assoc, expSub_rescale (hs' j (hmem j hj) κ) M M']

/-! ### The plain softmax average -/

/-- The plain softmax average distributes its division: for scores 'y' (each real or ⊥, one
real) and real values 'w' over a finite index type, dividing each weight by the denominator
and then averaging equals averaging and then dividing. -/
theorem softmax_avg {ι : Type} [Fintype ι] (y w : ι → EReal)
    (hy : ∀ k, y k = ⊥ ∨ ∃ r : ℝ, y k = (r : EReal)) (h1 : ∃ k, ∃ r : ℝ, y k = (r : EReal))
    (hw : ∀ k, ∃ r : ℝ, w k = (r : EReal)) :
    (∑ k, Ideal.div (Ideal.exp (y k - Finset.univ.sup y))
        (∑ k', Ideal.exp (y k' - Finset.univ.sup y)) * w k)
      = Ideal.div (∑ k, Ideal.exp (y k - Finset.univ.sup y) * w k)
          (∑ k', Ideal.exp (y k' - Finset.univ.sup y)) := by
  obtain ⟨k0, r0, h0⟩ := h1
  have htop : Finset.univ.sup y ≠ ⊤ := by
    refine ne_of_lt ?_
    rw [Finset.sup_lt_iff bot_lt_top]
    intro k _
    rcases hy k with h | ⟨r, h⟩
    · rw [h]; exact bot_lt_top
    · rw [h]; exact EReal.coe_lt_top r
  have hbot : Finset.univ.sup y ≠ ⊥ := by
    refine ne_of_gt ?_
    have h1 : y k0 ≤ Finset.univ.sup y := Finset.le_sup (f := y) (Finset.mem_univ k0)
    exact lt_of_lt_of_le (h0 ▸ EReal.bot_lt_coe r0) h1
  obtain ⟨M, hM⟩ : ∃ M : ℝ, Finset.univ.sup y = (M : EReal) :=
    ⟨(Finset.univ.sup y).toReal, (EReal.coe_toReal htop hbot).symm⟩
  have hwr : ∀ k, w k = (((w k).toReal : ℝ) : EReal) := by
    intro k
    obtain ⟨r, hr⟩ := hw k
    rw [hr, EReal.toReal_coe]
  have hZ : ∑ k', Ideal.exp (y k' - (M : EReal)) = ((∑ k', expSub (y k') M : ℝ) : EReal) :=
    sum_eq_coe _ _ _ fun k _ => exp_sub_coe (hy k) M
  have hZpos : 0 < ∑ k', expSub (y k') M := by
    refine Finset.sum_pos' (fun k _ => expSub_nonneg (hy k) M) ⟨k0, Finset.mem_univ k0, ?_⟩
    rw [h0, expSub_coe]
    exact Real.exp_pos _
  rw [hM, hZ, Ideal.div_coe hZpos.ne']
  have hL : ∀ k ∈ Finset.univ, Ideal.div (Ideal.exp (y k - (M : EReal)))
      ((∑ k', expSub (y k') M : ℝ) : EReal) * w k
        = ((expSub (y k) M * (1 / ∑ k', expSub (y k') M) * (w k).toReal : ℝ) : EReal) := by
    intro k _
    rw [Ideal.div_coe hZpos.ne', exp_sub_coe (hy k) M, EReal.coe_mul, EReal.coe_mul, ← hwr k]
  have hR : ∀ k ∈ Finset.univ, Ideal.exp (y k - (M : EReal)) * w k
      = ((expSub (y k) M * (w k).toReal : ℝ) : EReal) := by
    intro k _
    rw [exp_sub_coe (hy k) M, EReal.coe_mul, ← hwr k]
  rw [sum_eq_coe _ _ _ hL, sum_eq_coe _ _ _ hR, ← EReal.coe_mul, Finset.sum_mul]
  congr 1
  refine Finset.sum_congr rfl fun k _ => ?_
  ring

/-! ### Splitting a sum or a supremum over n * T positions into n tiles of T -/

/-- Position 'κ' of tile 'j' is a position below 'n * T'. -/
theorem tile_index_lt {n T j : ℕ} (hj : j < n) (κ : Fin T) : j * T + κ < n * T :=
  calc j * T + κ < j * T + T := Nat.add_lt_add_left κ.isLt _
    _ = (j + 1) * T := (Nat.succ_mul j T).symm
    _ ≤ n * T := Nat.mul_le_mul_right T hj

/-- A sum over 'n * T' positions is the sum over the tiles of the sums inside each tile,
for any tiled presentation 'g' of the summand. -/
theorem sum_tiles_of {M : Type*} [AddCommMonoid M] {n T : ℕ} (f : Fin (n * T) → M)
    (g : ℕ → Fin T → M)
    (hg : ∀ (j : ℕ) (κ : Fin T) (h : j * T + κ < n * T), g j κ = f ⟨j * T + κ, h⟩) :
    ∑ k, f k = ∑ j ∈ Finset.range n, ∑ κ, g j κ := by
  rw [← Fin.sum_univ_eq_sum_range (fun j => ∑ κ, g j κ) n, ← Fintype.sum_prod_type']
  refine (Fintype.sum_equiv finProdFinEquiv _ _ fun p => ?_).symm
  have h : (p.1 : ℕ) * T + p.2 < n * T := tile_index_lt p.1.isLt p.2
  rw [hg p.1 p.2 h]
  congr 1
  refine Fin.ext ?_
  show (p.1 : ℕ) * T + (p.2 : ℕ) = (p.2 : ℕ) + T * (p.1 : ℕ)
  rw [Nat.mul_comm, Nat.add_comm]

/-- The same with the canonical tiled presentation. -/
theorem sum_tiles {M : Type*} [AddCommMonoid M] {n T : ℕ} (f : Fin (n * T) → M) :
    ∑ k, f k = ∑ j ∈ Finset.range n, ∑ κ : Fin T,
      (if h : j < n then f ⟨j * T + κ, tile_index_lt h κ⟩ else 0) := by
  refine sum_tiles_of f _ fun j κ h => ?_
  have hj : j < n := by
    by_contra hc
    have h1 : n * T ≤ j * T := Nat.mul_le_mul_right T (Nat.le_of_not_lt hc)
    exact absurd h (Nat.not_lt.mpr (h1.trans (Nat.le_add_right _ _)))
  rw [dif_pos hj]

/-- A supremum over 'n * T' positions is the supremum over the tiles of the suprema inside
each tile, for any tiled presentation 'g' of the function. -/
theorem sup_tiles_of {α : Type*} [SemilatticeSup α] [OrderBot α] {n T : ℕ} (f : Fin (n * T) → α)
    (g : ℕ → Fin T → α)
    (hg : ∀ (j : ℕ) (κ : Fin T) (h : j * T + κ < n * T), g j κ = f ⟨j * T + κ, h⟩) :
    Finset.univ.sup f = (Finset.range n).sup fun j => Finset.univ.sup (g j) := by
  refine le_antisymm (Finset.sup_le fun k _ => ?_) (Finset.sup_le fun j hj => Finset.sup_le fun κ _ => ?_)
  · have hT : 0 < T := by
      refine Nat.pos_of_ne_zero ?_
      rintro rfl
      exact Nat.not_lt_zero _ k.isLt
    have hj : (k : ℕ) / T < n := Nat.div_lt_of_lt_mul (lt_of_lt_of_eq k.isLt (Nat.mul_comm n T))
    have hk : (k : ℕ) / T * T + (k : ℕ) % T = k := Nat.div_add_mod' _ _
    have hlt : (k : ℕ) / T * T + ((⟨(k : ℕ) % T, Nat.mod_lt _ hT⟩ : Fin T) : ℕ) < n * T := by
      show (k : ℕ) / T * T + (k : ℕ) % T < n * T
      rw [hk]; exact k.isLt
    have he : f k = g ((k : ℕ) / T) ⟨(k : ℕ) % T, Nat.mod_lt _ hT⟩ := by
      rw [hg _ _ hlt]
      congr 1
      exact Fin.ext hk.symm
    rw [he]
    exact (Finset.le_sup (f := g ((k : ℕ) / T)) (Finset.mem_univ _)).trans
      (Finset.le_sup (f := fun j => Finset.univ.sup (g j)) (Finset.mem_range.mpr hj))
  · rw [hg j κ (tile_index_lt (Finset.mem_range.mp hj) κ)]
    exact Finset.le_sup (Finset.mem_univ _)

/-- The same with the canonical tiled presentation. -/
theorem sup_tiles {α : Type*} [SemilatticeSup α] [OrderBot α] {n T : ℕ} (f : Fin (n * T) → α) :
    Finset.univ.sup f = (Finset.range n).sup fun j => Finset.univ.sup fun κ : Fin T =>
      (if h : j < n then f ⟨j * T + κ, tile_index_lt h κ⟩ else ⊥) := by
  refine sup_tiles_of f _ fun j κ h => ?_
  have hj : j < n := by
    by_contra hc
    have h1 : n * T ≤ j * T := Nat.mul_le_mul_right T (Nat.le_of_not_lt hc)
    exact absurd h (Nat.not_lt.mpr (h1.trans (Nat.le_add_right _ _)))
  rw [dif_pos hj]

end Cert.Attn
-- ==== Proof.FlashIdx.lean ====
import proofs.«409614_j37976100831500_3_alg».proof.Proof.FlashPure
import proofs.«409614_j37976100831500_3_alg».proof.Proof.Softmax
import Idealize.ShloMosaic.Lib.ValueIdx
import Idealize.ShloMosaic.Lib.ValueLayout
import Idealize.ShloMosaic.Lib.Pipeline.Value
import Idealize.ShloMosaic.PureOps.Ideal.Laws

/-!
# The flash kernel's values read at an index

At the ideal values every value the kernel's body computes is read entry by entry: the projected
query tile is a row-by-column sum of products, the masked and scaled scores are a sum of products
times 1/32 where the key position is not after the query position and ⊥ elsewhere, the lane
maximum is a supremum over the key positions of the tile, the lane sum a sum over them. Put
together, one row and one output column of the state after a step is one step of the online
softmax recurrence.
-/

noncomputable section

namespace Cert.KernelIdeal.Hand

open Idealize.ShloMosaic ValueIdx Cert.KernelIdeal Cert.KernelIdeal.Gen

/-! ### Constants -/

theorem ofBits_scale : Ideal.ofBits .f32 0x3D000000#32 = ((1 / 32 : ℝ) : EReal) := by
  simp [Ideal.ofBits, Ideal.ieee]
  rw [← EReal.coe_mul]
  exact congrArg _ (by norm_num)

theorem ofBits_neg_inf : Ideal.ofBits .f32 0xFF800000#32 = ⊥ := by
  simp [Ideal.ofBits, Ideal.ieee]

theorem neg_big_eq : Named.named (F := Ideal) Cert.KernelIdeal.κ "neg_big" (φ := .f32) 0xFF333332#32 = ⊥ :=
  IdealRules.named_const.ideal_named_scalar _ _ _ _ rfl

/-! ### Layout: a column [a] as [a, 1], and a column [a, 1] laid along [a, b] -/

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The lane reductions -/

/-- The reduced index with the lane coordinate put back. -/
theorem lift_lane {m n : ℕ} (h : (⟨2, ![m, n]⟩ : Shape).Reduces [1] (⟨1, ![m]⟩ : Shape)) (r : Fin m)
    (k : Fin ((⟨2, ![m, n]⟩ : Shape).size 1)) : h.lift (ValueIdx.ix1 r) k = ix2 r (⟨k.val, k.isLt⟩ : Fin n) := by
  funext c
  refine Fin.ext ?_
  match c with
  | ⟨0, _⟩ => rfl
  | ⟨1, _⟩ => rfl

theorem laneSum_apply (src : FVec Ideal S512x512 .f32) (h : S512x512.Reduces [1] S512) (hφ : FKind.Formats .f32)
    (hacc : (0x00000000#32 : BitVec 32) = 0x00000000#32) (r : Fin 512) :
    multiReduction (F := Ideal) .add [1] S512 src 0x00000000#32 h hφ hacc (ValueIdx.ix1 r) = ∑ κ : Fin 512, src (ix2 r κ) := by
  refine (Ideal.multiReduction_add_single src 0x00000000#32 h hφ hacc (ValueIdx.ix1 r)).trans ?_
  show ∑ k : Fin 512, src (h.lift (ValueIdx.ix1 r) k) = ∑ κ : Fin 512, src (ix2 r κ)
  exact Finset.sum_congr rfl fun k _ => congrArg src (lift_lane h r k)

theorem laneMax_apply (src : FVec Ideal S512x512 .f32) (h : S512x512.Reduces [1] S512) (hφ : FKind.Formats .f32)
    (hacc : (0xFF800000#32 : BitVec 32) = 0xFF800000#32) (r : Fin 512) :
    multiReduction (F := Ideal) .maximumf [1] S512 src 0xFF800000#32 h hφ hacc (ValueIdx.ix1 r)
      = Finset.univ.sup fun κ : Fin 512 => src (ix2 r κ) := by
  refine (Ideal.multiReduction_maximumf_single src 0xFF800000#32 h hφ hacc (ValueIdx.ix1 r)).trans ?_
  have hf : (src ∘ h.lift (ValueIdx.ix1 r)) = fun κ : Fin 512 => src (ix2 r κ) :=
    funext fun k => congrArg src (lift_lane h r k)
  refine (congrArg (fun f => (Finset.univ : Finset (Fin 512)).fold max
    (FloatOps.ofBits (F := Ideal) .f32 0xFF800000#32) f) hf).trans ?_
  show (Finset.univ : Finset (Fin 512)).fold max (Ideal.ofBits .f32 0xFF800000#32)
      (fun κ : Fin 512 => src (ix2 r κ)) = _
  rw [ofBits_neg_inf]
  rfl

/-! ### The three contractions -/

/-! The query projection: rows of the left operand against columns of the right. -/

theorem lhs_proj_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_proj_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_proj_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_proj_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem matmul_proj_apply {φ₁ φ₂ : FTy} (A : FVec Ideal S512x1024 φ₁) (B : FVec Ideal S1024x1024 φ₂) (r : Fin 512) (e : Fin 1024) :
    matmul dot_S512x1024_S1024x1024_S512x1024_1_0_0_1_n_n none A B (constant (F := Ideal) S512x1024 .f32 0x00000000#32) (ix2 r e)
      = ∑ d : Fin 1024, A (ix2 r d) * B (ix2 d e) := by
  refine (Ideal.matmul_constant_zero_apply dot_S512x1024_S1024x1024_S512x1024_1_0_0_1_n_n none A B (ix2 r e)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r e) ((ValueIdx.contrEquiv1 dot_S512x1024_S1024x1024_S512x1024_1_0_0_1_n_n 1024 rfl rfl).symm k) = ix2 r k := funext fun a => Fin.ext (by
    match a with
    | ⟨0, _⟩ => exact lhs_proj_0 _ _
    | ⟨1, _⟩ => exact (lhs_proj_1 _ _).trans hk)
  have er : dot_S512x1024_S1024x1024_S512x1024_1_0_0_1_n_n.rhsIdx (ix2 r e) ((ValueIdx.contrEquiv1 dot_S512x1024_S1024x1024_S512x1024_1_0_0_1_n_n 1024 rfl rfl).symm k) = ix2 k e := funext fun a => Fin.ext (by
    match a with
    | ⟨0, _⟩ => exact (rhs_proj_0 _ _).trans hk
    | ⟨1, _⟩ => exact rhs_proj_1 _ _)
  rw [el, er]

/-! The scores: rows of the query tile against rows of the key tile. -/

theorem lhs_score_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_score_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_score_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q
theorem rhs_score_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl

theorem matmul_score_apply {φ₁ φ₂ : FTy} (A : FVec Ideal S512x1024 φ₁) (B : FVec Ideal S512x1024 φ₂) (r κ : Fin 512) :
    matmul dot_S512x1024_S512x1024_S512x512_1_1_0_0_n_n none A B (constant (F := Ideal) S512x512 .f32 0x00000000#32) (ix2 r κ)
      = ∑ d : Fin 1024, A (ix2 r d) * B (ix2 κ d) := by
  refine (Ideal.matmul_constant_zero_apply dot_S512x1024_S512x1024_S512x512_1_1_0_0_n_n none A B (ix2 r κ)).trans ?_
  rw [← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 r κ) ((ValueIdx.contrEquiv1 dot_S512x1024_S512x1024_S512x512_1_1_0_0_n_n 1024 rfl rfl).symm k) = ix2 r k := funext fun a => Fin.ext (by
    match a with
    | ⟨0, _⟩ => exact lhs_score_0 _ _
    | ⟨1, _⟩ => exact (lhs_score_1 _ _).trans hk)
  have er : dot_S512x1024_S512x1024_S512x512_1_1_0_0_n_n.rhsIdx (ix2 r κ) ((ValueIdx.contrEquiv1 dot_S512x1024_S512x1024_S512x512_1_1_0_0_n_n 1024 rfl rfl).symm k) = ix2 κ k := funext fun a => Fin.ext (by
    match a with
    | ⟨0, _⟩ => exact rhs_score_0 _ _
    | ⟨1, _⟩ => exact (rhs_score_1 _ _).trans hk)
  rw [el, er]

/-! The weighted values: rows of the weights against columns of the value tile. -/

theorem lhs_pv_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_pv_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_pv_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_pv_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

theorem matmul_pv_apply {φ₁ φ₂ : FTy} (A : FVec Ideal S512x512 φ₁) (B : FVec Ideal S512x1024 φ₂) (r : Fin 512) (e : Fin 1024) :
    matmul dot_S512x512_S512x1024_S512x1024_1_0_0_1_n_n none A B (constant (F := Ideal) S512x1024 .f32 0x00000000#32) (ix2 r e)
      = ∑ κ : Fin 512, A (ix2 r κ) * B (ix2 κ e) := by
  refine (Ideal.matmul_constant_zero_apply dot_S512x512_S512x1024_S512x1024_1_0_0_1_n_n none A B (ix2 r e)).trans ?_
  rw [← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 r e) ((ValueIdx.contrEquiv1 dot_S512x512_S512x1024_S512x1024_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S512x512_S512x1024_S512x1024_1_0_0_1_n_n.rhsIdx (ix2 r e) ((ValueIdx.contrEquiv1 dot_S512x512_S512x1024_S512x1024_1_0_0_1_n_n 512 rfl rfl).symm k) = ix2 k e := funext fun a => Fin.ext (by
    match a with
    | ⟨0, _⟩ => exact (rhs_pv_0 _ _).trans hk
    | ⟨1, _⟩ => exact rhs_pv_1 _ _)
  rw [el, er]

/-! ### The payloads of the reset and of the output, at an index -/

theorem pay5_apply (xb : Vec Ideal S1x512x1024 .f32) (wq : Vec Ideal S1024x1024 .f32) (r : Fin 512) (e : Fin 1024) :
    k1_pay5 (F := Ideal) xb wq (ix2 r e) = ∑ d : Fin 1024, xb (ix3 0 r d) * wq (ix2 d e) := by
  unfold k1_pay5
  refine (congrFun (shapeCast_self _ _) (ix2 r e)).trans ?_
  refine (matmul_proj_apply _ wq r e).trans ?_
  exact Finset.sum_congr rfl fun d _ => congrArg (· * wq (ix2 d e)) (shapeCast_1ab_ab_apply xb _ r d)

theorem pay6_apply (r : Fin 512) : k1_pay6 (F := Ideal) (ix2 r 0) = ⊥ := by
  unfold k1_pay6
  refine (congrFun (shapeCast_self _ _) (ix2 r 0)).trans ?_
  exact neg_big_eq

theorem pay7_apply (r : Fin 512) : k1_pay7 (F := Ideal) (ix2 r 0) = 0 := by
  unfold k1_pay7
  refine (congrFun (shapeCast_self _ _) (ix2 r 0)).trans ?_
  exact Ideal.ofBits_zero_f32

theorem pay8_apply (r : Fin 512) (e : Fin 1024) : k1_pay8 (F := Ideal) (ix2 r e) = 0 := by
  unfold k1_pay8
  refine (congrFun (shapeCast_self _ _) (ix2 r e)).trans ?_
  exact Ideal.ofBits_zero_f32

theorem pay4_apply (acc : Vec Ideal S512x1024 .f32) (l : Vec Ideal S512x1 .f32) (r : Fin 512) (e : Fin 1024) :
    k1_pay4 (F := Ideal) acc l (ix3 0 r e) = Ideal.div (acc (ix2 r e)) (l (ix2 r 0)) := by
  unfold k1_pay4
  refine (shapeCast_ab_1ab_apply _ _ 0 r e).trans ?_
  exact congrArg (Ideal.div (acc (ix2 r e))) (broadcastTo_a1_ab_apply l _ r e)

/-! ### The causal mask -/

/-- A tile's base position plus a position inside the tile, as a 32-bit word, is that number. -/
theorem word_toNat (v : BitVec 32) (hv : v.toNat < 4) (r : Fin 512) :
    (IntOp.addi (Scalar.muli v 512#32) (BitVec.ofNat 32 r.val)).toNat = v.toNat * 512 + r.val := by
  show (v * 512#32 + BitVec.ofNat 32 r.val).toNat = _
  rw [BitVec.toNat_add, BitVec.toNat_mul, BitVec.toNat_ofNat, BitVec.toNat_ofNat]
  have := r.isLt
  omega

theorem mask_iff (v1 v3 : BitVec 32) (h1 : v1.toNat < 4) (h3 : v3.toNat < 4) (r κ : Fin 512) :
    IntOp.cmpi .sge (IntOp.addi (Scalar.muli v1 512#32) (BitVec.ofNat 32 r.val))
        (IntOp.addi (Scalar.muli v3 512#32) (BitVec.ofNat 32 κ.val)) = 1#1
      ↔ v3.toNat * 512 + κ.val ≤ v1.toNat * 512 + r.val := by
  have e1 := word_toNat v1 h1 r
  have e3 := word_toNat v3 h3 κ
  have hr := r.isLt
  have hκ := κ.isLt
  have t1 : (IntOp.addi (Scalar.muli v1 512#32) (BitVec.ofNat 32 r.val)).toInt = ((v1.toNat * 512 + r.val : ℕ) : ℤ) := by
    rw [BitVec.toInt_eq_toNat_of_lt (by rw [e1]; omega), e1]
  have t3 : (IntOp.addi (Scalar.muli v3 512#32) (BitVec.ofNat 32 κ.val)).toInt = ((v3.toNat * 512 + κ.val : ℕ) : ℤ) := by
    rw [BitVec.toInt_eq_toNat_of_lt (by rw [e3]; omega), e3]
  rw [IntOp.cmpi_sge, t1, t3]
  exact Int.ofNat_le

theorem select_of_iff {α : Type} (c : BitVec 1) (P : Prop) [Decidable P] (a b : α) (h : c = 1#1 ↔ P) :
    Scalar.select c a b = if P then a else b := by
  unfold Scalar.select
  by_cases hp : P
  · rw [if_pos hp]; exact if_pos (h.2 hp)
  · rw [if_neg hp]; exact if_neg (fun hc => hp (h.1 hc))

theorem pay10_apply (v1 v3 : BitVec 32) (h1 : v1.toNat < 4) (h3 : v3.toNat < 4) (q : Vec Ideal S512x1024 .f32)
    (kb : Vec Ideal S1x512x1024 .f32) (r κ : Fin 512) :
    k1_pay10 (F := Ideal) v1 v3 q kb (ix2 r κ)
      = if v3.toNat * 512 + κ.val ≤ v1.toNat * 512 + r.val then
          (∑ d : Fin 1024, q (ix2 r d) * kb (ix3 0 κ d)) * ((1 / 32 : ℝ) : EReal) else ⊥ := by
  unfold k1_pay10
  refine (select_of_iff _ (v3.toNat * 512 + κ.val ≤ v1.toNat * 512 + r.val) _ _ ?_).trans ?_
  · refine (Eq.congr_left ?_).trans (mask_iff v1 v3 h1 h3 r κ)
    exact congrArg₂ (fun a b => IntOp.cmpi .sge (IntOp.addi (Scalar.muli v1 512#32) a) (IntOp.addi (Scalar.muli v3 512#32) b))
      (iota_single_apply .tc S512x512 32 0 _ (ix2 r κ)) (iota_single_apply .tc S512x512 32 1 _ (ix2 r κ))
  · refine if_congr Iff.rfl ?_ neg_big_eq
    refine (congrArg₂ (fun a b : EReal => a * b) (matmul_score_apply q _ r κ) ofBits_scale).trans ?_
    refine congrArg (· * ((1 / 32 : ℝ) : EReal)) (Finset.sum_congr rfl fun d _ => ?_)
    exact congrArg (q (ix2 r d) * ·) (shapeCast_1ab_ab_apply kb _ κ d)

/-! ### The payloads of the step, at an index -/

theorem pay3_apply (x : FVec Ideal S512x1 .f32) (r : Fin 512) : k1_pay3 (F := Ideal) x (ix2 r 0) = x (ix2 r 0) := by
  unfold k1_pay3
  exact congrFun (shapeCast_self _ _) (ix2 r 0)

theorem pay9_apply (vb : Vec Ideal S1x512x1024 .bf16) (κ : Fin 512) (e : Fin 1024) :
    k1_pay9 (F := Ideal) vb (ix2 κ e) = vb (ix3 0 κ e) := by
  unfold k1_pay9
  exact shapeCast_1ab_ab_apply vb _ κ e

theorem pay11_apply (v1 v3 : BitVec 32) (q : Vec Ideal S512x1024 .f32) (kb : Vec Ideal S1x512x1024 .f32)
    (m : Vec Ideal S512x1 .f32) (r : Fin 512) :
    k1_pay11 (F := Ideal) v1 v3 q kb m (ix2 r 0)
      = max (m (ix2 r 0)) (Finset.univ.sup fun κ : Fin 512 => k1_pay10 (F := Ideal) v1 v3 q kb (ix2 r κ)) := by
  unfold k1_pay11
  refine congrArg (max (m (ix2 r 0))) ?_
  refine (shapeCast_a_a1_apply _ _ r 0).trans ?_
  exact laneMax_apply _ _ _ _ r

theorem pay12_apply (v1 v3 : BitVec 32) (q : Vec Ideal S512x1024 .f32) (kb : Vec Ideal S1x512x1024 .f32)
    (m : Vec Ideal S512x1 .f32) (r : Fin 512) :
    k1_pay12 (F := Ideal) v1 v3 q kb m (ix2 r 0)
      = Ideal.exp (m (ix2 r 0) - k1_pay11 (F := Ideal) v1 v3 q kb m (ix2 r 0)) := by
  unfold k1_pay12
  rfl

theorem pay13_apply (v1 v3 : BitVec 32) (q : Vec Ideal S512x1024 .f32) (kb : Vec Ideal S1x512x1024 .f32)
    (m : Vec Ideal S512x1 .f32) (r κ : Fin 512) :
    k1_pay13 (F := Ideal) v1 v3 q kb m (ix2 r κ)
      = Ideal.exp (k1_pay10 (F := Ideal) v1 v3 q kb (ix2 r κ) - k1_pay11 (F := Ideal) v1 v3 q kb m (ix2 r 0)) := by
  unfold k1_pay13
  exact congrArg (fun t => Ideal.exp (k1_pay10 (F := Ideal) v1 v3 q kb (ix2 r κ) - t))
    (broadcastTo_a1_ab_apply (k1_pay11 (F := Ideal) v1 v3 q kb m) _ r κ)

theorem pay14_apply (v1 v3 : BitVec 32) (q : Vec Ideal S512x1024 .f32) (kb : Vec Ideal S1x512x1024 .f32)
    (m l : Vec Ideal S512x1 .f32) (r : Fin 512) :
    k1_pay14 (F := Ideal) v1 v3 q kb m l (ix2 r 0)
      = k1_pay12 (F := Ideal) v1 v3 q kb m (ix2 r 0) * l (ix2 r 0) := by
  unfold k1_pay14
  rfl

theorem pay1_apply (p : FVec Ideal S512x512 .f32) (l' : FVec Ideal S512x1 .f32) (r : Fin 512) :
    k1_pay1 (F := Ideal) p l' (ix2 r 0) = l' (ix2 r 0) + ∑ κ : Fin 512, p (ix2 r κ) := by
  unfold k1_pay1
  refine (congrFun (shapeCast_self _ _) (ix2 r 0)).trans ?_
  refine congrArg (l' (ix2 r 0) + ·) ?_
  refine (shapeCast_a_a1_apply _ _ r 0).trans ?_
  exact laneSum_apply p _ _ _ r

theorem pay2_apply (v11 : FVec Ideal S512x1024 .bf16) (a : FVec Ideal S512x1 .f32) (p : FVec Ideal S512x512 .f32)
    (acc : Vec Ideal S512x1024 .f32) (r : Fin 512) (e : Fin 1024) :
    k1_pay2 (F := Ideal) v11 a p acc (ix2 r e)
      = a (ix2 r 0) * acc (ix2 r e) + ∑ κ : Fin 512, p (ix2 r κ) * v11 (ix2 κ e) := by
  unfold k1_pay2
  refine (congrFun (shapeCast_self _ _) (ix2 r e)).trans ?_
  refine congrArg₂ (fun s t : EReal => s + t) ?_ ?_
  · exact congrArg (· * acc (ix2 r e)) (broadcastTo_a1_ab_apply a _ r e)
  · exact matmul_pv_apply _ v11 r e

/-! ### One row and one column of a step is one step of the recurrence -/

theorem stepS_row_aux (v1 v3 : BitVec 32) (h1 : v1.toNat < 4) (h3 : v3.toNat < 4)
    (kb : Vec Ideal S1x512x1024 .f32) (vb : Vec Ideal S1x512x1024 .bf16) (q : Vec Ideal S512x1024 .f32)
    (m l : Vec Ideal S512x1 .f32) (acc : Vec Ideal S512x1024 .f32) (r : Fin 512) (e : Fin 1024) :
    (k1_pay3 (F := Ideal) (k1_pay11 v1 v3 q kb m) (ix2 r 0),
      k1_pay1 (F := Ideal) (k1_pay13 v1 v3 q kb m) (k1_pay14 v1 v3 q kb m l) (ix2 r 0),
      k1_pay2 (F := Ideal) (k1_pay9 vb) (k1_pay12 v1 v3 q kb m) (k1_pay13 v1 v3 q kb m) acc (ix2 r e))
      = Cert.Attn.flashStep
          (fun κ : Fin 512 => if v3.toNat * 512 + κ.val ≤ v1.toNat * 512 + r.val then
            (∑ d : Fin 1024, q (ix2 r d) * kb (ix3 0 κ d)) * ((1 / 32 : ℝ) : EReal) else ⊥)
          (fun κ : Fin 512 => vb (ix3 0 κ e)) (m (ix2 r 0), l (ix2 r 0), acc (ix2 r e)) := by
  have hs : ∀ κ : Fin 512, k1_pay10 (F := Ideal) v1 v3 q kb (ix2 r κ)
      = if v3.toNat * 512 + κ.val ≤ v1.toNat * 512 + r.val then
          (∑ d : Fin 1024, q (ix2 r d) * kb (ix3 0 κ d)) * ((1 / 32 : ℝ) : EReal) else ⊥ :=
    fun κ => pay10_apply v1 v3 h1 h3 q kb r κ
  have h11 := (pay11_apply v1 v3 q kb m r).trans
    (congrArg (fun f : Fin 512 → EReal => max (m (ix2 r 0)) (Finset.univ.sup f)) (funext hs))
  rw [Cert.Attn.flashStep_eq]
  refine Prod.ext ?_ (Prod.ext ?_ ?_)
  · exact (pay3_apply _ r).trans h11
  · show k1_pay1 (F := Ideal) (k1_pay13 v1 v3 q kb m) (k1_pay14 v1 v3 q kb m l) (ix2 r 0) = _
    rw [pay1_apply, pay14_apply, pay12_apply, h11]
    refine congrArg (_ + ·) (Finset.sum_congr rfl fun κ _ => ?_)
    rw [pay13_apply, h11, hs κ]
  · show k1_pay2 (F := Ideal) (k1_pay9 vb) (k1_pay12 v1 v3 q kb m) (k1_pay13 v1 v3 q kb m) acc (ix2 r e) = _
    rw [pay2_apply, pay12_apply, h11]
    refine congrArg (_ + ·) (Finset.sum_congr rfl fun κ _ => ?_)
    rw [pay13_apply, h11, hs κ, pay9_apply]

theorem stepS_row (v1 v3 : BitVec 32) (h1 : v1.toNat < 4) (h3 : v3.toNat < 4) (xb : Vec Ideal S1x512x1024 .f32)
    (wq : Vec Ideal S1024x1024 .f32) (kb : Vec Ideal S1x512x1024 .f32) (vb : Vec Ideal S1x512x1024 .bf16)
    (st : St Ideal) (r : Fin 512) (e : Fin 1024) :
    ((stepS v1 v3 xb wq kb vb st).2.1 (ix2 r 0), (stepS v1 v3 xb wq kb vb st).2.2.1 (ix2 r 0),
        (stepS v1 v3 xb wq kb vb st).2.2.2 (ix2 r e))
      = Cert.Attn.flashStep
          (fun κ : Fin 512 => if v3.toNat * 512 + κ.val ≤ v1.toNat * 512 + r.val then
            (∑ d : Fin 1024, (reset v3 xb wq st).1 (ix2 r d) * kb (ix3 0 κ d)) * ((1 / 32 : ℝ) : EReal) else ⊥)
          (fun κ : Fin 512 => vb (ix3 0 κ e))
          ((reset v3 xb wq st).2.1 (ix2 r 0), (reset v3 xb wq st).2.2.1 (ix2 r 0),
            (reset v3 xb wq st).2.2.2 (ix2 r e)) :=
  stepS_row_aux v1 v3 h1 h3 kb vb (reset v3 xb wq st).1 (reset v3 xb wq st).2.1 (reset v3 xb wq st).2.2.1
    (reset v3 xb wq st).2.2.2 r e

theorem stepS_q (v1 v3 : BitVec 32) (xb : Vec Ideal S1x512x1024 .f32) (wq : Vec Ideal S1024x1024 .f32)
    (kb : Vec Ideal S1x512x1024 .f32) (vb : Vec Ideal S1x512x1024 .bf16) (st : St Ideal) :
    (stepS v1 v3 xb wq kb vb st).1 = (reset v3 xb wq st).1 := rfl

theorem reset_first (v3 : BitVec 32) (h : isFirst v3) (xb : Vec Ideal S1x512x1024 .f32)
    (wq : Vec Ideal S1024x1024 .f32) (st : St Ideal) :
    reset (F := Ideal) v3 xb wq st
      = (k1_pay5 (F := Ideal) xb wq, k1_pay6 (F := Ideal), k1_pay7 (F := Ideal), k1_pay8 (F := Ideal)) := by
  unfold reset
  rw [if_pos h]

theorem reset_notFirst (v3 : BitVec 32) (h : ¬ isFirst v3) (xb : Vec Ideal S1x512x1024 .f32)
    (wq : Vec Ideal S1024x1024 .f32) (st : St Ideal) :
    reset (F := Ideal) v3 xb wq st = st := by
  unfold reset
  rw [if_neg h]

end Cert.KernelIdeal.Hand

end
-- ==== Proof.ValBlk.lean ====
import proofs.«409614_j37976100831500_3_alg».proof.Proof.FlashSched
import proofs.«409614_j37976100831500_3_alg».proof.Proof.FlashTraj
import Idealize.ShloMosaic.Lib.ValueIdx

set_option maxRecDepth 16384

noncomputable section

namespace Cert.KernelIdeal.Hand

open Idealize.ShloMosaic Idealize.ShloMosaic.TcCoe Idealize.SL.Sem ValueIdx Cert.KernelIdeal Cert.KernelIdeal.Gen

/-- The query tile of point n. -/
def qiOf (n : ℕ) : ℕ := (lit0 ⟨n % 10, Nat.mod_lt _ (by decide)⟩).toNat
/-- The key tile of point n. -/
def kiOf (n : ℕ) : ℕ := (lit1 ⟨n % 10, Nat.mod_lt _ (by decide)⟩).toNat

theorem lit_facts : ∀ k : Fin 10, (lit0 k).toNat < 4 ∧ (lit1 k).toNat ≤ (lit0 k).toNat := by decide

theorem qiOf_lt (n : ℕ) : qiOf n < 4 := (lit_facts _).1
theorem kiOf_le (n : ℕ) : kiOf n ≤ qiOf n := (lit_facts _).2

/-- The two words, and the body's two tests of them, at each of the forty points. -/
theorem word_facts : ∀ t : Fin (cfgA (F := Ideal)).N,
    (w1 (F := Ideal) t).toNat = qiOf t.val ∧ (w3 (F := Ideal) t).toNat = kiOf t.val
    ∧ (isFirst (w3 (F := Ideal) t) ↔ kiOf t.val = 0)
    ∧ (isLast (w1 (F := Ideal) t) (w3 (F := Ideal) t) ↔ kiOf t.val = qiOf t.val) := by
  decide +kernel

theorem w1_toNat (n : ℕ) (hn : n < (cfgA (F := Ideal)).N) : (w1 (F := Ideal) ⟨n, hn⟩).toNat = qiOf n :=
  (word_facts ⟨n, hn⟩).1
theorem w3_toNat (n : ℕ) (hn : n < (cfgA (F := Ideal)).N) : (w3 (F := Ideal) ⟨n, hn⟩).toNat = kiOf n :=
  (word_facts ⟨n, hn⟩).2.1
theorem isFirst_iff (n : ℕ) (hn : n < (cfgA (F := Ideal)).N) : isFirst (w3 (F := Ideal) ⟨n, hn⟩) ↔ kiOf n = 0 :=
  (word_facts ⟨n, hn⟩).2.2.1
theorem isLast_iff (n : ℕ) (hn : n < (cfgA (F := Ideal)).N) :
    isLast (w1 (F := Ideal) ⟨n, hn⟩) (w3 (F := Ideal) ⟨n, hn⟩) ↔ kiOf n = qiOf n :=
  (word_facts ⟨n, hn⟩).2.2.2

theorem step_pred_fin : ∀ t : Fin 40, kiOf t.val ≠ 0 →
    1 ≤ t.val ∧ (t.val - 1) / 10 = t.val / 10 ∧ qiOf (t.val - 1) = qiOf t.val ∧ kiOf (t.val - 1) + 1 = kiOf t.val := by
  decide +kernel

theorem step_pred (n : ℕ) (hn : n < 40) (h : kiOf n ≠ 0) :
    1 ≤ n ∧ (n - 1) / 10 = n / 10 ∧ qiOf (n - 1) = qiOf n ∧ kiOf (n - 1) + 1 = kiOf n :=
  step_pred_fin ⟨n, hn⟩ h

/-- The block indices of the five windows at each of the forty points. -/
theorem idx_facts : ∀ t : Fin (cfgA (F := Ideal)).N,
    (((cfgA (F := Ideal)).win 0).index t (0 : Fin 3) = t.val / 10
      ∧ ((cfgA (F := Ideal)).win 0).index t (1 : Fin 3) = qiOf t.val
      ∧ ((cfgA (F := Ideal)).win 0).index t (2 : Fin 3) = 0)
    ∧ (((cfgA (F := Ideal)).win 1).index t (0 : Fin 2) = 0 ∧ ((cfgA (F := Ideal)).win 1).index t (1 : Fin 2) = 0)
    ∧ (((cfgA (F := Ideal)).win 2).index t (0 : Fin 3) = t.val / 10
      ∧ ((cfgA (F := Ideal)).win 2).index t (1 : Fin 3) = kiOf t.val
      ∧ ((cfgA (F := Ideal)).win 2).index t (2 : Fin 3) = 0)
    ∧ (((cfgA (F := Ideal)).win 3).index t (0 : Fin 3) = t.val / 10
      ∧ ((cfgA (F := Ideal)).win 3).index t (1 : Fin 3) = kiOf t.val
      ∧ ((cfgA (F := Ideal)).win 3).index t (2 : Fin 3) = 0)
    ∧ (((cfgA (F := Ideal)).win 4).index t (0 : Fin 3) = t.val / 10
      ∧ ((cfgA (F := Ideal)).win 4).index t (1 : Fin 3) = qiOf t.val
      ∧ ((cfgA (F := Ideal)).win 4).index t (2 : Fin 3) = 0) := by
  decide +kernel

variable (V : (c : Dev nD) → (b : Ref sig .tc) → Buf (Elt Ideal) ((c : Thread nD τ).loc b)) (c : Dev nD)

theorem blk0_apply (n : ℕ) (hn : n < (cfgA (F := Ideal)).N) (b : Fin 4) (hb : b.val = n / 10) (r : Fin 512)
    (Q : Fin 2048) (hQ : Q.val = qiOf n * 512 + r.val) (d : Fin 1024) :
    iblk1 (F := Ideal) V c 0 ⟨n, hn⟩ (ix3 0 r d) = V c main_arg0 (ix3 b Q d) := by
  obtain ⟨⟨e0, e1, e2⟩, -⟩ := idx_facts ⟨n, hn⟩
  have f0 : ((cfgA (F := Ideal)).win 0).index ⟨n, hn⟩ (0 : Fin 3) = n / 10 := e0
  have f1 : ((cfgA (F := Ideal)).win 0).index ⟨n, hn⟩ (1 : Fin 3) = qiOf n := e1
  have f2 : ((cfgA (F := Ideal)).win 0).index ⟨n, hn⟩ (2 : Fin 3) = 0 := e2
  show V c main_arg0 ((((cfgA (F := Ideal)).win 0).blk ⟨n, hn⟩).view.emb (ix3 0 r d)) = V c main_arg0 (ix3 b Q d)
  refine congrArg (V c main_arg0) ?_
  funext a
  apply Fin.ext
  match a with
  | ⟨0, _⟩ =>
    show ((cfgA (F := Ideal)).win 0).index ⟨n, hn⟩ (0 : Fin 3) * 1 + 1 * 0 = b.val
    rw [f0, hb]; omega
  | ⟨1, _⟩ =>
    show ((cfgA (F := Ideal)).win 0).index ⟨n, hn⟩ (1 : Fin 3) * 512 + 1 * r.val = Q.val
    rw [f1, hQ]; omega
  | ⟨2, _⟩ =>
    show ((cfgA (F := Ideal)).win 0).index ⟨n, hn⟩ (2 : Fin 3) * 1024 + 1 * d.val = d.val
    rw [f2]; omega

theorem blk1_apply (n : ℕ) (hn : n < (cfgA (F := Ideal)).N) (d e : Fin 1024) :
    iblk1 (F := Ideal) V c 1 ⟨n, hn⟩ (ix2 d e) = V c main_arg1 (ix2 d e) := by
  obtain ⟨-, ⟨e0, e1⟩, -⟩ := idx_facts ⟨n, hn⟩
  show V c main_arg1 ((((cfgA (F := Ideal)).win 1).blk ⟨n, hn⟩).view.emb (ix2 d e)) = V c main_arg1 (ix2 d e)
  refine congrArg (V c main_arg1) ?_
  funext a
  apply Fin.ext
  match a with
  | ⟨0, _⟩ =>
    show ((cfgA (F := Ideal)).win 1).index ⟨n, hn⟩ (0 : Fin 2) * 1024 + 1 * d.val = d.val
    rw [e0]; omega
  | ⟨1, _⟩ =>
    show ((cfgA (F := Ideal)).win 1).index ⟨n, hn⟩ (1 : Fin 2) * 1024 + 1 * e.val = e.val
    rw [e1]; omega

theorem blk2_apply (n : ℕ) (hn : n < (cfgA (F := Ideal)).N) (b : Fin 4) (hb : b.val = n / 10) (κ : Fin 512)
    (K : Fin 2048) (hK : K.val = kiOf n * 512 + κ.val) (d : Fin 1024) :
    iblk1 (F := Ideal) V c 2 ⟨n, hn⟩ (ix3 0 κ d) = V c main_v2 (ix3 b K d) := by
  obtain ⟨-, -, ⟨e0, e1, e2⟩, -⟩ := idx_facts ⟨n, hn⟩
  have f0 : ((cfgA (F := Ideal)).win 2).index ⟨n, hn⟩ (0 : Fin 3) = n / 10 := e0
  have f1 : ((cfgA (F := Ideal)).win 2).index ⟨n, hn⟩ (1 : Fin 3) = kiOf n := e1
  have f2 : ((cfgA (F := Ideal)).win 2).index ⟨n, hn⟩ (2 : Fin 3) = 0 := e2
  show V c main_v2 ((((cfgA (F := Ideal)).win 2).blk ⟨n, hn⟩).view.emb (ix3 0 κ d)) = V c main_v2 (ix3 b K d)
  refine congrArg (V c main_v2) ?_
  funext a
  apply Fin.ext
  match a with
  | ⟨0, _⟩ =>
    show ((cfgA (F := Ideal)).win 2).index ⟨n, hn⟩ (0 : Fin 3) * 1 + 1 * 0 = b.val
    rw [f0, hb]; omega
  | ⟨1, _⟩ =>
    show ((cfgA (F := Ideal)).win 2).index ⟨n, hn⟩ (1 : Fin 3) * 512 + 1 * κ.val = K.val
    rw [f1, hK]; omega
  | ⟨2, _⟩ =>
    show ((cfgA (F := Ideal)).win 2).index ⟨n, hn⟩ (2 : Fin 3) * 1024 + 1 * d.val = d.val
    rw [f2]; omega

theorem blk3_apply (n : ℕ) (hn : n < (cfgA (F := Ideal)).N) (b : Fin 4) (hb : b.val = n / 10) (κ : Fin 512)
    (K : Fin 2048) (hK : K.val = kiOf n * 512 + κ.val) (d : Fin 1024) :
    iblk1 (F := Ideal) V c 3 ⟨n, hn⟩ (ix3 0 κ d) = V c main_v3 (ix3 b K d) := by
  obtain ⟨-, -, -, ⟨e0, e1, e2⟩, -⟩ := idx_facts ⟨n, hn⟩
  have f0 : ((cfgA (F := Ideal)).win 3).index ⟨n, hn⟩ (0 : Fin 3) = n / 10 := e0
  have f1 : ((cfgA (F := Ideal)).win 3).index ⟨n, hn⟩ (1 : Fin 3) = kiOf n := e1
  have f2 : ((cfgA (F := Ideal)).win 3).index ⟨n, hn⟩ (2 : Fin 3) = 0 := e2
  show V c main_v3 ((((cfgA (F := Ideal)).win 3).blk ⟨n, hn⟩).view.emb (ix3 0 κ d)) = V c main_v3 (ix3 b K d)
  refine congrArg (V c main_v3) ?_
  funext a
  apply Fin.ext
  match a with
  | ⟨0, _⟩ =>
    show ((cfgA (F := Ideal)).win 3).index ⟨n, hn⟩ (0 : Fin 3) * 1 + 1 * 0 = b.val
    rw [f0, hb]; omega
  | ⟨1, _⟩ =>
    show ((cfgA (F := Ideal)).win 3).index ⟨n, hn⟩ (1 : Fin 3) * 512 + 1 * κ.val = K.val
    rw [f1, hK]; omega
  | ⟨2, _⟩ =>
    show ((cfgA (F := Ideal)).win 3).index ⟨n, hn⟩ (2 : Fin 3) * 1024 + 1 * d.val = d.val
    rw [f2]; omega

end Cert.KernelIdeal.Hand

end
-- ==== Proof.Spec.lean ====
/-
  The specification both programs are compared against: causal softmax attention with fused
  projections, index by index over the extended reals.

  For inputs x : [4, 2048, 1024] and weights Wq, Wk, Wv : [1024, 1024],
    proj x W (b, n, e)   = Σ_d x(b, n, d) · W(d, e)
    score (b, q, k)      = (Σ_e Q(b, q, e) · K(b, k, e)) · (1/32)   for k ≤ q,   -∞ for k > q
    attn (b, q, e)       = (Σ_k exp(score(b,q,k) - max_k score(b,q,·)) · V(b, k, e)) / (Σ_k exp(score(b,q,k) - max))
  with Q, K, V the three projections.  No finiteness is assumed in the definitions; the proofs that
  the two programs compute `G` use that finite inputs make every projection and every unmasked score real.
-/
import Idealize.ShloMosaic.PureOps.Ideal
import Idealize.ShloMosaic.Lib.ValueIdx

noncomputable section

namespace Cert.Attn

open Idealize.ShloMosaic Idealize.ShloMosaic.ValueIdx

abbrev SX : Shape := ⟨3, ![4, 2048, 1024]⟩
abbrev SW : Shape := ⟨2, ![1024, 1024]⟩

/-- A projection `x · W`, entry (b, n, e). -/
def proj (x : SX.Idx → EReal) (W : SW.Idx → EReal) (b : Fin 4) (n : Fin 2048) (e : Fin 1024) : EReal :=
  ∑ d : Fin 1024, x (ix3 b n d) * W (ix2 d e)

/-- The scaled, causally masked score of query row q against key row k. -/
def score (x : SX.Idx → EReal) (Wq Wk : SW.Idx → EReal) (b : Fin 4) (q k : Fin 2048) : EReal :=
  if k ≤ q then (∑ e : Fin 1024, proj x Wq b q e * proj x Wk b k e) * ((1 / 32 : ℝ) : EReal) else ⊥

/-- The maximum of a query row's scores. -/
def rowMax (x : SX.Idx → EReal) (Wq Wk : SW.Idx → EReal) (b : Fin 4) (q : Fin 2048) : EReal :=
  Finset.univ.sup (score x Wq Wk b q)

/-- The attention output, entry (b, q, e): the softmax-weighted average of the value rows. -/
def attn (x : SX.Idx → EReal) (Wq Wk Wv : SW.Idx → EReal) (b : Fin 4) (q : Fin 2048) (e : Fin 1024) : EReal :=
  Ideal.div (∑ k : Fin 2048, Ideal.exp (score x Wq Wk b q k - rowMax x Wq Wk b q) * proj x Wv b k e)
    (∑ k : Fin 2048, Ideal.exp (score x Wq Wk b q k - rowMax x Wq Wk b q))

/-- The whole result array. -/
def G (x : SX.Idx → EReal) (Wq Wk Wv : SW.Idx → EReal) : SX.Idx → EReal := fun j =>
  attn x Wq Wk Wv ⟨(j 0).val, (j 0).isLt⟩ ⟨(j 1).val, (j 1).isLt⟩ ⟨(j 2).val, (j 2).isLt⟩

theorem G_ix3 (x : SX.Idx → EReal) (Wq Wk Wv : SW.Idx → EReal) (b : Fin 4) (q : Fin 2048) (e : Fin 1024) :
    G x Wq Wk Wv (ix3 b q e) = attn x Wq Wk Wv b q e := rfl

/-- Every entry of an array is a real number. -/
def AllReal {s : Shape} (a : s.Idx → EReal) : Prop := ∀ j, ∃ r : ℝ, a j = (r : EReal)

end Cert.Attn

end
-- ==== Proof.ValTraj.lean ====
/-
  The invariant of the flash kernel's scratch state along the grid points, at the ideal values.

  Point n of the forty (batch element n / 10, step n % 10) has a query tile qi and a key tile ki ≤ qi. After
  point n, row r of the scratch buffers holds the projected query row 512 qi + r of the batch element and, for
  every output column, the online-softmax recurrence folded over key tiles 0 … ki of that row: running maximum,
  running denominator, running numerator. A query tile's first step (ki = 0) projects the tile and starts the
  recurrence from (⊥, 0, 0) whatever the buffers held; every other step keeps the projected tile and continues
  the step before it, which has the same batch element, the same query tile and key tile ki - 1. So the
  kernel's recurrence along the points is the fold, by induction on the point.
-/
import proofs.«409614_j37976100831500_3_alg».proof.Proof.FlashTraj
import proofs.«409614_j37976100831500_3_alg».proof.Proof.FlashIdx
import proofs.«409614_j37976100831500_3_alg».proof.Proof.ValBlk
import proofs.«409614_j37976100831500_3_alg».proof.Proof.Spec
import proofs.«409614_j37976100831500_3_alg».proof.Proof.Softmax
import Idealize.ShloMosaic.Lib.ValueIdx

set_option maxRecDepth 16384

noncomputable section

namespace Cert.KernelIdeal.Hand

open Idealize.ShloMosaic Idealize.ShloMosaic.TcCoe Idealize.SL.Sem ValueIdx Cert.KernelIdeal Cert.KernelIdeal.Gen

/-- the score tiles of query row Q of batch b, and the value tiles of output column e (tile j = key rows 512 j … 512 j + 511) -/
def sT (x : Cert.Attn.SX.Idx → EReal) (Wq Wk : Cert.Attn.SW.Idx → EReal) (b : Fin 4) (Q : Fin 2048) : ℕ → Fin 512 → EReal :=
  fun j κ => if h : j < 4 then Cert.Attn.score x Wq Wk b Q ⟨j * 512 + κ.val, by omega⟩ else ⊥
def vT (x : Cert.Attn.SX.Idx → EReal) (Wv : Cert.Attn.SW.Idx → EReal) (b : Fin 4) (e : Fin 1024) : ℕ → Fin 512 → EReal :=
  fun j κ => if h : j < 4 then Cert.Attn.proj x Wv b ⟨j * 512 + κ.val, by omega⟩ e else 0

variable (V : (c : Dev nD) → (b : Ref sig .tc) → Buf (Elt Ideal) ((c : Thread nD τ).loc b))

/-! ### One step, read at a query row -/

/-- A freshly projected query tile holds the rows of x · Wq: row r of the tile is row 512 qi + r of the
    batch element. -/
theorem fresh_q (c : Dev nD) (x : Cert.Attn.SX.Idx → EReal) (Wq : Cert.Attn.SW.Idx → EReal)
    (hx : V c main_arg0 = x) (hq : V c main_arg1 = Wq)
    (n : ℕ) (hn : n < (cfgA (F := Ideal)).N) (b : Fin 4) (hb : b.val = n / 10) (r : Fin 512) (Q : Fin 2048)
    (hQ : Q.val = qiOf n * 512 + r.val) (d : Fin 1024) :
    k1_pay5 (F := Ideal) (iblk1 (F := Ideal) V c 0 ⟨n, hn⟩) (iblk1 (F := Ideal) V c 1 ⟨n, hn⟩) (ix2 r d)
      = Cert.Attn.proj x Wq b Q d := by
  refine (pay5_apply (iblk1 (F := Ideal) V c 0 ⟨n, hn⟩) (iblk1 (F := Ideal) V c 1 ⟨n, hn⟩) r d).trans ?_
  unfold Cert.Attn.proj
  refine Finset.sum_congr rfl fun d' _ => ?_
  exact congrArg₂ (· * ·) ((blk0_apply V c n hn b hb r Q hQ d').trans (congrFun hx _))
    ((blk1_apply V c n hn d' d).trans (congrFun hq _))

/-- The step's masked, scaled scores of a query row against the point's key tile are the specification's
    scores of that row against key rows 512 ki … 512 ki + 511: the mask 512 ki + κ ≤ 512 qi + r is the causal
    condition key row ≤ query row. -/
theorem score_tile (c : Dev nD) (x : Cert.Attn.SX.Idx → EReal) (Wq Wk : Cert.Attn.SW.Idx → EReal)
    (hk : ∀ (b : Fin 4) (n : Fin 2048) (e : Fin 1024), V c main_v2 (ix3 b n e) = Cert.Attn.proj x Wk b n e)
    (n : ℕ) (hn : n < (cfgA (F := Ideal)).N) (b : Fin 4) (hb : b.val = n / 10) (r : Fin 512) (Q : Fin 2048)
    (hQ : Q.val = qiOf n * 512 + r.val) (q : Vec Ideal S512x1024 .f32)
    (hqr : ∀ d : Fin 1024, q (ix2 r d) = Cert.Attn.proj x Wq b Q d) :
    (fun κ : Fin 512 => if (w3 (F := Ideal) ⟨n, hn⟩).toNat * 512 + κ.val ≤ (w1 (F := Ideal) ⟨n, hn⟩).toNat * 512 + r.val
        then (∑ d : Fin 1024, q (ix2 r d) * (iblk1 (F := Ideal) V c 2 ⟨n, hn⟩ : Vec Ideal S1x512x1024 .f32) (ix3 0 κ d))
          * ((1 / 32 : ℝ) : EReal) else ⊥)
      = sT x Wq Wk b Q (kiOf n) := by
  have e1 := w1_toNat n hn
  have e3 := w3_toNat n hn
  have h4k : kiOf n < 4 := lt_of_le_of_lt (kiOf_le n) (qiOf_lt n)
  funext κ
  unfold sT
  rw [dif_pos h4k]
  unfold Cert.Attn.score
  have hκ : κ.val < 512 := κ.isLt
  by_cases hc : (w3 (F := Ideal) ⟨n, hn⟩).toNat * 512 + κ.val ≤ (w1 (F := Ideal) ⟨n, hn⟩).toNat * 512 + r.val
  · have hc' : (⟨kiOf n * 512 + κ.val, by omega⟩ : Fin 2048) ≤ Q := by
      rw [Fin.le_def]
      show kiOf n * 512 + κ.val ≤ Q.val
      omega
    rw [if_pos hc, if_pos hc']
    congr 1
    refine Finset.sum_congr rfl fun d _ => ?_
    exact congrArg₂ (· * ·) (hqr d)
      ((blk2_apply V c n hn b hb κ ⟨kiOf n * 512 + κ.val, by omega⟩ rfl d).trans (hk b _ d))
  · have hc' : ¬ (⟨kiOf n * 512 + κ.val, by omega⟩ : Fin 2048) ≤ Q := by
      rw [Fin.le_def]
      show ¬ kiOf n * 512 + κ.val ≤ Q.val
      omega
    rw [if_neg hc, if_neg hc']

/-- The step's value tile is the specification's: key rows 512 ki … 512 ki + 511 of x · Wv. -/
theorem value_tile (c : Dev nD) (x : Cert.Attn.SX.Idx → EReal) (Wv : Cert.Attn.SW.Idx → EReal)
    (hv : ∀ (b : Fin 4) (n : Fin 2048) (e : Fin 1024), V c main_v3 (ix3 b n e) = Cert.Attn.proj x Wv b n e)
    (n : ℕ) (hn : n < (cfgA (F := Ideal)).N) (b : Fin 4) (hb : b.val = n / 10) (e : Fin 1024) :
    (fun κ : Fin 512 => (iblk1 (F := Ideal) V c 3 ⟨n, hn⟩ : Vec Ideal S1x512x1024 .bf16) (ix3 0 κ e))
      = vT x Wv b e (kiOf n) := by
  have h4k : kiOf n < 4 := lt_of_le_of_lt (kiOf_le n) (qiOf_lt n)
  funext κ
  unfold vT
  have hκ : κ.val < 512 := κ.isLt
  rw [dif_pos h4k]
  exact (blk3_apply V c n hn b hb κ ⟨kiOf n * 512 + κ.val, by omega⟩ rfl e).trans (hv b _ e)

/-- One step at a query row whose projected query row is in place: maximum, denominator and numerator take
    one step of the recurrence on the point's key tile. -/
theorem stepAt_row (c : Dev nD) (x : Cert.Attn.SX.Idx → EReal) (Wq Wk Wv : Cert.Attn.SW.Idx → EReal)
    (hk : ∀ (b : Fin 4) (n : Fin 2048) (e : Fin 1024), V c main_v2 (ix3 b n e) = Cert.Attn.proj x Wk b n e)
    (hv : ∀ (b : Fin 4) (n : Fin 2048) (e : Fin 1024), V c main_v3 (ix3 b n e) = Cert.Attn.proj x Wv b n e)
    (n : ℕ) (hn : n < (cfgA (F := Ideal)).N) (st : St Ideal) (b : Fin 4) (hb : b.val = n / 10) (r : Fin 512) (Q : Fin 2048)
    (hQ : Q.val = qiOf n * 512 + r.val)
    (hqr : ∀ d : Fin 1024, (reset (w3 (F := Ideal) ⟨n, hn⟩) (iblk1 (F := Ideal) V c 0 ⟨n, hn⟩) (iblk1 (F := Ideal) V c 1 ⟨n, hn⟩) st).1 (ix2 r d)
      = Cert.Attn.proj x Wq b Q d)
    (e : Fin 1024) :
    ((stepAt (F := Ideal) V c ⟨n, hn⟩ st).2.1 (ix2 r 0), (stepAt (F := Ideal) V c ⟨n, hn⟩ st).2.2.1 (ix2 r 0),
        (stepAt (F := Ideal) V c ⟨n, hn⟩ st).2.2.2 (ix2 r e))
      = Cert.Attn.flashStep (sT x Wq Wk b Q (kiOf n)) (vT x Wv b e (kiOf n))
          ((reset (w3 (F := Ideal) ⟨n, hn⟩) (iblk1 (F := Ideal) V c 0 ⟨n, hn⟩) (iblk1 (F := Ideal) V c 1 ⟨n, hn⟩) st).2.1 (ix2 r 0),
           (reset (w3 (F := Ideal) ⟨n, hn⟩) (iblk1 (F := Ideal) V c 0 ⟨n, hn⟩) (iblk1 (F := Ideal) V c 1 ⟨n, hn⟩) st).2.2.1 (ix2 r 0),
           (reset (w3 (F := Ideal) ⟨n, hn⟩) (iblk1 (F := Ideal) V c 0 ⟨n, hn⟩) (iblk1 (F := Ideal) V c 1 ⟨n, hn⟩) st).2.2.2 (ix2 r e)) := by
  have h4q : (w1 (F := Ideal) ⟨n, hn⟩).toNat < 4 := by rw [w1_toNat n hn]; exact qiOf_lt n
  have h4k : (w3 (F := Ideal) ⟨n, hn⟩).toNat < 4 := by rw [w3_toNat n hn]; exact lt_of_le_of_lt (kiOf_le n) (qiOf_lt n)
  refine (stepS_row (w1 (F := Ideal) ⟨n, hn⟩) (w3 (F := Ideal) ⟨n, hn⟩) h4q h4k
    (iblk1 (F := Ideal) V c 0 ⟨n, hn⟩) (iblk1 (F := Ideal) V c 1 ⟨n, hn⟩) (iblk1 (F := Ideal) V c 2 ⟨n, hn⟩)
    (iblk1 (F := Ideal) V c 3 ⟨n, hn⟩) st r e).trans ?_
  exact congrArg₂ (fun s v => Cert.Attn.flashStep s v _)
    (score_tile V c x Wq Wk hk n hn b hb r Q hQ _ hqr) (value_tile V c x Wv hv n hn b hb e)

/-- A query tile's first step: whatever the scratch held, afterwards it holds the projected query row and the
    recurrence's state after key tile 0. -/
theorem step_first (c : Dev nD) (x : Cert.Attn.SX.Idx → EReal) (Wq Wk Wv : Cert.Attn.SW.Idx → EReal)
    (hx : V c main_arg0 = x) (hq : V c main_arg1 = Wq)
    (hk : ∀ (b : Fin 4) (n : Fin 2048) (e : Fin 1024), V c main_v2 (ix3 b n e) = Cert.Attn.proj x Wk b n e)
    (hv : ∀ (b : Fin 4) (n : Fin 2048) (e : Fin 1024), V c main_v3 (ix3 b n e) = Cert.Attn.proj x Wv b n e)
    (n : ℕ) (hn : n < (cfgA (F := Ideal)).N) (hk0 : kiOf n = 0) (st : St Ideal) (b : Fin 4) (hb : b.val = n / 10)
    (r : Fin 512) (Q : Fin 2048) (hQ : Q.val = qiOf n * 512 + r.val) :
    (∀ d : Fin 1024, (stepAt (F := Ideal) V c ⟨n, hn⟩ st).1 (ix2 r d) = Cert.Attn.proj x Wq b Q d)
    ∧ ∀ e : Fin 1024, ((stepAt (F := Ideal) V c ⟨n, hn⟩ st).2.1 (ix2 r 0), (stepAt (F := Ideal) V c ⟨n, hn⟩ st).2.2.1 (ix2 r 0),
          (stepAt (F := Ideal) V c ⟨n, hn⟩ st).2.2.2 (ix2 r e))
        = Cert.Attn.flashFold (sT x Wq Wk b Q) (vT x Wv b e) (kiOf n) := by
  have hF : isFirst (w3 (F := Ideal) ⟨n, hn⟩) := (isFirst_iff n hn).mpr hk0
  have hR := reset_first (w3 (F := Ideal) ⟨n, hn⟩) hF (iblk1 (F := Ideal) V c 0 ⟨n, hn⟩) (iblk1 (F := Ideal) V c 1 ⟨n, hn⟩) st
  have hqr : ∀ d : Fin 1024, (reset (w3 (F := Ideal) ⟨n, hn⟩) (iblk1 (F := Ideal) V c 0 ⟨n, hn⟩) (iblk1 (F := Ideal) V c 1 ⟨n, hn⟩) st).1 (ix2 r d)
      = Cert.Attn.proj x Wq b Q d := fun d => by
    rw [hR]; exact fresh_q V c x Wq hx hq n hn b hb r Q hQ d
  refine ⟨hqr, fun e => ?_⟩
  rw [stepAt_row V c x Wq Wk Wv hk hv n hn st b hb r Q hQ hqr e, hR, hk0]
  show Cert.Attn.flashStep _ _ (k1_pay6 (F := Ideal) (ix2 r 0), k1_pay7 (F := Ideal) (ix2 r 0), k1_pay8 (F := Ideal) (ix2 r e)) = _
  rw [pay6_apply, pay7_apply, pay8_apply]
  rfl

/-- A later step of a query tile: the projected query row stays, and the recurrence's state after key tiles
    0 … j becomes the state after key tiles 0 … j + 1. -/
theorem step_next (c : Dev nD) (x : Cert.Attn.SX.Idx → EReal) (Wq Wk Wv : Cert.Attn.SW.Idx → EReal)
    (hk : ∀ (b : Fin 4) (n : Fin 2048) (e : Fin 1024), V c main_v2 (ix3 b n e) = Cert.Attn.proj x Wk b n e)
    (hv : ∀ (b : Fin 4) (n : Fin 2048) (e : Fin 1024), V c main_v3 (ix3 b n e) = Cert.Attn.proj x Wv b n e)
    (n : ℕ) (hn : n < (cfgA (F := Ideal)).N) (j : ℕ) (hj : j + 1 = kiOf n) (st : St Ideal) (b : Fin 4) (hb : b.val = n / 10)
    (r : Fin 512) (Q : Fin 2048) (hQ : Q.val = qiOf n * 512 + r.val)
    (hq' : ∀ d : Fin 1024, st.1 (ix2 r d) = Cert.Attn.proj x Wq b Q d)
    (hst : ∀ e : Fin 1024, (st.2.1 (ix2 r 0), st.2.2.1 (ix2 r 0), st.2.2.2 (ix2 r e))
      = Cert.Attn.flashFold (sT x Wq Wk b Q) (vT x Wv b e) j) :
    (∀ d : Fin 1024, (stepAt (F := Ideal) V c ⟨n, hn⟩ st).1 (ix2 r d) = Cert.Attn.proj x Wq b Q d)
    ∧ ∀ e : Fin 1024, ((stepAt (F := Ideal) V c ⟨n, hn⟩ st).2.1 (ix2 r 0), (stepAt (F := Ideal) V c ⟨n, hn⟩ st).2.2.1 (ix2 r 0),
          (stepAt (F := Ideal) V c ⟨n, hn⟩ st).2.2.2 (ix2 r e))
        = Cert.Attn.flashFold (sT x Wq Wk b Q) (vT x Wv b e) (kiOf n) := by
  have hF : ¬ isFirst (w3 (F := Ideal) ⟨n, hn⟩) := fun h => by
    have := (isFirst_iff n hn).mp h
    omega
  have hR := reset_notFirst (w3 (F := Ideal) ⟨n, hn⟩) hF (iblk1 (F := Ideal) V c 0 ⟨n, hn⟩) (iblk1 (F := Ideal) V c 1 ⟨n, hn⟩) st
  have hqr : ∀ d : Fin 1024, (reset (w3 (F := Ideal) ⟨n, hn⟩) (iblk1 (F := Ideal) V c 0 ⟨n, hn⟩) (iblk1 (F := Ideal) V c 1 ⟨n, hn⟩) st).1 (ix2 r d)
      = Cert.Attn.proj x Wq b Q d := fun d => by
    rw [hR]; exact hq' d
  refine ⟨hqr, fun e => ?_⟩
  rw [stepAt_row V c x Wq Wk Wv hk hv n hn st b hb r Q hQ hqr e, hR, hst e, ← hj]
  rfl

/-! ### The invariant -/

/-- After point n the scratch buffers hold, at row r of the point's query tile, the projected query row
    512 qi + r of the point's batch element and, for every output column, the recurrence's state after key
    tiles 0 … ki: by induction on the point, a first step starting afresh and every other step continuing the
    step before it. -/
theorem traj_inv (c : Dev nD)
    (x : Cert.Attn.SX.Idx → EReal) (Wq Wk Wv : Cert.Attn.SW.Idx → EReal)
    (hx : V c main_arg0 = x) (hq : V c main_arg1 = Wq)
    (hk : ∀ (b : Fin 4) (n : Fin 2048) (e : Fin 1024), V c main_v2 (ix3 b n e) = Cert.Attn.proj x Wk b n e)
    (hv : ∀ (b : Fin 4) (n : Fin 2048) (e : Fin 1024), V c main_v3 (ix3 b n e) = Cert.Attn.proj x Wv b n e)
    (n : ℕ) (hn : n < (cfgA (F := Ideal)).N) (b : Fin 4) (hb : b.val = n / 10) (r : Fin 512) (Q : Fin 2048) (hQ : Q.val = qiOf n * 512 + r.val) :
    (∀ d : Fin 1024, (traj (F := Ideal) V c n hn).1 (ix2 r d) = Cert.Attn.proj x Wq b Q d)
    ∧ ∀ e : Fin 1024, ((traj (F := Ideal) V c n hn).2.1 (ix2 r 0), (traj (F := Ideal) V c n hn).2.2.1 (ix2 r 0), (traj (F := Ideal) V c n hn).2.2.2 (ix2 r e))
        = Cert.Attn.flashFold (sT x Wq Wk b Q) (vT x Wv b e) (kiOf n) := by
  induction n generalizing b r Q with
  | zero =>
    rw [traj_zero]
    exact step_first V c x Wq Wk Wv hx hq hk hv 0 hn ((isFirst_iff 0 hn).mp (first0 hn)) st0 b hb r Q hQ
  | succ n ih =>
    rw [traj_succ]
    by_cases hk0 : kiOf (n + 1) = 0
    · exact step_first V c x Wq Wk Wv hx hq hk hv (n + 1) hn hk0 _ b hb r Q hQ
    · obtain ⟨_, hbat, hqi, hki⟩ := step_pred (n + 1) (hn.trans_eq cfgA_N) hk0
      rw [Nat.add_sub_cancel] at hbat hqi hki
      have ih' := ih (Nat.lt_of_succ_lt hn) b (by omega) r Q (by rw [hqi]; exact hQ)
      exact step_next V c x Wq Wk Wv hk hv (n + 1) hn (kiOf n) hki _ b hb r Q hQ ih'.1 ih'.2

end Cert.KernelIdeal.Hand

end
-- ==== Proof.SpecFacts.lean ====
/-
  Realness of the specification's intermediate quantities: when the input arrays hold real numbers,
  every projection entry is a real number, every unmasked score is a real number, and every masked
  score is -∞.
-/
import proofs.«409614_j37976100831500_3_alg».proof.Proof.Spec
import Mathlib.Data.EReal.Basic
import Mathlib.Data.EReal.Operations
import Mathlib.Algebra.BigOperators.Group.Finset.Basic

noncomputable section

open scoped BigOperators

namespace Cert.Attn

open Idealize.ShloMosaic Idealize.ShloMosaic.ValueIdx

/-- A finite sum of real numbers, taken in the extended reals, is the real sum. -/
private theorem coe_sum_of_reals {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum whose terms are all real is real. -/
theorem sum_real {ι : Type} [Fintype ι] (f : ι → EReal) (h : ∀ i, ∃ r : ℝ, f i = (r : EReal)) :
    ∃ r : ℝ, ∑ i, f i = (r : EReal) := by
  choose g hg using h
  refine ⟨∑ i, g i, ?_⟩
  rw [coe_sum_of_reals]
  exact Finset.sum_congr rfl (fun i _ => hg i)

/-- A product of two reals is real. -/
theorem mul_real {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- Every entry of a projection of real arrays is real. -/
theorem proj_real {x : SX.Idx → EReal} {W : SW.Idx → EReal} (hx : AllReal x) (hW : AllReal W)
    (b : Fin 4) (n : Fin 2048) (e : Fin 1024) : ∃ r : ℝ, proj x W b n e = (r : EReal) := by
  unfold proj
  exact sum_real _ (fun d => mul_real (hx _) (hW _))

/-- An unmasked score (key not after the query) is real. -/
theorem score_real {x : SX.Idx → EReal} {Wq Wk : SW.Idx → EReal} (hx : AllReal x) (hq : AllReal Wq)
    (hk : AllReal Wk) (b : Fin 4) {q k : Fin 2048} (h : k ≤ q) :
    ∃ r : ℝ, score x Wq Wk b q k = (r : EReal) := by
  unfold score
  rw [if_pos h]
  exact mul_real (sum_real _ (fun e => mul_real (proj_real hx hq b q e) (proj_real hx hk b k e))) ⟨_, rfl⟩

/-- A masked score (key after the query) is -∞. -/
theorem score_bot {x : SX.Idx → EReal} {Wq Wk : SW.Idx → EReal} (b : Fin 4) {q k : Fin 2048}
    (h : ¬ k ≤ q) : score x Wq Wk b q k = ⊥ := by
  unfold score
  rw [if_neg h]

/-- Every score is -∞ or real. -/
theorem score_real_or_bot {x : SX.Idx → EReal} {Wq Wk : SW.Idx → EReal} (hx : AllReal x)
    (hq : AllReal Wq) (hk : AllReal Wk) (b : Fin 4) (q k : Fin 2048) :
    score x Wq Wk b q k = ⊥ ∨ ∃ r : ℝ, score x Wq Wk b q k = (r : EReal) := by
  by_cases h : k ≤ q
  · exact Or.inr (score_real hx hq hk b h)
  · exact Or.inl (score_bot b h)

end Cert.Attn

end
-- ==== Proof.ValOut.lean ====
/-
  The flash call's result array.  With real inputs, after the 40 grid points the output window's array
  holds the specification G.  The output block of a point is (batch, query tile, 0); it is written back
  exactly at a query tile's last key tile, where the key tile equals the query tile, and these blocks cover
  the array.  What is written back at row r, column e is numerator / denominator of the recurrence after
  key tiles 0..qi for query row Q = 512 qi + r; the key tiles above qi are wholly masked for that row, so
  the sums and the supremum over all 2048 keys reduce to those over the first qi + 1 tiles, and the
  quotient is the specification's softmax average.
-/
import proofs.«409614_j37976100831500_3_alg».proof.Proof.FlashDat
import proofs.«409614_j37976100831500_3_alg».proof.Proof.FlashIdx
import proofs.«409614_j37976100831500_3_alg».proof.Proof.ValTraj
import proofs.«409614_j37976100831500_3_alg».proof.Proof.Spec
import proofs.«409614_j37976100831500_3_alg».proof.Proof.SpecFacts
import proofs.«409614_j37976100831500_3_alg».proof.Proof.Softmax
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Attn

/-! ## The softmax average over 2048 keys as the recurrence over its first tiles -/

/-- Tiles that are wholly -∞ do not move the running maximum. -/
theorem tilesMax_stable_out {T : ℕ} (s : ℕ → Fin T → EReal) (n0 : ℕ)
    (hbot : ∀ j, n0 < j → ∀ κ, s j κ = ⊥) : ∀ n, n0 ≤ n → tilesMax s n = tilesMax s n0 := by
  intro n hn
  induction n, hn using Nat.le_induction with
  | base => rfl
  | succ n hn ih =>
    have hb : Finset.univ.sup (s (n + 1)) = ⊥ :=
      le_antisymm (Finset.sup_le fun κ _ => le_of_eq (hbot (n + 1) (by omega) κ)) bot_le
    rw [tilesMax_succ, ih, hb]
    exact max_eq_left bot_le

/-- The softmax average of 2048 scores in four tiles of 512, the tiles above tile qi wholly -∞, is the
    quotient of the numerator by the denominator that the recurrence holds after tiles 0..qi. -/
theorem softmax_tiles_out (y w : Fin 2048 → EReal) (s v : ℕ → Fin 512 → EReal)
    (hsy : ∀ (j : ℕ) (κ : Fin 512) (h : j * 512 + κ < 4 * 512), s j κ = y ⟨j * 512 + κ, h⟩)
    (hvw : ∀ (j : ℕ) (κ : Fin 512) (h : j * 512 + κ < 4 * 512), v j κ = w ⟨j * 512 + κ, h⟩)
    (hs : ∀ j κ, s j κ = ⊥ ∨ ∃ r : ℝ, s j κ = (r : EReal))
    (h0 : ∃ κ, ∃ r : ℝ, s 0 κ = (r : EReal))
    (hv : ∀ j κ, ∃ r : ℝ, v j κ = (r : EReal))
    (qi : ℕ) (hqi : qi < 4) (hbot : ∀ j, qi < j → ∀ κ, s j κ = ⊥) :
    Ideal.div (∑ k, Ideal.exp (y k - Finset.univ.sup y) * w k) (∑ k, Ideal.exp (y k - Finset.univ.sup y))
      = Ideal.div (flashFold s v qi).2.2 (flashFold s v qi).2.1 := by
  rw [flashFold_eq qi s v (fun j _ => hs j) h0 (fun j _ => hv j)]
  obtain ⟨M, hM⟩ := tilesMax_real qi s (fun j _ => hs j) h0
  have hmax : Finset.univ.sup y = tilesMax s qi := by
    have h4 : Finset.univ.sup y = (Finset.range 4).sup fun j => Finset.univ.sup (s j) :=
      sup_tiles_of (n := 4) (T := 512) y s hsy
    rw [h4]
    exact tilesMax_stable_out s qi hbot 3 (by omega)
  have hsub : Finset.range (qi + 1) ⊆ Finset.range 4 := Finset.range_subset_range.2 (by omega)
  have hz : ∀ j ∈ Finset.range 4, j ∉ Finset.range (qi + 1) → ∀ κ, Ideal.exp (s j κ - tilesMax s qi) = 0 := by
    intro j _ hj κ
    have hj' : qi < j := by rw [Finset.mem_range] at hj; omega
    rw [hbot j hj' κ, EReal.bot_sub, Ideal.exp_bot]
  have hden : ∑ k, Ideal.exp (y k - tilesMax s qi)
      = ∑ j ∈ Finset.range (qi + 1), ∑ κ, Ideal.exp (s j κ - tilesMax s qi) := by
    rw [sum_tiles_of (n := 4) (T := 512) (fun k => Ideal.exp (y k - tilesMax s qi))
      (fun j κ => Ideal.exp (s j κ - tilesMax s qi)) (fun j κ h => by rw [hsy j κ h])]
    exact (Finset.sum_subset hsub fun j hj4 hj => Finset.sum_eq_zero fun κ _ => hz j hj4 hj κ).symm
  have hnum : ∑ k, Ideal.exp (y k - tilesMax s qi) * w k
      = ∑ j ∈ Finset.range (qi + 1), ∑ κ, Ideal.exp (s j κ - tilesMax s qi) * v j κ := by
    rw [sum_tiles_of (n := 4) (T := 512) (fun k => Ideal.exp (y k - tilesMax s qi) * w k)
      (fun j κ => Ideal.exp (s j κ - tilesMax s qi) * v j κ) (fun j κ h => by rw [hsy j κ h, hvw j κ h])]
    exact (Finset.sum_subset hsub fun j hj4 hj => Finset.sum_eq_zero fun κ _ => by
      rw [hz j hj4 hj κ, zero_mul]).symm
  rw [hmax, hden, hnum]

/-- The specification's entry (b, Q, e), with real inputs and Q in query tile qi: the quotient of the
    recurrence's numerator by its denominator after key tiles 0..qi. -/
theorem attn_eq_fold_out {x : SX.Idx → EReal} {Wq Wk Wv : SW.Idx → EReal} (rx : AllReal x) (rq : AllReal Wq)
    (rk : AllReal Wk) (rv : AllReal Wv) (b : Fin 4) (Q : Fin 2048) (e : Fin 1024) (qi : ℕ) (hqi : qi < 4)
    (hhi : Q.val < (qi + 1) * 512) :
    attn x Wq Wk Wv b Q e
      = Ideal.div (flashFold (sT x Wq Wk b Q) (vT x Wv b e) qi).2.2
          (flashFold (sT x Wq Wk b Q) (vT x Wv b e) qi).2.1 := by
  unfold attn rowMax
  refine softmax_tiles_out (score x Wq Wk b Q) (fun k => proj x Wv b k e) (sT x Wq Wk b Q) (vT x Wv b e)
    ?_ ?_ ?_ ?_ ?_ qi hqi ?_
  · intro j κ h; unfold sT; rw [dif_pos (by omega)]
  · intro j κ h; unfold vT; rw [dif_pos (by omega)]
  · intro j κ; unfold sT; split
    · exact score_real_or_bot rx rq rk b Q _
    · exact Or.inl rfl
  · refine ⟨⟨0, by norm_num⟩, ?_⟩
    unfold sT; rw [dif_pos (by norm_num)]
    exact score_real rx rq rk b (Fin.le_def.2 (by show 0 * 512 + 0 ≤ Q.val; omega))
  · intro j κ; unfold vT; split
    · exact proj_real rx rv b _ e
    · exact ⟨0, EReal.coe_zero.symm⟩
  · intro j hj κ; unfold sT; split
    · refine score_bot b ?_
      rw [Fin.le_def, not_le]
      show Q.val < j * 512 + κ.val
      omega
    · rfl

/-! ## The output window over the grid: where it is written back and which block -/

/-- At every point: the output block index is (batch, query tile, 0); the query tile is below 4; and at a
    point that writes back, the key tile is the query tile. -/
theorem idx4_facts_out : ∀ t : Fin (cfgA (F := Ideal)).N,
    ((cfgA (F := Ideal)).win 4).index t (0 : Fin 3) = t.val / 10
    ∧ ((cfgA (F := Ideal)).win 4).index t (1 : Fin 3) = qiOf t.val
    ∧ ((cfgA (F := Ideal)).win 4).index t (2 : Fin 3) = 0
    ∧ qiOf t.val < 4
    ∧ (((cfgA (F := Ideal)).win 4).flush t = true → kiOf t.val = qiOf t.val) := by
  decide +kernel

/-- Every (batch, query tile) is written back at some point. -/
theorem idx4_onto_out : ∀ (b : Fin 4) (qt : Fin 4), ∃ t : Fin (cfgA (F := Ideal)).N,
    ((cfgA (F := Ideal)).win 4).flush t = true ∧ ((cfgA (F := Ideal)).win 4).index t = ![b.val, qt.val, 0] := by
  decide +kernel

variable (V : (c : Dev nD) → (b : Ref sig .tc) → Buf (Elt Ideal) ((c : Thread nD τ).loc b)) (c : Dev nD)

/-- An index of the result array is in point t's block iff each coordinate is in the block's range. -/
theorem mem_blk4_out (t : Fin (cfgA (F := Ideal)).N) (i : S4x2048x1024.Idx) :
    i ∈ (((cfgA (F := Ideal)).win 4).blk t).view.set
      ↔ ∀ a : Fin 3, ((cfgA (F := Ideal)).win 4).index t a * S1x512x1024.size a ≤ (i a).val
          ∧ (i a).val < ((cfgA (F := Ideal)).win 4).index t a * S1x512x1024.size a + S1x512x1024.size a := by
  show i ∈ ((View.whole main_v4).slice (((cfgA (F := Ideal)).win 4).rect t)).set ↔ _
  rw [View.set_slice_whole, Rect.mem_set_unit]
  exact Iff.rfl

/-- Every index of the result array is in the block of some point that writes back. -/
theorem cover4_out (i : S4x2048x1024.Idx) :
    ∃ t : Fin (cfgA (F := Ideal)).N, ((cfgA (F := Ideal)).win 4).flush t = true
      ∧ i ∈ (((cfgA (F := Ideal)).win 4).blk t).view.set := by
  have hi0 : (i 0).val < 4 := (i 0).isLt
  have hi1 : (i 1).val < 2048 := (i 1).isLt
  have hi2 : (i 2).val < 1024 := (i 2).isLt
  obtain ⟨t, hf, ht⟩ := idx4_onto_out ⟨(i 0).val, hi0⟩ ⟨(i 1).val / 512, by omega⟩
  have q0 : ((cfgA (F := Ideal)).win 4).index t (0 : Fin 3) = (i 0).val := congrFun ht 0
  have q1 : ((cfgA (F := Ideal)).win 4).index t (1 : Fin 3) = (i 1).val / 512 := congrFun ht 1
  have q2 : ((cfgA (F := Ideal)).win 4).index t (2 : Fin 3) = 0 := congrFun ht 2
  refine ⟨t, hf, ?_⟩
  rw [mem_blk4_out]
  intro a
  match a with
  | ⟨0, _⟩ =>
    show ((cfgA (F := Ideal)).win 4).index t (0 : Fin 3) * 1 ≤ (i 0).val
      ∧ (i 0).val < ((cfgA (F := Ideal)).win 4).index t (0 : Fin 3) * 1 + 1
    omega
  | ⟨1, _⟩ =>
    show ((cfgA (F := Ideal)).win 4).index t (1 : Fin 3) * 512 ≤ (i 1).val
      ∧ (i 1).val < ((cfgA (F := Ideal)).win 4).index t (1 : Fin 3) * 512 + 512
    omega
  | ⟨2, _⟩ =>
    show ((cfgA (F := Ideal)).win 4).index t (2 : Fin 3) * 1024 ≤ (i 2).val
      ∧ (i 2).val < ((cfgA (F := Ideal)).win 4).index t (2 : Fin 3) * 1024 + 1024
    omega

/-- What a point that writes back writes is its block of the specification. -/
theorem flushed4_eq_out (x : Cert.Attn.SX.Idx → EReal) (Wq Wk Wv : Cert.Attn.SW.Idx → EReal)
    (hx : V c main_arg0 = x) (hq : V c main_arg1 = Wq)
    (hk : ∀ b n e, V c main_v2 (ix3 b n e) = Cert.Attn.proj x Wk b n e)
    (hv : ∀ b n e, V c main_v3 (ix3 b n e) = Cert.Attn.proj x Wv b n e)
    (rx : Cert.Attn.AllReal x) (rq : Cert.Attn.AllReal Wq) (rk : Cert.Attn.AllReal Wk) (rv : Cert.Attn.AllReal Wv)
    (t : Fin (cfgA (F := Ideal)).N) (hf : ((cfgA (F := Ideal)).win 4).flush t = true) :
    (dat1 (F := Ideal) V c).flushed 4 t
      = (((cfgA (F := Ideal)).win 4).blk t).view.read (Elt Ideal) (Cert.Attn.G x Wq Wk Wv) := by
  obtain ⟨e0, e1, e2, hq4, hkq⟩ := idx4_facts_out t
  have hki : kiOf t.val = qiOf t.val := hkq hf
  have hb : t.val / 10 < 4 := by have := lt_of_lt_of_eq t.isLt (cfgA_N (F := Ideal)); omega
  refine funext fun (j : S1x512x1024.Idx) => ?_
  obtain ⟨z, r, e, rfl⟩ : ∃ (z : Fin 1) (r : Fin 512) (e : Fin 1024), j = ix3 z r e := ⟨j 0, j 1, j 2, eq_ix3 j⟩
  obtain rfl : z = 0 := Subsingleton.elim _ _
  have hQlt : qiOf t.val * 512 + r.val < 2048 := by have := r.isLt; omega
  have hemb : (((cfgA (F := Ideal)).win 4).blk t).view.emb (ix3 (0 : Fin 1) r e)
      = ix3 (⟨t.val / 10, hb⟩ : Fin 4) (⟨qiOf t.val * 512 + r.val, hQlt⟩ : Fin 2048) e := by
    funext a; apply Fin.ext
    match a with
    | ⟨0, _⟩ =>
      show ((cfgA (F := Ideal)).win 4).index t (0 : Fin 3) * 1 + 1 * 0 = t.val / 10
      omega
    | ⟨1, _⟩ =>
      show ((cfgA (F := Ideal)).win 4).index t (1 : Fin 3) * 512 + 1 * r.val = qiOf t.val * 512 + r.val
      omega
    | ⟨2, _⟩ =>
      show ((cfgA (F := Ideal)).win 4).index t (2 : Fin 3) * 1024 + 1 * e.val = e.val
      omega
  show k1_pay4 (F := Ideal) (traj (F := Ideal) V c t.val t.isLt).2.2.2 (traj (F := Ideal) V c t.val t.isLt).2.2.1 (ix3 0 r e)
    = Cert.Attn.G x Wq Wk Wv ((((cfgA (F := Ideal)).win 4).blk t).view.emb (ix3 (0 : Fin 1) r e))
  rw [hemb, G_ix3, pay4_apply]
  have hinv := (traj_inv V c x Wq Wk Wv hx hq hk hv t.val t.isLt ⟨t.val / 10, hb⟩ rfl r
    ⟨qiOf t.val * 512 + r.val, hQlt⟩ rfl).2 e
  rw [hki] at hinv
  have hl : (traj (F := Ideal) V c t.val t.isLt).2.2.1 (ix2 r 0)
      = (flashFold (sT x Wq Wk ⟨t.val / 10, hb⟩ ⟨qiOf t.val * 512 + r.val, hQlt⟩) (vT x Wv ⟨t.val / 10, hb⟩ e) (qiOf t.val)).2.1 :=
    congrArg (fun p => p.2.1) hinv
  have ha : (traj (F := Ideal) V c t.val t.isLt).2.2.2 (ix2 r e)
      = (flashFold (sT x Wq Wk ⟨t.val / 10, hb⟩ ⟨qiOf t.val * 512 + r.val, hQlt⟩) (vT x Wv ⟨t.val / 10, hb⟩ e) (qiOf t.val)).2.2 :=
    congrArg (fun p => p.2.2) hinv
  rw [hl, ha]
  exact (attn_eq_fold_out rx rq rk rv ⟨t.val / 10, hb⟩ ⟨qiOf t.val * 512 + r.val, hQlt⟩ e (qiOf t.val) hq4
    (by show qiOf t.val * 512 + r.val < (qiOf t.val + 1) * 512; have := r.isLt; omega)).symm

/-- With real inputs the flash call leaves the specification in its result array. -/
theorem flash_arr4 (x : Cert.Attn.SX.Idx → EReal) (Wq Wk Wv : Cert.Attn.SW.Idx → EReal)
    (hx : V c main_arg0 = x) (hq : V c main_arg1 = Wq)
    (hk : ∀ b n e, V c main_v2 (ix3 b n e) = Cert.Attn.proj x Wk b n e)
    (hv : ∀ b n e, V c main_v3 (ix3 b n e) = Cert.Attn.proj x Wv b n e)
    (rx : Cert.Attn.AllReal x) (rq : Cert.Attn.AllReal Wq) (rk : Cert.Attn.AllReal Wk) (rv : Cert.Attn.AllReal Wv) :
    (dat1 (F := Ideal) V c).arrAt 4 (cfgA (F := Ideal)).N = Cert.Attn.G x Wq Wk Wv :=
  (dat1 (F := Ideal) V c).arrAt_eq_of_cover 4 (Cert.Attn.G x Wq Wk Wv)
    (fun t hf => flushed4_eq_out V c x Wq Wk Wv hx hq hk hv rx rq rk rv t hf) cover4_out

end Cert.KernelIdeal.Hand
end
-- ==== Proof.ValKv.lean ====
/- THE VALUE of region 0 (the key/value projection kernel) at the extended reals: what the two output arrays hold after
   the region, as whole-array functions of the arrays the region found. The body's two products read at an index (a
   row of the left block against a column of the right; the roundings to bf16 are the identity here); what a point
   writes back is its row block of the flat projection; the eight row blocks tile each array; so each array ends
   holding the flat projection. Last, the host's two reshapes between [4,2048,1024] and [8192,1024] read at an index. -/
import proofs.«409614_j37976100831500_3_alg».proof.Proof.Kv
import Idealize.ShloMosaic.Lib.Pipeline.Value
import Idealize.ShloMosaic.Lib.ValueIdx
import Idealize.ShloMosaic.PureOps.Ideal.Laws

set_option maxRecDepth 16384
set_option synthInstance.maxSize 4096

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

theorem zeros2 : (![0, 0] : Fin 2 → Nat) = fun _ => 0 := funext fun a => by fin_cases a <;> rfl

theorem dotK_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem dotK_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem dotK_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem dotK_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into the zero accumulator, read at an index: row of the left operand against column of the right. -/
theorem mm_apply {φ₁ φ₂ : FTy} (a : FVec Ideal S1024x1024 φ₁) (b : FVec Ideal S1024x1024 φ₂) (y : S1024x1024.Idx) :
    matmul dot_S1024x1024_S1024x1024_S1024x1024_1_0_0_1_n_n none a b (constant (F := Ideal) S1024x1024 .f32 0x00000000#32) y
      = ∑ d : Fin 1024, a (ix2 (⟨(y 0).val, (y 0).isLt⟩ : Fin 1024) d) * b (ix2 d (⟨(y 1).val, (y 1).isLt⟩ : Fin 1024)) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx y ((ValueIdx.contrEquiv1 dot_S1024x1024_S1024x1024_S1024x1024_1_0_0_1_n_n 1024 rfl rfl).symm k) = ix2 (⟨(y 0).val, (y 0).isLt⟩ : Fin 1024) k := funext fun a => Fin.ext (by
    match a with
    | ⟨0, _⟩ => exact dotK_lhs_0 _ _
    | ⟨1, _⟩ => exact (dotK_lhs_1 _ _).trans hk)
  have er : dot_S1024x1024_S1024x1024_S1024x1024_1_0_0_1_n_n.rhsIdx y ((ValueIdx.contrEquiv1 dot_S1024x1024_S1024x1024_S1024x1024_1_0_0_1_n_n 1024 rfl rfl).symm k) = ix2 k (⟨(y 1).val, (y 1).isLt⟩ : Fin 1024) := funext fun a => Fin.ext (by
    match a with
    | ⟨0, _⟩ => exact (dotK_rhs_0 _ _).trans hk
    | ⟨1, _⟩ => exact dotK_rhs_1 _ _)
  rw [el, er]

theorem kv_pay2_apply (x0 x1 : Vec Ideal S1024x1024 .f32) (y : S1024x1024.Idx) :
    k0_pay2 (F := Ideal) x0 x1 y = ∑ d : Fin 1024, x0 (ix2 (⟨(y 0).val, (y 0).isLt⟩ : Fin 1024) d) * x1 (ix2 d (⟨(y 1).val, (y 1).isLt⟩ : Fin 1024)) := by
  unfold k0_pay2 k0_pay1
  rw [shapeCast_self]
  exact mm_apply x0 x1 y

theorem kv_pay3_apply (x0 x2 : Vec Ideal S1024x1024 .f32) (y : S1024x1024.Idx) :
    k0_pay3 (F := Ideal) x0 x2 y = ∑ d : Fin 1024, x0 (ix2 (⟨(y 0).val, (y 0).isLt⟩ : Fin 1024) d) * x2 (ix2 d (⟨(y 1).val, (y 1).isLt⟩ : Fin 1024)) := by
  unfold k0_pay3 k0_pay1
  rw [shapeCast_self]
  exact mm_apply (φ₁ := .bf16) (φ₂ := .bf16) x0 x2 y

/-! ## The specification of the region: a flat projection -/

/-- A flat projection: rows of xf against W. -/
def projFlat (xf : S8192x1024.Idx → EReal) (W : S1024x1024.Idx → EReal) : S8192x1024.Idx → EReal :=
  fun j => ∑ d : Fin 1024, xf (ix2 (⟨(j 0).val, (j 0).isLt⟩ : Fin 8192) d) * W (ix2 d (⟨(j 1).val, (j 1).isLt⟩ : Fin 1024))

theorem projFlat_ix2 (xf : S8192x1024.Idx → EReal) (W : S1024x1024.Idx → EReal) (n : Fin 8192) (e : Fin 1024) :
    projFlat xf W (ix2 n e) = ∑ d : Fin 1024, xf (ix2 n d) * W (ix2 d e) := rfl

/-- A row-against-column sum over a block whose row is row i of xf and whose column is column i of W is the flat
    projection at i. -/
theorem sum_eq_projFlat (xf : S8192x1024.Idx → EReal) (W : S1024x1024.Idx → EReal)
    (x0 x1 : S1024x1024.Idx → EReal) (y : S1024x1024.Idx) (i : S8192x1024.Idx)
    (h0 : ∀ d : Fin 1024, x0 (ix2 (⟨(y 0).val, (y 0).isLt⟩ : Fin 1024) d) = xf (ix2 (⟨(i 0).val, (i 0).isLt⟩ : Fin 8192) d))
    (h1 : ∀ d : Fin 1024, x1 (ix2 d (⟨(y 1).val, (y 1).isLt⟩ : Fin 1024)) = W (ix2 d (⟨(i 1).val, (i 1).isLt⟩ : Fin 1024))) :
    (∑ d : Fin 1024, x0 (ix2 (⟨(y 0).val, (y 0).isLt⟩ : Fin 1024) d) * x1 (ix2 d (⟨(y 1).val, (y 1).isLt⟩ : Fin 1024)))
      = projFlat xf W i := by
  unfold projFlat
  exact Finset.sum_congr rfl fun d _ => by rw [h0 d, h1 d]

/-! ## From blocks to the arrays -/

variable (V : (c : Dev nD) → (b : Ref sig .tc) → Buf (Elt Ideal) ((c : Thread nD τ).loc b))

/-- The printed index maps over the grid: the activations' block moves with the outputs' down the rows, the weights stay,
    and point t's row block is block t. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point t writes back to the key array is block t of the flat projection with the key weights. -/
theorem flushed3_eq (c : Dev nD) (t : Fin cfg0.N) :
    (dat0 (F := Ideal) V c).flushed 3 t
      = ((cfg0.win 3).blk t).view.read (Elt Ideal) (projFlat (V c main_v0) (V c main_arg2)) := by
  show (cfg0.win 3).cut (grid0.coords t) ((dat0 (F := Ideal) V c).after 3 t) = _
  rw [after0_3]
  unfold out0_3
  rw [View.canon_unit_zero zeros2]
  simp only [View.ld_unit_zero (S := S1024x1024) zeros2]
  obtain ⟨e00, e01, e10, e11, e20, e21, e30, e31, e40, e41⟩ := idx_facts0 t
  funext j
  show k0_pay2 (F := Ideal) (iblk0 V c 0 t) (iblk0 V c 1 t) ((cfg0.win 3).xinj (grid0.coords t) j)
    = projFlat (V c main_v0) (V c main_arg2) (((cfg0.win 3).blk t).view.emb j)
  refine (kv_pay2_apply _ _ _).trans (sum_eq_projFlat _ _ _ _ _ _ (fun d => ?_) (fun d => ?_))
  · show V c main_v0 (((cfg0.win 0).blk t).view.emb _) = V c main_v0 _
    congr 1; funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * d.val = d.val; omega
  · show V c main_arg2 (((cfg0.win 1).blk t).view.emb _) = V c main_arg2 _
    congr 1; funext a; apply Fin.ext
    match a with
    | ⟨0, _⟩ => show win0_1.index t (0 : Fin 2) * 1024 + 1 * d.val = d.val; omega
    | ⟨1, _⟩ => show win0_1.index t (1 : Fin 2) * 1024 + 1 * (j 1).val = win0_3.index t (1 : Fin 2) * 1024 + 1 * (j 1).val; omega

/-- What point t writes back to the value array is block t of the flat projection with the value weights: at the
    extended reals the three roundings to bf16 are the identity. -/
theorem flushed4_eq (c : Dev nD) (t : Fin cfg0.N) :
    (dat0 (F := Ideal) V c).flushed 4 t
      = ((cfg0.win 4).blk t).view.read (Elt Ideal) (projFlat (V c main_v0) (V c main_arg3)) := by
  show (cfg0.win 4).cut (grid0.coords t) ((dat0 (F := Ideal) V c).after 4 t) = _
  rw [after0_4]
  unfold out0_4
  rw [View.canon_unit_zero zeros2]
  simp only [View.ld_unit_zero (S := S1024x1024) zeros2]
  obtain ⟨e00, e01, e10, e11, e20, e21, e30, e31, e40, e41⟩ := idx_facts0 t
  funext j
  show k0_pay3 (F := Ideal) (iblk0 V c 0 t) (iblk0 V c 2 t) ((cfg0.win 4).xinj (grid0.coords t) j)
    = projFlat (V c main_v0) (V c main_arg3) (((cfg0.win 4).blk t).view.emb j)
  refine (kv_pay3_apply _ _ _).trans (sum_eq_projFlat _ _ _ _ _ _ (fun d => ?_) (fun d => ?_))
  · show V c main_v0 (((cfg0.win 0).blk t).view.emb _) = V c main_v0 _
    congr 1; funext a; apply Fin.ext
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 1024 + 1 * d.val = d.val; omega
  · show V c main_arg3 (((cfg0.win 2).blk t).view.emb _) = V c main_arg3 _
    congr 1; funext a; apply Fin.ext
    match a with
    | ⟨0, _⟩ => show win0_2.index t (0 : Fin 2) * 1024 + 1 * d.val = d.val; omega
    | ⟨1, _⟩ => show win0_2.index t (1 : Fin 2) * 1024 + 1 * (j 1).val = win0_4.index t (1 : Fin 2) * 1024 + 1 * (j 1).val; omega

/-- An index of the key array is in point t's block iff each coordinate is in the block's range on its axis. -/
theorem mem_blk3 (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1_0).slice (win0_3.rect t)).set ↔ _
  rw [View.set_slice_whole, Rect.mem_set_unit]
  exact Iff.rfl

/-- The same for the value array. -/
theorem mem_blk4 (t : Fin cfg0.N) (i : S8192x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v1_1).slice (win0_4.rect t)).set ↔ _
  rw [View.set_slice_whole, Rect.mem_set_unit]
  exact Iff.rfl

/-- The point whose row block holds row r is r / 1024. -/
theorem point_of_row (r : Nat) (hr : r < 8192) : ∃ t : Fin cfg0.N, t.val = r / 1024 :=
  ⟨⟨r / 1024, by rw [show cfg0.N = 8 from N_0]; omega⟩, rfl⟩

/-- The eight row blocks tile the key array. -/
theorem cover3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := point_of_row (i 0).val hi0
  obtain ⟨e00, e01, e10, e11, e20, e21, e30, e31, e40, e41⟩ := idx_facts0 t
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The eight row blocks tile the value array. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := point_of_row (i 0).val hi0
  obtain ⟨e00, e01, e10, e11, e20, e21, e30, e31, e40, e41⟩ := idx_facts0 t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- After the region the key array holds the flat projection of the activations with the key weights. -/
theorem kv_arr3 (c : Dev nD) :
    (dat0 (F := Ideal) V c).arrAt 3 cfg0.N = projFlat (V c main_v0) (V c main_arg2) :=
  (dat0 (F := Ideal) V c).arrAt_eq_of_cover 3 (projFlat (V c main_v0) (V c main_arg2)) (fun t _ => flushed3_eq V c t) cover3

/-- After the region the value array holds the flat projection of the activations with the value weights. -/
theorem kv_arr4 (c : Dev nD) :
    (dat0 (F := Ideal) V c).arrAt 4 cfg0.N = projFlat (V c main_v0) (V c main_arg3) :=
  (dat0 (F := Ideal) V c).arrAt_eq_of_cover 4 (projFlat (V c main_v0) (V c main_arg3)) (fun t _ => flushed4_eq V c t) cover4

/-! ## The host's two reshapes read at an index -/

/-- The [4,2048,1024] array flattened to [8192,1024]: row b * 2048 + n of the flat array is row n of slab b. -/
theorem flat_apply (x : S4x2048x1024.Idx → EReal) (h : S4x2048x1024.ShapeCasts S8192x1024)
    (b : Fin 4) (n : Fin 2048) (d : Fin 1024) :
    shapeCast S8192x1024 x h (ix2 (⟨b.val * 2048 + n.val, by omega⟩ : Fin 8192) d) = x (ix3 b n d) :=
  shapeCast_apply x h _ _ (by
    rw [Shape.rowMajor_val_three, Shape.rowMajor_val_two]
    show (b.val * 2048 + n.val) * 1024 + d.val = (b.val * 2048 + n.val) * 1024 + d.val
    rfl)

/-- The [8192,1024] array unflattened to [4,2048,1024]: row n of slab b is row b * 2048 + n of the flat array. -/
theorem unflat_apply (y : S8192x1024.Idx → EReal) (h : S8192x1024.ShapeCasts S4x2048x1024)
    (b : Fin 4) (n : Fin 2048) (e : Fin 1024) :
    shapeCast S4x2048x1024 y h (ix3 b n e) = y (ix2 (⟨b.val * 2048 + n.val, by omega⟩ : Fin 8192) e) :=
  shapeCast_apply y h _ _ (by
    rw [Shape.rowMajor_val_three, Shape.rowMajor_val_two]
    show (b.val * 2048 + n.val) * 1024 + e.val = (b.val * 2048 + n.val) * 1024 + e.val
    rfl)

end Cert.KernelIdeal.Hand

end
-- ==== Proof.ValChain.lean ====
/- THE FLASH CALL'S FOUR INPUT ARRAYS at its entry, at the extended reals, read through the run's boundary contents: the
   activations and the query weights are the arguments as launched (nothing writes them); the key and value arrays are
   the first region's two outputs unflattened, each the flat projection of the flattened activations with its weights,
   which index by index is the projection of the specification. -/
import proofs.«409614_j37976100831500_3_alg».proof.Proof.Run
import proofs.«409614_j37976100831500_3_alg».proof.Proof.ValKv
import proofs.«409614_j37976100831500_3_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx
open Idealize.ShloMosaic.Pipeline (Dat)

/-! ## The flash call's input arrays at its entry -/

variable (m : (ℓ : Loc nD τ sig) → Buf (Elt Ideal) ℓ) (ρ : Dev nD → PrngReg)

/-- The key array at the second region's entry is the first region's key output, unflattened. -/
theorem V3_v2_reshape (c : Dev nD) :
    (V3 (F := Ideal) m ρ c main_v2 : S4x2048x1024.Idx → EReal)
      = shapeCast S4x2048x1024 (W2 (F := Ideal) m ρ c (Proc.devRef .tc main_v1_0) : S8192x1024.Idx → EReal) shapeCasts_S8192x1024_S4x2048x1024 := by
  dsimp only [V3, W3, hostOps1]; after_results; rfl

/-- The value array at the second region's entry is the first region's value output, unflattened. -/
theorem V3_v3_reshape (c : Dev nD) :
    (V3 (F := Ideal) m ρ c main_v3 : S4x2048x1024.Idx → EReal)
      = shapeCast S4x2048x1024 (W2 (F := Ideal) m ρ c (Proc.devRef .tc main_v1_1) : S8192x1024.Idx → EReal) shapeCasts_S8192x1024_S4x2048x1024 := by
  dsimp only [V3, W3, hostOps1]; after_results; rfl

/-- The activations the first region finds are the first argument, flattened. -/
theorem V1_v0_reshape (c : Dev nD) :
    (V1 (F := Ideal) m ρ c main_v0 : S8192x1024.Idx → EReal)
      = shapeCast S8192x1024 (m ((c : Thread nD τ).loc main_arg0) : S4x2048x1024.Idx → EReal) shapeCasts_S4x2048x1024_S8192x1024 := by
  dsimp only [V1, W1, hostOps0]; after_results; rfl

/-- The weights the first region finds are the arguments as launched. -/
theorem V1_arg2 (c : Dev nD) : V1 (F := Ideal) m ρ c main_arg2 = m ((c : Thread nD τ).loc main_arg2) :=
  W1_of m ρ c main_arg2 (by decide)
theorem V1_arg3 (c : Dev nD) : V1 (F := Ideal) m ρ c main_arg3 = m ((c : Thread nD τ).loc main_arg3) :=
  W1_of m ρ c main_arg3 (by decide)

/-- The first region leaves its key array at the flat projection with the key weights, -/
theorem W2_v1_0 (c : Dev nD) :
    (W2 (F := Ideal) m ρ c (Proc.devRef .tc main_v1_0) : S8192x1024.Idx → EReal)
      = projFlat (V1 (F := Ideal) m ρ c main_v0) (V1 (F := Ideal) m ρ c main_arg2) :=
  (W2_arr m ρ c 3).trans (kv_arr3 (V1 (F := Ideal) m ρ) c)
/-- and its value array at the flat projection with the value weights. -/
theorem W2_v1_1 (c : Dev nD) :
    (W2 (F := Ideal) m ρ c (Proc.devRef .tc main_v1_1) : S8192x1024.Idx → EReal)
      = projFlat (V1 (F := Ideal) m ρ c main_v0) (V1 (F := Ideal) m ρ c main_arg3) :=
  (W2_arr m ρ c 4).trans (kv_arr4 (V1 (F := Ideal) m ρ) c)

/-- The activations at the second region's entry are the first argument as launched: nothing writes it. -/
theorem V3_arg0 (c : Dev nD) : V3 (F := Ideal) m ρ c main_arg0 = m ((c : Thread nD τ).loc main_arg0) :=
  (W3_of m ρ c main_arg0 (by decide)).trans <| (W2_of_ne m ρ c main_arg0 (by decide)).trans <| W1_of m ρ c main_arg0 (by decide)

/-- The query weights at the second region's entry are the second argument as launched. -/
theorem V3_arg1 (c : Dev nD) : V3 (F := Ideal) m ρ c main_arg1 = m ((c : Thread nD τ).loc main_arg1) :=
  (W3_of m ρ c main_arg1 (by decide)).trans <| (W2_of_ne m ρ c main_arg1 (by decide)).trans <| W1_of m ρ c main_arg1 (by decide)

/-- The key array at the second region's entry is the key projection of the arguments. -/
theorem V3_v2 (c : Dev nD) (b : Fin 4) (n : Fin 2048) (e : Fin 1024) :
    V3 (F := Ideal) m ρ c main_v2 (ix3 b n e)
      = Cert.Attn.proj (m ((c : Thread nD τ).loc main_arg0)) (m ((c : Thread nD τ).loc main_arg2)) b n e := by
  rw [V3_v2_reshape, unflat_apply, W2_v1_0, projFlat_ix2]
  unfold Cert.Attn.proj
  show @Eq EReal _ _
  refine Finset.sum_congr rfl fun d _ => ?_
  rw [V1_v0_reshape, flat_apply, V1_arg2]

/-- The value array at the second region's entry is the value projection of the arguments. -/
theorem V3_v3 (c : Dev nD) (b : Fin 4) (n : Fin 2048) (e : Fin 1024) :
    V3 (F := Ideal) m ρ c main_v3 (ix3 b n e)
      = Cert.Attn.proj (m ((c : Thread nD τ).loc main_arg0)) (m ((c : Thread nD τ).loc main_arg3)) b n e := by
  rw [V3_v3_reshape, unflat_apply, W2_v1_1, projFlat_ix2]
  unfold Cert.Attn.proj
  show @Eq EReal _ _
  refine Finset.sum_congr rfl fun d _ => ?_
  rw [V1_v0_reshape, flat_apply, V1_arg3]

end Cert.KernelIdeal.Hand

end
-- ==== Proof.RefValue.lean ====
/-
  The reference side of the value claim.  Over the extended reals, with real inputs, the reference
  program's result array is the specification G: its three projections are proj, its batched product
  the raw scores, its iota comparison the causal mask k ≤ q, the division by √1024 the factor 1/32
  (which keeps -∞), its row maximum from -∞ the supremum of the row, and its normalised weights
  against the value projection are the quotient of the weighted sum by the row sum.
-/
import proofs.«409614_j37976100831500_3_alg».proof.Proof.Gen.ReferenceIdeal.Run
import proofs.«409614_j37976100831500_3_alg».proof.Proof.Gen.ReferenceIdeal.Read
import proofs.«409614_j37976100831500_3_alg».proof.Proof.Spec
import proofs.«409614_j37976100831500_3_alg».proof.Proof.SpecFacts
import proofs.«409614_j37976100831500_3_alg».proof.Proof.Softmax
import Idealize.ShloMosaic.Lib.StableHlo.Predicate
import Mathlib.Data.EReal.Basic
import Mathlib.Data.EReal.Operations

noncomputable section

open scoped BigOperators

namespace Cert.ReferenceIdeal.RefValue

open Idealize.ShloMosaic Idealize.ShloMosaic.ValueIdx Cert.ReferenceIdeal Cert.ReferenceIdeal.Read Cert.Attn

/-- Two coordinates below 2048, read as 32-bit words, compare signed as the numbers do. -/
theorem sge_word_iff (q k : Fin 2048) :
    IntOp.cmpi .sge (IntOp.addi (BitVec.ofNat 32 q.val) 0#32) (BitVec.ofNat 32 k.val) = 1#1 ↔ k ≤ q := by
  have hq : (BitVec.ofNat 32 q.val).toNat = q.val := by
    rw [BitVec.toNat_ofNat]; exact Nat.mod_eq_of_lt (by have := q.isLt; omega)
  have hk : (BitVec.ofNat 32 k.val).toNat = k.val := by
    rw [BitVec.toNat_ofNat]; exact Nat.mod_eq_of_lt (by have := k.isLt; omega)
  have ha : IntOp.addi (BitVec.ofNat 32 q.val) 0#32 = BitVec.ofNat 32 q.val := by
    show BitVec.ofNat 32 q.val + 0#32 = _
    exact BitVec.add_zero _
  rw [ha, StableHlo.Predicate.sge_iff_toNat (by rw [hq]; have := q.isLt; omega) (by rw [hk]; have := k.isLt; omega), hq, hk]
  exact Fin.le_def.symm

/-- The lower-triangular mask, entry (q, k): set exactly when k ≤ q. -/
theorem v5_eq (q k : Fin 2048) :
    val_main_v5 (F := Ideal) (ix2 q k) = if k ≤ q then 1#1 else 0#1 := by
  rw [val_main_v5_apply, val_main_call0_v4_apply, val_main_call0_v2_apply, val_main_call0_v0_apply,
    val_main_call0_v1_apply, val_main_call0_c_apply, val_main_call0_v3_apply, val_main_v4_apply, val_main_c_apply,
    val_main_call0_v5_apply, val_main_call0_c_0_apply]
  show (if IntOp.cmpi .sge (IntOp.addi (BitVec.ofNat 32 q.val) 0#32) (BitVec.ofNat 32 k.val) = 1 then 1#1 else 0#1) = _
  exact if_congr (sge_word_iff q k) rfl rfl

theorem lit_bot : Ideal.ofBits .f32 0xFF800000#32 = (⊥ : EReal) := by simp [Ideal.ofBits, Ideal.ieee]

theorem lit_1024 : Ideal.ofBits .f32 0x44800000#32 = ((1024 : ℝ) : EReal) := by
  simp [Ideal.ofBits, Ideal.ieee, -EReal.coe_mul]; norm_num

theorem sqrt_1024 : Ideal.sqrt ((1024 : ℝ) : EReal) = ((32 : ℝ) : EReal) := by
  rw [Ideal.sqrt_coe, if_neg (by norm_num)]
  have : Real.sqrt 1024 = 32 := by
    rw [show (1024 : ℝ) = 32 ^ 2 by norm_num]
    exact Real.sqrt_sq (by norm_num)
  rw [this]

/-- The row maximum from -∞ over the last axis, entry (b, q): the supremum of the row. -/
theorem reduce_max_row (y : S4x2048x2048.Idx → EReal) (b : Fin 4) (q : Fin 2048) :
    Host.reduce (FloatOps.maximumf (F := Ideal) (φ := .f32)) y (val_main_cst_1 (F := Ideal))
      Gen.reducesTo_S4x2048x2048_S4x2048_d2 Gen.h_S_ (ix2 b q)
      = Finset.univ.sup (fun k : Fin 2048 => y (ix3 b q k)) := by
  have h : S4x2048x2048.Reduces [2] S4x2048 := by decide
  refine (Host.reduce_eq_fold_single (FloatOps.maximumf (F := Ideal) (φ := .f32)) y (val_main_cst_1 (F := Ideal))
    Gen.reducesTo_S4x2048x2048_S4x2048_d2 h Gen.h_S_ (ix2 b q)).trans ?_
  have hl : ∀ k : Fin 2048, h.lift (ix2 b q) k = ix3 b q k := by
    intro k; funext c; apply Fin.ext
    fin_cases c <;> rfl
  have hf : (y ∘ h.lift (ix2 b q)) = fun k : Fin 2048 => y (ix3 b q k) := funext fun k => congrArg y (hl k)
  have hb : val_main_cst_1 (F := Ideal) (Shape.Idx.first Gen.h_S_) = (⊥ : EReal) := by
    rw [val_main_cst_1_apply, Ideal.ofBits_def, lit_bot]
  rw [hb]
  show Finset.fold max (⊥ : EReal) (y ∘ h.lift (ix2 b q)) (Finset.univ : Finset (Fin 2048)) = _
  rw [hf]
  rfl

variable (x0 : SX.Idx → EReal) (x1 x2 x3 : SW.Idx → EReal)

/-- The first projection, entry (b, n, e). -/
theorem v0_eq (b : Fin 4) (n : Fin 2048) (e : Fin 1024) :
    val_main_v0 (F := Ideal) x0 x1 (ix3 b n e) = proj x0 x1 b n e := by
  rw [val_main_v0_apply]
  unfold proj
  refine Finset.sum_congr rfl fun d _ => ?_
  have hl : lidx_main_v0 (ix3 b n e) d = ix3 b n d := by
    funext a; match a with | ⟨0, _⟩ => rfl | ⟨1, _⟩ => rfl | ⟨2, _⟩ => rfl
  have hr : ridx_main_v0 (ix3 b n e) d = ix2 d e := by
    funext a; match a with | ⟨0, _⟩ => rfl | ⟨1, _⟩ => rfl
  rw [hl, hr]

theorem v1_eq (b : Fin 4) (n : Fin 2048) (e : Fin 1024) :
    val_main_v1 (F := Ideal) x0 x2 (ix3 b n e) = proj x0 x2 b n e := v0_eq x0 x2 b n e

theorem v2_eq (b : Fin 4) (n : Fin 2048) (e : Fin 1024) :
    val_main_v2 (F := Ideal) x0 x3 (ix3 b n e) = proj x0 x3 b n e := v0_eq x0 x3 b n e

/-- The raw scores, entry (b, q, k). -/
theorem v3_eq (b : Fin 4) (q k : Fin 2048) :
    val_main_v3 (F := Ideal) x0 x1 x2 (ix3 b q k) = ∑ e : Fin 1024, proj x0 x1 b q e * proj x0 x2 b k e := by
  rw [val_main_v3_apply]
  refine Finset.sum_congr rfl fun e _ => ?_
  have hl : lidx_main_v3 (ix3 b q k) e = ix3 b q e := by
    funext a; match a with | ⟨0, _⟩ => rfl | ⟨1, _⟩ => rfl | ⟨2, _⟩ => rfl
  have hr : ridx_main_v3 (ix3 b q k) e = ix3 b k e := by
    funext a; match a with | ⟨0, _⟩ => rfl | ⟨1, _⟩ => rfl | ⟨2, _⟩ => rfl
  rw [hl, hr, v0_eq, v1_eq]

/-- The masked scores: the raw score where k ≤ q, -∞ elsewhere. -/
theorem v6_eq (b : Fin 4) (q k : Fin 2048) :
    val_main_v6 (F := Ideal) x0 x1 x2 (ix3 b q k)
      = if k ≤ q then ∑ e : Fin 1024, proj x0 x1 b q e * proj x0 x2 b k e else ⊥ := by
  have hi : idx_main_call1_v1 (ix3 b q k) = ix2 q k := by
    funext a; match a with | ⟨0, _⟩ => rfl | ⟨1, _⟩ => rfl
  rw [val_main_v6_apply, val_main_call1_v1_apply, hi, v5_eq, v3_eq, val_main_call1_v2_apply, val_main_call1_v0_apply,
    val_main_cst_apply, Ideal.ofBits_def, lit_bot]
  by_cases h : k ≤ q
  · rw [if_pos h, if_pos h, select_one]
  · rw [if_neg h, if_neg h, select_zero]

/-- The divisor: the square root of 1024 is 32 everywhere. -/
theorem v8_eq (i : S4x2048x2048.Idx) : val_main_v8 (F := Ideal) i = ((32 : ℝ) : EReal) := by
  rw [val_main_v8_apply, val_main_v7_apply, val_main_cst_0_apply, Ideal.ofBits_def, lit_1024,
    Ideal.hostUnary_sqrt_def, sqrt_1024]

/-- The scaled masked scores are the specification's scores. -/
theorem v9_eq (b : Fin 4) (q k : Fin 2048) :
    val_main_v9 (F := Ideal) x0 x1 x2 (ix3 b q k) = score x0 x1 x2 b q k := by
  rw [val_main_v9_apply, v6_eq, v8_eq, Ideal.hostDivf_def, Ideal.div_coe (by norm_num : (32 : ℝ) ≠ 0)]
  unfold score
  by_cases h : k ≤ q
  · rw [if_pos h, if_pos h]
  · rw [if_neg h, if_neg h]; exact EReal.bot_mul_coe_of_pos (by norm_num)

/-- The reduced row maximum is the specification's. -/
theorem v10_eq (b : Fin 4) (q : Fin 2048) :
    val_main_v10 (F := Ideal) x0 x1 x2 (ix2 b q) = rowMax x0 x1 x2 b q := by
  unfold val_main_v10
  rw [reduce_max_row]
  unfold rowMax
  exact congrArg (fun f => Finset.univ.sup f) (funext fun k => v9_eq x0 x1 x2 b q k)

/-- The maximum against -∞ changes nothing. -/
theorem v12_eq (b : Fin 4) (q : Fin 2048) :
    val_main_v12 (F := Ideal) x0 x1 x2 (ix2 b q) = rowMax x0 x1 x2 b q := by
  rw [val_main_v12_apply, val_main_v11_apply, val_main_cst_2_apply, Ideal.ofBits_def, lit_bot, v10_eq,
    Ideal.maximumf_def]
  exact max_eq_right bot_le

/-- The row maximum broadcast back along the keys. -/
theorem v14_eq (b : Fin 4) (q k : Fin 2048) :
    val_main_v14 (F := Ideal) x0 x1 x2 (ix3 b q k) = rowMax x0 x1 x2 b q := by
  have hi : idx_main_v13 (idx_main_v14 (ix3 b q k)) = ix2 b q := by
    funext a; match a with | ⟨0, _⟩ => rfl | ⟨1, _⟩ => rfl
  rw [val_main_v14_apply, val_main_v13_apply, hi, v12_eq]

/-- The exponentials of the shifted scores. -/
theorem v16_eq (b : Fin 4) (q k : Fin 2048) :
    val_main_v16 (F := Ideal) x0 x1 x2 (ix3 b q k)
      = Ideal.exp (score x0 x1 x2 b q k - rowMax x0 x1 x2 b q) := by
  rw [val_main_v16_apply, val_main_v15_apply, v9_eq, v14_eq, Ideal.hostUnary_exp_def, Ideal.subf_def]

/-- The row sums of the exponentials. -/
theorem v17_eq (b : Fin 4) (q : Fin 2048) :
    val_main_v17 (F := Ideal) x0 x1 x2 (ix2 b q)
      = ∑ k : Fin 2048, Ideal.exp (score x0 x1 x2 b q k - rowMax x0 x1 x2 b q) := by
  rw [val_main_v17_apply, val_main_cst_3_apply, Ideal.ofBits_def, Ideal.ofBits_zero_f32, zero_add]
  refine Finset.sum_congr rfl fun k _ => ?_
  have hi : idx_main_v17 (ix2 b q) k = ix3 b q k := by
    funext a; match a with | ⟨0, _⟩ => rfl | ⟨1, _⟩ => rfl | ⟨2, _⟩ => rfl
  rw [hi, v16_eq]

/-- The row sum broadcast back along the keys. -/
theorem v19_eq (b : Fin 4) (q k : Fin 2048) :
    val_main_v19 (F := Ideal) x0 x1 x2 (ix3 b q k)
      = ∑ k' : Fin 2048, Ideal.exp (score x0 x1 x2 b q k' - rowMax x0 x1 x2 b q) := by
  have hi : idx_main_v18 (idx_main_v19 (ix3 b q k)) = ix2 b q := by
    funext a; match a with | ⟨0, _⟩ => rfl | ⟨1, _⟩ => rfl
  rw [val_main_v19_apply, val_main_v18_apply, hi, v17_eq]

/-- The softmax weights. -/
theorem v20_eq (b : Fin 4) (q k : Fin 2048) :
    val_main_v20 (F := Ideal) x0 x1 x2 (ix3 b q k)
      = Ideal.div (Ideal.exp (score x0 x1 x2 b q k - rowMax x0 x1 x2 b q))
          (∑ k' : Fin 2048, Ideal.exp (score x0 x1 x2 b q k' - rowMax x0 x1 x2 b q)) := by
  rw [val_main_v20_apply, v16_eq, v19_eq, Ideal.hostDivf_def]

/-- The result: the weights against the value projection. -/
theorem v21_eq (b : Fin 4) (q : Fin 2048) (e : Fin 1024) :
    val_main_v21 (F := Ideal) x0 x1 x2 x3 (ix3 b q e)
      = ∑ k : Fin 2048, Ideal.div (Ideal.exp (score x0 x1 x2 b q k - rowMax x0 x1 x2 b q))
          (∑ k' : Fin 2048, Ideal.exp (score x0 x1 x2 b q k' - rowMax x0 x1 x2 b q)) * proj x0 x3 b k e := by
  rw [val_main_v21_apply]
  refine Finset.sum_congr rfl fun k _ => ?_
  have hl : lidx_main_v21 (ix3 b q e) k = ix3 b q k := by
    funext a; match a with | ⟨0, _⟩ => rfl | ⟨1, _⟩ => rfl | ⟨2, _⟩ => rfl
  have hr : ridx_main_v21 (ix3 b q e) k = ix3 b k e := by
    funext a; match a with | ⟨0, _⟩ => rfl | ⟨1, _⟩ => rfl | ⟨2, _⟩ => rfl
  rw [hl, hr, v20_eq, v2_eq]

/-- With real inputs the reference program's result is the specification. -/
theorem ref_eq_G (x0 : Cert.Attn.SX.Idx → EReal) (x1 x2 x3 : Cert.Attn.SW.Idx → EReal)
    (h0 : Cert.Attn.AllReal x0) (h1 : Cert.Attn.AllReal x1) (h2 : Cert.Attn.AllReal x2) (h3 : Cert.Attn.AllReal x3) :
    Cert.ReferenceIdeal.Read.val_main_v21 (F := Ideal) x0 x1 x2 x3 = Cert.Attn.G x0 x1 x2 x3 := by
  funext i
  obtain ⟨b, q, e, rfl⟩ : ∃ (b : Fin 4) (q : Fin 2048) (e : Fin 1024), i = ix3 b q e := ⟨i 0, i 1, i 2, eq_ix3 i⟩
  rw [v21_eq, G_ix3]
  unfold attn rowMax
  exact softmax_avg (score x0 x1 x2 b q) (fun k => proj x0 x3 b k e)
    (fun k => score_real_or_bot h0 h1 h2 b q k) ⟨q, score_real h0 h1 h2 b le_rfl⟩
    (fun k => proj_real h0 h3 b k e)

end Cert.ReferenceIdeal.RefValue
end
-- ==== Proof.Finite.lean ====
import proofs.«409614_j37976100831500_3_alg».proof.Proof.Gen.Pre_finite_inputs
import proofs.«409614_j37976100831500_3_alg».proof.Proof.Spec
import Idealize.ShloMosaic.Lib.ReduceAll
import Idealize.ShloMosaic.Lib.ValueIdx
import Idealize.ShloMosaic.PureOps.Ideal

/-!
# From the stated precondition to real entries

The precondition is the conjunction of four statements "every entry of the array has absolute
value below +∞". An extended real whose absolute value max x (-x) is strictly below ⊤ is neither
⊤ nor ⊥, hence a real number; a conjunction over all entries that holds gives the statement at
every entry.
-/

namespace Cert.Attn

open Idealize.ShloMosaic

/-- The pattern of +∞ denotes ⊤. -/
theorem ofBits_inf : Ideal.ofBits .f32 0x7F800000#32 = ⊤ := by
  simp [Ideal.ofBits, Ideal.ieee]

/-- An extended real whose absolute value is strictly below +∞ is a real number. -/
theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- The rank-0 shape has one index. -/
instance subsingleton_scalar_idx : Subsingleton Cert.Pre_finite_inputs.S_.Idx :=
  ⟨fun _ _ => funext fun d => d.elim0⟩

theorem allReal_of_pre [Cert.Pre_finite_inputs.Facts] (x0 : SX.Idx → EReal)
    (x1 x2 x3 : SW.Idx → EReal)
    (h : Cert.Pre_finite_inputs.fn (F := Ideal) x0 x1 x2 x3 = fun _ => 1#1) :
    AllReal x0 ∧ AllReal x1 ∧ AllReal x2 ∧ AllReal x3 := by
  have h1 := congrFun h ValueIdx.ix0
  dsimp only [Cert.Pre_finite_inputs.fn, Cert.Pre_finite_inputs.fn_part1] at h1
  obtain ⟨h012, e3⟩ := IntOp.andi_eq_one.1 h1
  obtain ⟨h01, e2⟩ := IntOp.andi_eq_one.1 h012
  obtain ⟨e0, e1⟩ := IntOp.andi_eq_one.1 h01
  exact ⟨fun j => real_of_abs_lt_inf (x0 j) (Host.reduce_andi_all _ _ _ _ _ e0 j),
    fun j => real_of_abs_lt_inf (x1 j) (Host.reduce_andi_all _ _ _ _ _ e1 j),
    fun j => real_of_abs_lt_inf (x2 j) (Host.reduce_andi_all _ _ _ _ _ e2 j),
    fun j => real_of_abs_lt_inf (x3 j) (Host.reduce_andi_all _ _ _ _ _ e3 j)⟩

end Cert.Attn
-- ==== Proof.lean ====
/-
  The certificate: a causal flash-attention kernel with a fused query projection (two pallas calls: the key and
  value projections, then the attention itself over a triangular grid of (query tile, key tile ≤ query tile)
  steps read from two step tables) against plain softmax attention.

  Over the extended reals both programs compute, for finite inputs, the array
    G(b, q, e) = Σ_{k ≤ q} softmax_k( (x Wq)(b,q,·) · (x Wk)(b,k,·) / 32 ) · (x Wv)(b, k, e).
  The reference does so literally (masked scores, row maximum, exponentials, row sum, quotient, product).
  The kernel keeps per query tile a running row maximum, denominator and numerator over the key tiles it
  visits (the online-softmax recurrence, started from -∞, 0, 0 at the first key tile) and divides at the
  last; the recurrence equals the plain softmax average because rescaling by exp(m_old - m_new) commutes with
  the finite sums of real exponentials, and the key tiles never visited are wholly masked.
  The three frames: each kernel program's run is proved region by region (the projection call stores two
  matrix products per row block; the attention call's scratch contents follow a recursion over its forty
  grid points), the reference's is its generated run. The idealization names the kernel's finite stand-in
  for -∞ as -∞ at both of its sites.
-/
import proofs.«409614_j37976100831500_3_alg».proof.Defs
import proofs.«409614_j37976100831500_3_alg».proof.Proof.Gen.Kernel
import proofs.«409614_j37976100831500_3_alg».proof.Proof.Gen.KernelIdeal
import proofs.«409614_j37976100831500_3_alg».proof.Proof.Gen.ReferenceIdeal
import proofs.«409614_j37976100831500_3_alg».proof.Proof.Gen.Pre_finite_inputs
import proofs.«409614_j37976100831500_3_alg».proof.Proof.Run
import proofs.«409614_j37976100831500_3_alg».proof.Proof.B_Run
import proofs.«409614_j37976100831500_3_alg».proof.Proof.ValOut
import proofs.«409614_j37976100831500_3_alg».proof.Proof.ValChain
import proofs.«409614_j37976100831500_3_alg».proof.Proof.RefValue
import proofs.«409614_j37976100831500_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched: every unscoped buffer ends at the
    last boundary's contents, and an argument's buffer there is its launch contents. -/
theorem frame_k : Cert.frame_Kernel := fun m ρ _ =>
  (θ_run Cert.Kernel.defs _ _).mono (fun _ h c =>
    ⟨(h c _ (Cert.Kernel.Hand.mem_uc Cert.Kernel.main_arg0 (by decide))).trans (Cert.Kernel.Hand.W4_main_arg0 m ρ c),
     (h c _ (Cert.Kernel.Hand.mem_uc Cert.Kernel.main_arg1 (by decide))).trans (Cert.Kernel.Hand.W4_main_arg1 m ρ c),
     (h c _ (Cert.Kernel.Hand.mem_uc Cert.Kernel.main_arg2 (by decide))).trans (Cert.Kernel.Hand.W4_main_arg2 m ρ c),
     (h c _ (Cert.Kernel.Hand.mem_uc Cert.Kernel.main_arg3 (by decide))).trans (Cert.Kernel.Hand.W4_main_arg3 m ρ c)⟩)
    (Cert.Kernel.Hand.run_main (F := Bits) m ρ)

/-- The idealized kernel program likewise. -/
theorem frame_ki : Cert.frame_KernelIdeal := fun m ρ _ =>
  (θ_run Cert.KernelIdeal.defs _ _).mono (fun _ h c =>
    ⟨(h c _ (Cert.KernelIdeal.Hand.mem_uc Cert.KernelIdeal.main_arg0 (by decide))).trans (Cert.KernelIdeal.Hand.W4_main_arg0 m ρ c),
     (h c _ (Cert.KernelIdeal.Hand.mem_uc Cert.KernelIdeal.main_arg1 (by decide))).trans (Cert.KernelIdeal.Hand.W4_main_arg1 m ρ c),
     (h c _ (Cert.KernelIdeal.Hand.mem_uc Cert.KernelIdeal.main_arg2 (by decide))).trans (Cert.KernelIdeal.Hand.W4_main_arg2 m ρ c),
     (h c _ (Cert.KernelIdeal.Hand.mem_uc Cert.KernelIdeal.main_arg3 (by decide))).trans (Cert.KernelIdeal.Hand.W4_main_arg3 m ρ c)⟩)
    (Cert.KernelIdeal.Hand.run_main (F := Ideal) m ρ)

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both sites of the kernel's finite stand-in for -∞ are named -∞ by the certificate's table. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- From memories agreeing on finite arguments both idealized programs end with the array `G` of the arguments. -/
theorem algebraic : Cert.algebraic_KernelIdeal_ReferenceIdeal := by
  intro m ρ m' ρ' hpre hagree
  have hr := fun c => Cert.Attn.allReal_of_pre _ _ _ _ (hpre c)
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨?_,
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c)⟩)
      (Cert.KernelIdeal.Hand.run_main (F := Ideal) m ρ)
    refine (h c _ (Cert.KernelIdeal.Hand.mem_uc Cert.KernelIdeal.main_v4 (by decide))).trans ?_
    refine (Cert.KernelIdeal.Hand.W4_main_v4 m ρ c).trans ?_
    exact Cert.KernelIdeal.Hand.flash_arr4 (Cert.KernelIdeal.Hand.V3 m ρ) c _ _ _ _
      (Cert.KernelIdeal.Hand.V3_arg0 m ρ c) (Cert.KernelIdeal.Hand.V3_arg1 m ρ c)
      (Cert.KernelIdeal.Hand.V3_v2 m ρ c) (Cert.KernelIdeal.Hand.V3_v3 m ρ c)
      (hr c).1 (hr c).2.1 (hr c).2.2.1 (hr c).2.2.2
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, (hagree c).1, (hagree c).2.1, (hagree c).2.2.1, (hagree c).2.2.2]
    exact Cert.ReferenceIdeal.RefValue.ref_eq_G _ _ _ _ (hr c).1 (hr c).2.1 (hr c).2.2.1 (hr c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
